-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x2400000 : Shape := ⟨2, ![2, 2400000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x3 .f32) (main_arg1 : IVec S2x2400000 32) (main_arg2 : FVec F S3x16 .f32) (main_arg3 : FVec F S16 .f32) (main_arg4 : FVec F S16x32 .f32) (main_arg5 : FVec F S32 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_v13 main_v16
-- ==== Kernel.lean ====
abbrev S100000x3 : Shape := ⟨2, ![100000, 3]⟩
abbrev S2x2400000 : Shape := ⟨2, ![2, 2400000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S1x2400000 : Shape := ⟨2, ![1, 2400000]⟩
abbrev S2400000 : Shape := ⟨1, ![2400000]⟩
abbrev S100000 : Shape := ⟨1, ![100000]⟩
abbrev S2500000 : Shape := ⟨1, ![2500000]⟩
abbrev S_ : Shape := ⟨0, ![]⟩
abbrev S2500000x1 : Shape := ⟨2, ![2500000, 1]⟩
abbrev S100000x16 : Shape := ⟨2, ![100000, 16]⟩
abbrev S2000x3 : Shape := ⟨2, ![2000, 3]⟩
abbrev S2000x16 : Shape := ⟨2, ![2000, 16]⟩
abbrev S2500000x16 : Shape := ⟨2, ![2500000, 16]⟩
abbrev S1x16 : Shape := ⟨2, ![1, 16]⟩
abbrev S100000x32 : Shape := ⟨2, ![100000, 32]⟩
abbrev S2000x32 : Shape := ⟨2, ![2000, 32]⟩
abbrev S2500000x32 : Shape := ⟨2, ![2500000, 32]⟩
abbrev S1x32 : Shape := ⟨2, ![1, 32]⟩

abbrev nBuf : Space → Nat
  | .hbm => 85
  | .vmem => 24
  | .smem => 0
  | _ => 0

abbrev bufTy : (tb : Table) → Fin (tcTables nBuf tb) → BufTy
  | .hbm, ⟨0, _⟩ => ⟨S100000x3, .f32⟩
  | .hbm, ⟨1, _⟩ => ⟨S2x2400000, .i32⟩
  | .hbm, ⟨2, _⟩ => ⟨S3x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x2400000, .i32⟩
  | .hbm, ⟨7, _⟩ => ⟨S2400000, .i32⟩
  | .hbm, ⟨8, _⟩ => ⟨S1x2400000, .i32⟩
  | .hbm, ⟨9, _⟩ => ⟨S2400000, .i32⟩
  | .hbm, ⟨10, _⟩ => ⟨S100000, .i32⟩
  | .hbm, ⟨11, _⟩ => ⟨S2500000, .i32⟩
  | .hbm, ⟨12, _⟩ => ⟨S2500000, .i32⟩
  | .hbm, ⟨13, _⟩ => ⟨S_, .f32⟩
  | .hbm, ⟨14, _⟩ => ⟨S2500000, .f32⟩
  | .hbm, ⟨15, _⟩ => ⟨S_, .f32⟩
  | .hbm, ⟨16, _⟩ => ⟨S100000, .f32⟩
  | .hbm, ⟨17, _⟩ => ⟨S2500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S2500000, .i32⟩
  | .hbm, ⟨29, _⟩ => ⟨S2500000, .i1⟩
  | .hbm, ⟨30, _⟩ => ⟨S_, .i32⟩
  | .hbm, ⟨31, _⟩ => ⟨S2500000, .i32⟩
  | .hbm, ⟨32, _⟩ => ⟨S2500000, .i32⟩
  | .hbm, ⟨33, _⟩ => ⟨S2500000, .i32⟩
  | .hbm, ⟨34, _⟩ => ⟨S2500000x1, .i32⟩
  | .hbm, ⟨35, _⟩ => ⟨S2500000, .f32⟩
  | .hbm, ⟨36, _⟩ => ⟨S_, .i32⟩
  | .hbm, ⟨37, _⟩ => ⟨S2500000, .i32⟩
  | .hbm, ⟨38, _⟩ => ⟨S2500000, .i1⟩
  | .hbm, ⟨39, _⟩ => ⟨S_, .i32⟩
  | .hbm, ⟨40, _⟩ => ⟨S2500000, .i32⟩
  | .hbm, ⟨41, _⟩ => ⟨S2500000, .i32⟩
  | .hbm, ⟨42, _⟩ => ⟨S2500000, .i32⟩
  | .hbm, ⟨43, _⟩ => ⟨S2500000x1, .i32⟩
  | .hbm, ⟨44, _⟩ => ⟨S2500000, .f32⟩
  | .hbm, ⟨45, _⟩ => ⟨S2500000, .f32⟩
  | .hbm, ⟨46, _⟩ => ⟨S100000x16, .f32⟩
  | .hbm, ⟨47, _⟩ => ⟨S_, .i32⟩
  | .hbm, ⟨48, _⟩ => ⟨S2500000, .i32⟩
  | .hbm, ⟨49, _⟩ => ⟨S2500000, .i1⟩
  | .hbm, ⟨50, _⟩ => ⟨S_, .i32⟩
  | .hbm, ⟨51, _⟩ => ⟨S2500000, .i32⟩
  | .hbm, ⟨52, _⟩ => ⟨S2500000, .i32⟩
  | .hbm, ⟨53, _⟩ => ⟨S2500000, .i32⟩
  | .hbm, ⟨54, _⟩ => ⟨S2500000x1, .i32⟩
  | .hbm, ⟨55, _⟩ => ⟨S2500000x16, .f32⟩
  | .hbm, ⟨56, _⟩ => ⟨S2500000x1, .f32⟩
  | .hbm, ⟨57, _⟩ => ⟨S2500000x16, .f32⟩
  | .hbm, ⟨58, _⟩ => ⟨S2500000x16, .f32⟩
  | .hbm, ⟨59, _⟩ => ⟨S_, .f32⟩
  | .hbm, ⟨60, _⟩ => ⟨S100000x16, .f32⟩
  | .hbm, ⟨61, _⟩ => ⟨S2500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x32, .f32⟩
  | .hbm, ⟨66, _⟩ => ⟨S_, .i32⟩
  | .hbm, ⟨67, _⟩ => ⟨S2500000, .i32⟩
  | .hbm, ⟨68, _⟩ => ⟨S2500000, .i1⟩
  | .hbm, ⟨69, _⟩ => ⟨S_, .i32⟩
  | .hbm, ⟨70, _⟩ => ⟨S2500000, .i32⟩
  | .hbm, ⟨71, _⟩ => ⟨S2500000, .i32⟩
  | .hbm, ⟨72, _⟩ => ⟨S2500000, .i32⟩
  | .hbm, ⟨73, _⟩ => ⟨S2500000x1, .i32⟩
  | .hbm, ⟨74, _⟩ => ⟨S2500000x32, .f32⟩
  | .hbm, ⟨75, _⟩ => ⟨S2500000x1, .f32⟩
  | .hbm, ⟨76, _⟩ => ⟨S2500000x32, .f32⟩
  | .hbm, ⟨77, _⟩ => ⟨S2500000x32, .f32⟩
  | .hbm, ⟨78, _⟩ => ⟨S_, .f32⟩
  | .hbm, ⟨79, _⟩ => ⟨S100000x32, .f32⟩
  | .hbm, ⟨80, _⟩ => ⟨S2500000x1, .i32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S1x32, .f32⟩
  | .local _ .vmem, ⟨0, _⟩ => ⟨S2000x3, .f32⟩
  | .local _ .vmem, ⟨1, _⟩ => ⟨S2000x3, .f32⟩
  | .local _ .vmem, ⟨2, _⟩ => ⟨S3x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S1x32, .f32⟩
  | .local _ .vmem, ⟨23, _⟩ => ⟨S1x32, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v12 : BitVec 1 := Scalar.cmpi .eq arg0 c49_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S100000_S2500000_d0 : Shape.Concatenates [S2400000, S100000] S2500000 0
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S2000x16_S2000x16_0_0 : ∀ a, (![0, 0] : Fin 2 → Nat) a + S2000x16.size a ≤ S2000x16.size a
  h_S2000x16 : 0 < S2000x16.numel
  bcast_S2500000x1_S2500000x16_0_1 : S2500000x1.BroadcastsInDim S2500000x16 (![0, 1] : Fin 2 → Fin S2500000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S2000x32_S2000x32_0_0 : ∀ a, (![0, 0] : Fin 2 → Nat) a + S2000x32.size a ≤ S2000x32.size a
  h_S2000x32 : 0 < S2000x32.numel
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S32 : S2000x32.Reduces [0] S32
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  dot_S2000x3_S3x16_S2000x16_1_0_0_1_n_n_wf : DotDims.WF S2000x3 S3x16 S2000x16 [1] [0] [0] [1] [] []
  gather_S100000x16_S2500000x1_S2500000x16_1_0_n_n_0_1_116_wf : GatherDims.WF S100000x16 S2500000x1 S2500000x16 [1] [0] [] [0] [] 1 ![1, 16]
  scatter_S100000x16_S2500000x1_S2500000x16_1_0_0_1_wf : ScatterDims.WF S100000x16 S2500000x1 S2500000x16 [1] [0] [0] 1
  dot_S2000x16_S16x32_S2000x32_1_0_0_1_n_n_wf : DotDims.WF S2000x16 S16x32 S2000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def dot_S2000x3_S3x16_S2000x16_1_0_0_1_n_n : DotDims S2000x3 S3x16 S2000x16 where
  lhsContracting := [1]
  rhsContracting := [0]
  lhsNonContracting := [0]
  rhsNonContracting := [1]
  lhsBatch := []
  rhsBatch := []
  wf := dot_S2000x3_S3x16_S2000x16_1_0_0_1_n_n_wf
def gather_S100000x16_S2500000x1_S2500000x16_1_0_n_n_0_1_116 : GatherDims S100000x16 S2500000x1 S2500000x16 where
  offsetDims := [1]
  collapsedSliceDims := [0]
  operandBatchingDims := []
  startIndicesBatchingDims := []
  startIndexMap := [0]
  indexVectorDim := 1
  sliceSizes := ![1, 16]
  wf := gather_S100000x16_S2500000x1_S2500000x16_1_0_n_n_0_1_116_wf
def scatter_S100000x16_S2500000x1_S2500000x16_1_0_0_1 : ScatterDims S100000x16 S2500000x1 S2500000x16 where
  updateWindowDims := [1]
  insertedWindowDims := [0]
  scatterDimsToOperandDims := [0]
  indexVectorDim := 1
  wf := scatter_S100000x16_S2500000x1_S2500000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x32.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S100000x3 : Shape := ⟨2, ![100000, 3]⟩
abbrev S2x2400000 : Shape := ⟨2, ![2, 2400000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S1x2400000 : Shape := ⟨2, ![1, 2400000]⟩
abbrev S2400000 : Shape := ⟨1, ![2400000]⟩
abbrev S100000 : Shape := ⟨1, ![100000]⟩
abbrev S2500000 : Shape := ⟨1, ![2500000]⟩
abbrev S_ : Shape := ⟨0, ![]⟩
abbrev S2500000x1 : Shape := ⟨2, ![2500000, 1]⟩
abbrev S100000x16 : Shape := ⟨2, ![100000, 16]⟩
abbrev S2500000x16 : Shape := ⟨2, ![2500000, 16]⟩
abbrev S1x16 : Shape := ⟨2, ![1, 16]⟩
abbrev S100000x32 : Shape := ⟨2, ![100000, 32]⟩
abbrev S2500000x32 : Shape := ⟨2, ![2500000, 32]⟩
abbrev S1x32 : Shape := ⟨2, ![1, 32]⟩

abbrev nBuf : Space → Nat
  | .hbm => 135
  | .vmem => 0
  | .smem => 0
  | _ => 0

abbrev hbmTy0_0 (i : Nat) : BufTy := match i % 128 with
  | 0 => ⟨S100000x3, .f32⟩
  | 1 => ⟨S2x2400000, .i32⟩
  | 2 => ⟨S3x16, .f32⟩
  | 3 => ⟨S16, .f32⟩
  | 4 => ⟨S16x32, .f32⟩
  | 5 => ⟨S32, .f32⟩
  | 6 => ⟨S1x2400000, .i32⟩
  | 7 => ⟨S2400000, .i32⟩
  | 8 => ⟨S1x2400000, .i32⟩
  | 9 => ⟨S2400000, .i32⟩
  | 10 => ⟨S100000, .i32⟩
  | 11 => ⟨S2500000, .i32⟩
  | 12 => ⟨S2500000, .i32⟩
  | 13 => ⟨S_, .f32⟩
  | 14 => ⟨S2500000, .f32⟩
  | 15 => ⟨S_, .f32⟩
  | 16 => ⟨S100000, .f32⟩
  | 17 => ⟨S2500000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S2500000, .i32⟩
  | 29 => ⟨S2500000, .i1⟩
  | 30 => ⟨S_, .i32⟩
  | 31 => ⟨S2500000, .i32⟩
  | 32 => ⟨S2500000, .i32⟩
  | 33 => ⟨S2500000, .i32⟩
  | 34 => ⟨S2500000x1, .i32⟩
  | 35 => ⟨S2500000, .f32⟩
  | 36 => ⟨S_, .i32⟩
  | 37 => ⟨S2500000, .i32⟩
  | 38 => ⟨S2500000, .i1⟩
  | 39 => ⟨S_, .i32⟩
  | 40 => ⟨S2500000, .i32⟩
  | 41 => ⟨S2500000, .i32⟩
  | 42 => ⟨S2500000, .i32⟩
  | 43 => ⟨S2500000x1, .i32⟩
  | 44 => ⟨S2500000, .f32⟩
  | 45 => ⟨S2500000, .f32⟩
  | 46 => ⟨S100000x16, .f32⟩
  | 47 => ⟨S_, .i32⟩
  | 48 => ⟨S2500000, .i32⟩
  | 49 => ⟨S2500000, .i1⟩
  | 50 => ⟨S_, .i32⟩
  | 51 => ⟨S2500000, .i32⟩
  | 52 => ⟨S2500000, .i32⟩
  | 53 => ⟨S2500000, .i32⟩
  | 54 => ⟨S2500000x1, .i32⟩
  | 55 => ⟨S2500000x16, .f32⟩
  | 56 => ⟨S2500000x1, .f32⟩
  | 57 => ⟨S2500000x16, .f32⟩
  | 58 => ⟨S2500000x16, .f32⟩
  | 59 => ⟨S_, .f32⟩
  | 60 => ⟨S100000x16, .f32⟩
  | 61 => ⟨S2500000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S1x2400000, .i32⟩
  | 70 => ⟨S2400000, .i32⟩
  | 71 => ⟨S1x2400000, .i32⟩
  | 72 => ⟨S2400000, .i32⟩
  | 73 => ⟨S100000, .i32⟩
  | 74 => ⟨S2500000, .i32⟩
  | 75 => ⟨S2500000, .i32⟩
  | 76 => ⟨S_, .f32⟩
  | 77 => ⟨S2500000, .f32⟩
  | 78 => ⟨S_, .f32⟩
  | 79 => ⟨S100000, .f32⟩
  | 80 => ⟨S2500000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S2500000, .i32⟩
  | 92 => ⟨S2500000, .i1⟩
  | 93 => ⟨S_, .i32⟩
  | 94 => ⟨S2500000, .i32⟩
  | 95 => ⟨S2500000, .i32⟩
  | 96 => ⟨S2500000, .i32⟩
  | 97 => ⟨S2500000x1, .i32⟩
  | 98 => ⟨S2500000, .f32⟩
  | 99 => ⟨S_, .i32⟩
  | 100 => ⟨S2500000, .i32⟩
  | 101 => ⟨S2500000, .i1⟩
  | 102 => ⟨S_, .i32⟩
  | 103 => ⟨S2500000, .i32⟩
  | 104 => ⟨S2500000, .i32⟩
  | 105 => ⟨S2500000, .i32⟩
  | 106 => ⟨S2500000x1, .i32⟩
  | 107 => ⟨S2500000, .f32⟩
  | 108 => ⟨S2500000, .f32⟩
  | 109 => ⟨S100000x32, .f32⟩
  | 110 => ⟨S_, .i32⟩
  | 111 => ⟨S2500000, .i32⟩
  | 112 => ⟨S2500000, .i1⟩
  | 113 => ⟨S_, .i32⟩
  | 114 => ⟨S2500000, .i32⟩
  | 115 => ⟨S2500000, .i32⟩
  | 116 => ⟨S2500000, .i32⟩
  | 117 => ⟨S2500000x1, .i32⟩
  | 118 => ⟨S2500000x32, .f32⟩
  | 119 => ⟨S2500000x1, .f32⟩
  | 120 => ⟨S2500000x32, .f32⟩
  | 121 => ⟨S2500000x32, .f32⟩
  | 122 => ⟨S_, .f32⟩
  | 123 => ⟨S100000x32, .f32⟩
  | 124 => ⟨S2500000x1, .i32⟩
  | 125 => ⟨S100000x32, .f32⟩
  | 126 => ⟨S1x32, .f32⟩
  | 127 => ⟨S100000x32, .f32⟩
  | _ => ⟨S100000x3, .f32⟩

abbrev hbmTy0_1 (i : Nat) : BufTy := match i % 128 with
  | 0 => ⟨S100000x32, .f32⟩
  | 1 => ⟨S_, .f32⟩
  | 2 => ⟨S32, .f32⟩
  | 3 => ⟨S1x32, .f32⟩
  | 4 => ⟨S_, .f32⟩
  | 5 => ⟨S1x32, .f32⟩
  | 6 => ⟨S1x32, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S100000_S2500000_d0 : Shape.Concatenates [S2400000, S100000] S2500000 0
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S2500000x1_S2500000x16_0_1 : S2500000x1.BroadcastsInDim S2500000x16 (![0, 1] : Fin 2 → Fin S2500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S1x32 : S_.BroadcastsInDim S1x32 (![] : Fin 0 → Fin S1x32.rank)
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  dot_S100000x3_S3x16_S100000x16_1_0_0_1_n_n_wf : DotDims.WF S100000x3 S3x16 S100000x16 [1] [0] [0] [1] [] []
  gather_S100000x16_S2500000x1_S2500000x16_1_0_n_n_0_1_116_wf : GatherDims.WF S100000x16 S2500000x1 S2500000x16 [1] [0] [] [0] [] 1 ![1, 16]
  scatter_S100000x16_S2500000x1_S2500000x16_1_0_0_1_wf : ScatterDims.WF S100000x16 S2500000x1 S2500000x16 [1] [0] [0] 1
  dot_S100000x16_S16x32_S100000x32_1_0_0_1_n_n_wf : DotDims.WF S100000x16 S16x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S2500000x1_S2500000x16_1_0_n_n_0_1_116 : GatherDims S100000x16 S2500000x1 S2500000x16 where
  offsetDims := [1]
  collapsedSliceDims := [0]
  operandBatchingDims := []
  startIndicesBatchingDims := []
  startIndexMap := [0]
  indexVectorDim := 1
  sliceSizes := ![1, 16]
  wf := gather_S100000x16_S2500000x1_S2500000x16_1_0_n_n_0_1_116_wf
def scatter_S100000x16_S2500000x1_S2500000x16_1_0_0_1 : ScatterDims S100000x16 S2500000x1 S2500000x16 where
  updateWindowDims := [1]
  insertedWindowDims := [0]
  scatterDimsToOperandDims := [0]
  indexVectorDim := 1
  wf := scatter_S100000x16_S2500000x1_S2500000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf

class Facts : Prop extends Facts₀ where

variable [Facts]
-- ==== Proof.K.Reg0.lean ====
/-
  Region 0 of the program: the first dense product, `x · W1`, one block of 2000 rows per grid point.

  At a parameter `V` — what the core's buffers hold when the region is entered — this module says what
  each window's block is at a point, what the body leaves in the output window's staging buffer (its one
  store, of the product of the point's row block with the whole weight matrix), and proves the body's
  triple, the region's proof data and the body obligation at every point. The row block moves with the
  point; the weight window is fetched once and read at every point; nothing is kept between points.
-/
import proofs.«139656_j25864293057120_1_alg».proof.Proof.Gen.Kernel.Launch
import proofs.«139656_j25864293057120_1_alg».proof.Proof.Gen.Kernel.Skeleton
import proofs.«139656_j25864293057120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x3 := Rect.unit (s := S2000x3) ![0, 0] S2000x3.size inb_S2000x3_S2000x3_0_0
abbrev r0_1 : Rect S3x16 := Rect.unit (s := S3x16) ![0, 0] S3x16.size inb_S3x16_S3x16_0_0
abbrev r0_2 : Rect S2000x16 := Rect.unit (s := S2000x16) ![0, 0] S2000x16.size inb_S2000x16_S2000x16_0_0

/-! ## What the body leaves in the output window's buffer -/

/-- The output buffer after the body: its one store, of the product of the row block and the weights. -/
def out0_2 (x0 : Vec F S2000x3 .f32) (x1 : Vec F S3x16 .f32) : Vec F S2000x16 .f32 :=
  View.canon [⟨r0_2, k0_pay1 (View.ld x0 r0_0) (View.ld x1 r0_1)⟩]

/-- The one store covers the buffer. -/
theorem cover0_2 (p0 : Vec F S2000x16 .f32) (y : S2000x16.Idx) :
    ∃ pc ∈ ([⟨r0_2, p0⟩] : List (View.Piece (Elt F) S2000x16 .f32)), y ∈ pc.1.set :=
  View.cover_of_tiled [⟨r0_2, p0⟩] S2000x16.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S2000x3 .f32) (harg1 : arg1.IsWhole)
    (arg2 : Memref sig .tc .vmem S3x16 .f32) (harg2 : arg2.IsWhole) (arg3 : Memref sig .tc .vmem S2000x16 .f32) (harg3 : arg3.IsWhole)
    (x0 : Vec F S2000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of region 0 on core `c`: the arrays as the region finds them; after the body at point `t` each
    input's buffer at its block and the output's at `out0_2` of the blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program: the first layer's bias and rectifier, `max(agg + b1, 0)`, one block of 2000 rows
  per grid point.

  At a parameter `V` — what the core's buffers hold when the region is entered — this module says what
  each window's block is at a point, what the body leaves in the output window's staging buffer (its one
  store, of the point's row block plus the bias row broadcast down the rows, cut below at zero), and proves the
  body's triple, the region's proof data and the body obligation at every point. The row block moves with the
  point; the bias window is fetched once and read at every point; nothing is kept between points.
-/
import proofs.«139656_j25864293057120_1_alg».proof.Proof.Gen.Kernel.Launch
import proofs.«139656_j25864293057120_1_alg».proof.Proof.Gen.Kernel.Skeleton
import proofs.«139656_j25864293057120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds the point's row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the whole bias row at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x16 := Rect.unit (s := S2000x16) ![0, 0] S2000x16.size inb_S2000x16_S2000x16_0_0
abbrev r1_1 : Rect S1x16 := Rect.unit (s := S1x16) ![0, 0] S1x16.size inb_S1x16_S1x16_0_0
abbrev r1_2 : Rect S2000x16 := Rect.unit (s := S2000x16) ![0, 0] S2000x16.size inb_S2000x16_S2000x16_0_0

/-! ## What the body leaves in the output window's buffer -/

/-- The output buffer after the body: its one store, of the row block plus the bias row, cut below at zero. -/
def out1_2 (x0 : Vec F S2000x16 .f32) (x1 : Vec F S1x16 .f32) : Vec F S2000x16 .f32 :=
  View.canon [⟨r1_2, k1_pay1 (View.ld x0 r1_0) (View.ld x1 r1_1)⟩]

/-- The one store covers the buffer. -/
theorem cover1_2 (p0 : Vec F S2000x16 .f32) (y : S2000x16.Idx) :
    ∃ pc ∈ ([⟨r1_2, p0⟩] : List (View.Piece (Elt F) S2000x16 .f32)), y ∈ pc.1.set :=
  View.cover_of_tiled [⟨r1_2, p0⟩] S2000x16.size (by rfl) y

/-! ## The body's triple -/

set_option maxHeartbeats 1000000 in
/-- On whole staging memrefs, the inputs' at contents `x0`, `x1` and the output's at anything, the body runs to the
    continuation holding the inputs' as they were and the output's at `out1_2 x0 x1`. -/
theorem sound_kernel1 (c : Dev nD) (E : Set ℕ) (i : grid1.Coords) (arg1 : Memref sig .tc .vmem S2000x16 .f32) (harg1 : arg1.IsWhole)
    (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of region 1 on core `c`: the arrays as the region finds them; after the body at point `t` each
    input's buffer at its block and the output's at `out1_2` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the program: the second dense product, `h1 · W2`, one block of 2000 rows per grid point.

  At a parameter `V` — what the core's buffers hold when the region is entered — this module says what
  each window's block is at a point, what the body leaves in the output window's staging buffer (its one
  store, of the product of the point's row block with the whole weight matrix), and proves the body's
  triple, the region's proof data and the body obligation at every point. The row block moves with the
  point; the weight window is fetched once and read at every point; nothing is kept between points.
-/
import proofs.«139656_j25864293057120_1_alg».proof.Proof.Gen.Kernel.Launch
import proofs.«139656_j25864293057120_1_alg».proof.Proof.Gen.Kernel.Skeleton
import proofs.«139656_j25864293057120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's staging buffer holds the point's row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x16 := Rect.unit (s := S2000x16) ![0, 0] S2000x16.size inb_S2000x16_S2000x16_0_0
abbrev r2_1 : Rect S16x32 := Rect.unit (s := S16x32) ![0, 0] S16x32.size inb_S16x32_S16x32_0_0
abbrev r2_2 : Rect S2000x32 := Rect.unit (s := S2000x32) ![0, 0] S2000x32.size inb_S2000x32_S2000x32_0_0

/-! ## What the body leaves in the output window's buffer -/

/-- The output buffer after the body: its one store, of the product of the row block and the weights. -/
def out2_2 (x0 : Vec F S2000x16 .f32) (x1 : Vec F S16x32 .f32) : Vec F S2000x32 .f32 :=
  View.canon [⟨r2_2, k2_pay1 (View.ld x0 r2_0) (View.ld x1 r2_1)⟩]

/-- The one store covers the buffer. -/
theorem cover2_2 (p0 : Vec F S2000x32 .f32) (y : S2000x32.Idx) :
    ∃ pc ∈ ([⟨r2_2, p0⟩] : List (View.Piece (Elt F) S2000x32 .f32)), y ∈ pc.1.set :=
  View.cover_of_tiled [⟨r2_2, p0⟩] S2000x32.size (by rfl) y

/-! ## The body's triple -/

set_option maxHeartbeats 1000000 in
/-- On whole staging memrefs, the inputs' at contents `x0`, `x1` and the output's at anything, the body runs to the
    continuation holding the inputs' as they were and the output's at `out2_2 x0 x1`. -/
theorem sound_kernel2 (c : Dev nD) (E : Set ℕ) (i : grid2.Coords) (arg1 : Memref sig .tc .vmem S2000x16 .f32) (harg1 : arg1.IsWhole)
    (arg2 : Memref sig .tc .vmem S16x32 .f32) (harg2 : arg2.IsWhole) (arg3 : Memref sig .tc .vmem S2000x32 .f32) (harg3 : arg3.IsWhole)
    (x0 : Vec F S2000x16 .f32) (x1 : Vec F S16x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of region 2 on core `c`: the arrays as the region finds them; after the body at point `t` each
    input's buffer at its block and the output's at `out2_2` of the blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the program: the second layer's bias, `agg + b2`, one block of 2000 rows per grid point.

  At a parameter `V` — what the core's buffers hold when the region is entered — this module says what
  each window's block is at a point, what the body leaves in the output window's staging buffer (its one
  store, of the point's row block plus the bias row broadcast down the rows), and proves the body's
  triple, the region's proof data and the body obligation at every point. The row block moves with the
  point; the bias window is fetched once and read at every point; nothing is kept between points.
-/
import proofs.«139656_j25864293057120_1_alg».proof.Proof.Gen.Kernel.Launch
import proofs.«139656_j25864293057120_1_alg».proof.Proof.Gen.Kernel.Skeleton
import proofs.«139656_j25864293057120_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds the point's row block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the whole bias row at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x32 := Rect.unit (s := S2000x32) ![0, 0] S2000x32.size inb_S2000x32_S2000x32_0_0
abbrev r3_1 : Rect S1x32 := Rect.unit (s := S1x32) ![0, 0] S1x32.size inb_S1x32_S1x32_0_0
abbrev r3_2 : Rect S2000x32 := Rect.unit (s := S2000x32) ![0, 0] S2000x32.size inb_S2000x32_S2000x32_0_0

/-! ## What the body leaves in the output window's buffer -/

/-- The output buffer after the body: its one store, of the row block plus the bias row. -/
def out3_2 (x0 : Vec F S2000x32 .f32) (x1 : Vec F S1x32 .f32) : Vec F S2000x32 .f32 :=
  View.canon [⟨r3_2, k3_pay1 (View.ld x0 r3_0) (View.ld x1 r3_1)⟩]

/-- The one store covers the buffer. -/
theorem cover3_2 (p0 : Vec F S2000x32 .f32) (y : S2000x32.Idx) :
    ∃ pc ∈ ([⟨r3_2, p0⟩] : List (View.Piece (Elt F) S2000x32 .f32)), y ∈ pc.1.set :=
  View.cover_of_tiled [⟨r3_2, p0⟩] S2000x32.size (by rfl) y

/-! ## The body's triple -/

set_option maxHeartbeats 1000000 in
/-- On whole staging memrefs, the inputs' at contents `x0`, `x1` and the output's at anything, the body runs to the
    continuation holding the inputs' as they were and the output's at `out3_2 x0 x1`. -/
theorem sound_kernel3 (c : Dev nD) (E : Set ℕ) (i : grid3.Coords) (arg1 : Memref sig .tc .vmem S2000x32 .f32) (harg1 : arg1.IsWhole)
    (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The region's proof data -/

/-- The proof data of region 3 on core `c`: the arrays as the region finds them; after the body at point `t` each
    input's buffer at its block and the output's at `out3_2` of the blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the program: the mean over the 100000 rows, taken in 50 blocks of 2000 rows.

  The kernel keeps a running column sum in a scratch row: the first point clears it, every point adds its
  block's column sums to it, and the last point stores the scratch times 1/100000 into the one output block.
  At a parameter `V` — what the core's buffers hold when the region is entered — `acc4 V c n` is the scratch
  row after point `n`: the block sums of points 0 … n added up from zero in that order. The region's invariant
  carries the scratch at `acc4` from one point to the next; the output window is idle at every point but
  the last, where it receives `acc4 V c 49` scaled.
-/
import proofs.«139656_j25864293057120_1_alg».proof.Proof.Gen.Kernel.Launch
import proofs.«139656_j25864293057120_1_alg».proof.Proof.Gen.Kernel.Skeleton
import proofs.«139656_j25864293057120_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch row after point `n`: the first point adds its block's column sums to the cleared row, each
    later point adds its block's column sums to what the point before left. -/
def acc4 (c : Dev nD) : (n : ℕ) → n < cfg4.N → Vec F S1x32 .f32
  | 0, h => k4_pay2 (k4_pay1 (F := F)) (iblk4 V c 0 ⟨0, h⟩)
  | n + 1, h => k4_pay2 (acc4 c n (Nat.lt_of_succ_lt h)) (iblk4 V c 0 ⟨n + 1, h⟩)

/-- The scratch operand: a whole scoped buffer of the kernel's own, passed beside the windows. -/
abbrev scM4 : Memref sig .tc .vmem S1x32 .f32 := Memref.whole cc4_scratch0

/-- The region's invariant before position `n`: at the first point what the launch hands the region (every scoped
    buffer no window stages at some contents, the generator register at some state); afterwards the scratch row at
    what the point before left, beside what gives the rest back once the scratch row is returned. -/
def PhiS4 (c : Dev nD) : (n : ℕ) → n ≤ cfg4.N → sProp 𝕄
  | 0, _ => Pipeline.ΦA spec4 c
  | n + 1, hn => iprop(owns (c : Thread nD τ) scM4 fullShare (acc4 V c n hn)
      ∗ ((∃ d, owns (c : Thread nD τ) scM4 fullShare d) -∗ Pipeline.ΦA spec4 c))

/-! ## The region's proof data -/

/-- The proof data of region 4 on core `c`: the arrays as the region finds them; after the body at point `t` the
    input's buffer at its block and the output's at the scaled running sum (written back at the last point only: the
    window is idle at the others); the invariant carries the scratch row; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

/-! ## The body's two conditions over the grid, and where the output window is idle -/

/-- The body's first condition: the point's coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The body's second condition: the point's coordinate is the last. -/
abbrev cond4_1 (i : grid4.Coords) : Prop := k4_cond2 i = 1#1
/-- It holds at the last point only. -/
theorem hcond4_1 : ∀ t : Fin cfg4.N, cond4_1 (grid4.coords t) ↔ t.val = 49 :=
  (by decide +kernel : ∀ t : Fin grid4.N, cond4_1 (grid4.coords t) ↔ t.val = 49)

/-- The input window is never idle. -/
theorem liveAt4_0 : ∀ t : Fin cfg4.N, cfg4.idle 0 (grid4.coords t) = false := by decide +kernel
/-- The output window is idle at every point but the last, -/
theorem idleAt4_1 : ∀ t : Fin cfg4.N, t.val ≠ 49 → cfg4.idle 1 (grid4.coords t) = true := by decide +kernel
/-- where it is not written back either; -/
theorem noFlush4_1 : ∀ t : Fin cfg4.N, t.val ≠ 49 → (cfg4.win 1).flush t = false := by decide +kernel
/-- at the last point it is live. -/
theorem liveAt4_1 : ∀ t : Fin cfg4.N, t.val = 49 → cfg4.idle 1 (grid4.coords t) = false := by decide +kernel

/-! ## The body's accesses: each buffer whole -/

abbrev r4s : Rect S1x32 := Rect.unit (s := S1x32) ![0, 0] S1x32.size inb_S1x32_S1x32_0_0
abbrev r4i : Rect S2000x32 := Rect.unit (s := S2000x32) ![0, 0] S2000x32.size inb_S2000x32_S2000x32_0_0

theorem hz4 : (![0, 0] : Fin 2 → Nat) = fun _ => 0 := funext fun a => by fin_cases a <;> rfl

/-- A row buffer whose last store was whole reads as that store's payload, whatever was stored before. -/
theorem read_last4 {sg : RefSig} {κ : Kind} {sp : Space} (v : View sg κ sp S1x32 .f32) (f : v.ty.Contents (Elt F)) (w : Vec F S1x32 .f32)
    (L : List (View.Piece (Elt F) S1x32 .f32)) :
    v.read (Elt F) (v.writes (Elt F) f (⟨r4s, w⟩ :: L)) = w := by
  rw [View.read_writes_eq_canon _ _ _ (fun y => ⟨_, List.mem_cons_self, View.mem_set_unit_zero hz4 inb_S1x32_S1x32_0_0 y⟩),
    View.canon_cons_unit_zero hz4]

/-! ## The body's triple, by the shape of point -/

set_option maxHeartbeats 1000000 in
/-- At the first point: on whole memrefs, the input's at `x0`, the output's at `x1` and the scratch row at anything, the
    body runs to the continuation holding the input's and the output's as they were and the scratch row at the cleared
    row plus the column sums of `x0`. -/
theorem sound_kernel4_first (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : cond4_0 i) (hc1 : ¬cond4_1 i)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k4_pay2 (k4_pay1 (F := F)) x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_last4]
  sl_unfold_run_names
  rw [View.readCov_unit_zero _ hz4]
  simp only [View.readAt_eq_ld, View.ld_unit_zero (S := S2000x32) hz4]

set_option maxHeartbeats 1000000 in
/-- At a point neither first nor last: the scratch row at `xs` ends at `xs` plus the column sums of `x0`; the input's and
    the output's memrefs are handed back as they were. -/
theorem sound_kernel4_mid (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : ¬cond4_0 i) (hc1 : ¬cond4_1 i)
    (x0 : Vec F S2000x32 .f32) (x1 : Vec F S1x32 .f32) (xs : Vec F S1x32 .f32) (K : PUnit → sProp 𝕄) :
    iprop(owns (c : Thread nD τ) arg1 fullShare x0 ∗ owns (c : Thread nD τ) arg2 fullShare x1 ∗ owns (c : Thread nD τ) arg3 fullShare xs
        ∗ (iprop(owns (c : Thread nD τ) arg1 fullShare x0 ∗ owns (c : Thread nD τ) arg2 fullShare x1 ∗ owns (c : Thread nD τ) arg3 fullShare (k4_pay2 xs x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [read_last4]
  simp only [View.readAt_eq_ld, View.ld_unit_zero (S := S2000x32) hz4, View.ld_unit_zero (S := S1x32) hz4]

set_option maxHeartbeats 1000000 in
/-- At the last point: the scratch row at `xs` ends at `xs` plus the column sums of `x0`, and the output's memref,
    at anything, ends at that row scaled. -/
theorem sound_kernel4_last (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : ¬cond4_0 i) (hc1 : cond4_1 i)
    (x0 : Vec F S2000x32 .f32) (xs : Vec F S1x32 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k4_pay3 (k4_pay2 xs x0)) ∗ owns (c : Thread nD τ) arg3 fullShare (k4_pay2 xs x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_last4]
    try sl_unfold_run_names
    rw [View.readCov_unit_zero _ hz4]
    simp only [View.readAt_eq_ld, View.ld_unit_zero (S := S2000x32) hz4, View.ld_unit_zero (S := S1x32) hz4]
  iexists _; isplitr
  swap; · iexact H2
  ipureintro
  sl_unfold_run_names
  rw [read_last4]
  simp only [View.readAt_eq_ld, View.ld_unit_zero (S := S2000x32) hz4, View.ld_unit_zero (S := S1x32) hz4]

/-! ## The invariant: the scratch row lent out of what the launch hands the region -/

/-- What the launch hands the region holds the scratch row at some contents, and takes it back at any contents. -/
theorem PhiA4_split (c : Dev nD) :
    (Pipeline.ΦA spec4 c : sProp 𝕄)
      ⊢ iprop((∃ d, owns (c : Thread nD τ) scM4 fullShare d) ∗ ((∃ d, owns (c : Thread nD τ) scM4 fullShare d) -∗ Pipeline.ΦA spec4 c)) := by
  unfold Pipeline.ΦA; rw [scopedRest4_eq]; simp only [scM4, owns_whole]
  iintro ⟨⟨H1, H2, H3, H4, H5, H6, H7, H8, H9, H10, H11, H12, H13, H14, H15, H16, H17, H18, H19, H20, HQ⟩, Hr⟩
  isplitl [HQ]
  · iexact HQ
  iintro HQ
  isplitr [Hr]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact HQ
  iexact Hr

/-! ## What the proof data say, point by point -/

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c t.val t.isLt) := by dsimp only [dat4]

theorem acc4_zero (c : Dev nD) (h : 0 < cfg4.N) : acc4 V c 0 h = k4_pay2 (k4_pay1 (F := F)) (iblk4 V c 0 ⟨0, h⟩) := rfl
theorem acc4_succ (c : Dev nD) (n : ℕ) (h : n + 1 < cfg4.N) :
    acc4 V c (n + 1) h = k4_pay2 (acc4 V c n (Nat.lt_of_succ_lt h)) (iblk4 V c 0 ⟨n + 1, h⟩) := rfl

/-- The invariant before the first point is what the launch hands the region; -/
theorem Phi4_first (c : Dev nD) (h : 0 < cfg4.N) : (dat4 V c).Φ (⟨0, h⟩ : Fin cfg4.N).castSucc = Pipeline.ΦA spec4 c := rfl
/-- before a later point it holds the scratch row at what the point before left; -/
theorem Phi4_later (c : Dev nD) (n : ℕ) (h : n + 1 < cfg4.N) :
    (dat4 V c).Φ (⟨n + 1, h⟩ : Fin cfg4.N).castSucc
      = iprop(owns (c : Thread nD τ) scM4 fullShare (acc4 V c n (Nat.lt_of_succ_lt h))
          ∗ ((∃ d, owns (c : Thread nD τ) scM4 fullShare d) -∗ Pipeline.ΦA spec4 c)) := rfl
/-- after any point, at what that point left. -/
theorem Phi4_after (c : Dev nD) (t : Fin cfg4.N) :
    (dat4 V c).Φ t.succ
      = iprop(owns (c : Thread nD τ) scM4 fullShare (acc4 V c t.val t.isLt)
          ∗ ((∃ d, owns (c : Thread nD τ) scM4 fullShare d) -∗ Pipeline.ΦA spec4 c)) := rfl

/-- The input window's staging buffer holds the point's row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 1000000 in
/-- The body at any point: the input's memref holds its block; the invariant lends the scratch row (at anything
    before the first point, at the running sum afterwards) and takes it back at the running sum through this point;
    the output's memref is handed back untouched wherever the window is idle, and at the last point is left at the
    running sum scaled; the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [Phi4_after]
  obtain ⟨n, hn⟩ := t
  have hN : n < 50 := lt_of_lt_of_eq hn (show cfg4.N = 50 from N_4)
  cases n with
  | zero =>
    have h49 : (⟨0, hn⟩ : Fin cfg4.N).val ≠ 49 := by show (0 : ℕ) ≠ 49; decide
    rw [Dat.leavesExact_idle (dat4 V c) 1 _ (idleAt4_1 _ h49) (noFlush4_1 _ h49)]
    rw [Phi4_first]
    dsimp only
    rw [acc4_zero]
    iintro ⟨HΦ, Ho, ⟨%d0, H0⟩, ⟨%d1, H1⟩⟩
    ihave Hs := (PhiA4_split c) $$ HΦ
    icases Hs with ⟨HS, Hw⟩
    iapply (sound_kernel4_first c Set.univ _ _ _ _ _ _ _ ((hcond4_0 ⟨0, hn⟩).mpr rfl) (fun h => h49 ((hcond4_1 _).mp h))
      (iblk4 V c 0 ⟨0, hn⟩) _ _)
    isplitl [H0]; · iexact H0
    isplitl [H1]; · iexact H1
    isplitl [HS]; · iexact HS
    iintro ⟨H0, H1, HS⟩
    isplitl [HS Hw]
    · isplitl [HS]; · iexact HS
      iexact Hw
    isplitl [Ho]; · iexact Ho
    isplitl [H0]; · iexact H0
    iexists _; iexact H1
  | succ n =>
    have h0 : ¬cond4_0 (grid4.coords ⟨n + 1, hn⟩) := fun h => absurd ((hcond4_0 ⟨n + 1, hn⟩).mp h) (Nat.succ_ne_zero n)
    rw [Phi4_later]
    dsimp only
    rw [acc4_succ]
    by_cases h49 : n + 1 = 49
    · rw [show (dat4 V c).leavesExact 1 ⟨n + 1, hn⟩ = owns (c : Thread nD τ) (st4_1 ⟨n + 1, hn⟩) fullShare ((dat4 V c).after 1 ⟨n + 1, hn⟩) from by
        unfold Dat.leavesExact; rw [liveAt4_1 ⟨n + 1, hn⟩ h49], after4_1]
      dsimp only
      rw [acc4_succ]
      iintro ⟨⟨HS, Hw⟩, Ho, ⟨%d0, H0⟩, ⟨%d1, H1⟩⟩
      iapply (sound_kernel4_last c Set.univ _ _ _ _ _ _ _ h0 ((hcond4_1 ⟨n + 1, hn⟩).mpr h49)
        (iblk4 V c 0 ⟨n + 1, hn⟩) (acc4 V c n (Nat.lt_of_succ_lt hn)) _)
      isplitl [H0]; · iexact H0
      isplitl [H1]; · iexists _; iexact H1
      isplitl [HS]; · iexact HS
      iintro ⟨H0, H1, HS⟩
      isplitl [HS Hw]
      · isplitl [HS]; · iexact HS
        iexact Hw
      isplitl [Ho]; · iexact Ho
      isplitl [H0]; · iexact H0
      iexact H1
    · rw [Dat.leavesExact_idle (dat4 V c) 1 _ (idleAt4_1 ⟨n + 1, hn⟩ h49) (noFlush4_1 ⟨n + 1, hn⟩ h49)]
      iintro ⟨⟨HS, Hw⟩, Ho, ⟨%d0, H0⟩, ⟨%d1, H1⟩⟩
      iapply (sound_kernel4_mid c Set.univ _ _ _ _ _ _ _ h0 (fun h => h49 ((hcond4_1 ⟨n + 1, hn⟩).mp h))
        (iblk4 V c 0 ⟨n + 1, hn⟩) _ (acc4 V c n (Nat.lt_of_succ_lt hn)) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      iexists _; iexact H1

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Pipeline.ΦA spec4 c from rfl]

/-- After the last point the invariant gives back what the launch handed it: the scratch row's contents are forgotten. -/
theorem hout4 (c : Dev nD) : (dat4 V c).Φ (Fin.last cfg4.N) ⊢ Pipeline.ΦA spec4 c := by
  rw [show (dat4 V c).Φ (Fin.last cfg4.N)
      = iprop(owns (c : Thread nD τ) scM4 fullShare (acc4 V c 49 (by decide))
          ∗ ((∃ d, owns (c : Thread nD τ) scM4 fullShare d) -∗ Pipeline.ΦA spec4 c)) from rfl]
  iintro ⟨HS, Hw⟩
  iapply Hw
  iexists _; iexact HS

/-! ## The result array after the run -/

/-- The last point. -/
abbrev t4_49 : Fin cfg4.N := ⟨49, by decide⟩

/-- The one write-back, at the last point, writes the running sum scaled: block (0, 0) of the one-row array read
    through zero offsets is the array. -/
theorem flushed4_eq (c : Dev nD) (t : Fin cfg4.N) (hf : (cfg4.win 1).flush t = true) :
    (dat4 V c).flushed 1 t
      = ((cfg4.win 1).blk t).view.read (Elt F) (k4_pay3 (acc4 V c 49 (by decide)) : Vec F S1x32 .f32) := by
  have hN : cfg4.N = 50 := N_4
  have h49 : t.val = 49 := by have := (flush4_1 t).mp hf; have := t.isLt; omega
  obtain rfl : t = t4_49 := Fin.ext h49
  show (cfg4.win 1).cut (grid4.coords t4_49) ((dat4 V c).after 1 t4_49) = _
  rw [after4_1]
  have hz' : (fun a => win4_1.index t4_49 a * main_v62.ty.shape.size a) = fun _ => 0 := funext fun a => by fin_cases a <;> decide +kernel
  exact (Memref.read_access_unit_zero (Elt F) main_v62 hz' (fun a => by rw [congrFun hz' a]; simp) _).symm

/-- The region's result array after the run: the one output block, written back at the last point, holds the running
    sum over all 50 blocks, scaled. -/
theorem arrAt4_out (c : Dev nD) :
    (dat4 V c).arrAt 1 cfg4.N = (k4_pay3 (acc4 V c 49 (by decide)) : Vec F S1x32 .f32) :=
  (dat4 V c).arrAt_eq_of_cover 1 _ (flushed4_eq V c) fun i =>
    ⟨t4_49, (flush4_1 t4_49).mpr rfl, by
      show i ∈ ((View.whole main_v62).slice (win4_1.rect t4_49)).set
      rw [View.set_slice_whole, Rect.mem_set_unit]
      intro a
      have h0 : (i 0 : Nat) < 1 := (i 0).isLt
      have h1 : (i 1 : Nat) < 32 := (i 1).isLt
      match a with
      | ⟨0, _⟩ =>
        show win4_1.index t4_49 0 * win4_1.size 0 ≤ (i 0 : Nat) ∧ (i 0 : Nat) < win4_1.index t4_49 0 * win4_1.size 0 + win4_1.xsize (grid4.coords t4_49) 0
        rw [show win4_1.index t4_49 0 * win4_1.size 0 = 0 from by decide +kernel, show win4_1.xsize (grid4.coords t4_49) 0 = 1 from by decide +kernel]; omega
      | ⟨1, _⟩ =>
        show win4_1.index t4_49 1 * win4_1.size 1 ≤ (i 1 : Nat) ∧ (i 1 : Nat) < win4_1.index t4_49 1 * win4_1.size 1 + win4_1.xsize (grid4.coords t4_49) 1
        rw [show win4_1.index t4_49 1 * win4_1.size 1 = 0 from by decide +kernel, show win4_1.xsize (grid4.coords t4_49) 1 = 32 from by decide +kernel]; omega⟩

end Cert.Kernel.Hand

end
-- ==== Proof.K.Bound.lean ====
/-
  The contents of the core's buffers at each boundary of the program, from the launch memory `m`.

  The program is: three stretches of host operations (the edge indices and the edge weights), region 0 (`x · W1`),
  a host stretch (gather, weight, scatter-add along the edges), regions 1 and 2 (bias and rectifier; `h1 · W2`), a
  host stretch (the same aggregation on 32 columns), regions 3 and 4 (bias; the mean over the rows). A host stretch
  changes the buffers as its operations say; a region changes only its output array, to what its write-backs
  leave (`oK`: the region's proof data read at the end of its grid, at the contents the region was entered from).
  `outs` names those five arrays for the program's conditional frame, and `pdats` is the family of the five
  regions' proof data, each at its entry contents.
-/
import proofs.«139656_j25864293057120_1_alg».proof.Proof.K.Reg0
import proofs.«139656_j25864293057120_1_alg».proof.Proof.K.Reg1
import proofs.«139656_j25864293057120_1_alg».proof.Proof.K.Reg2
import proofs.«139656_j25864293057120_1_alg».proof.Proof.K.Reg3
import proofs.«139656_j25864293057120_1_alg».proof.Proof.K.Reg4
import proofs.«139656_j25864293057120_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The boundaries -/

/-- What region 0 leaves in `main_v30`, entered from the contents after the first three host stretches. -/
def o4 (c : Dev nD) : Buf (Elt F) ((c : Thread nD τ).loc main_v30) := (dat0 (fun c b => V3 m c b) c).arrAt 2 cfg0.N
/-- After region 0. -/
def W4 (c : Dev nD) : Valuation τ sig (Elt F) := Function.update (V3 m c) main_v30 (o4 m c)
/-- After the first aggregation's host stretch. -/
def W5 (c : Dev nD) : Valuation τ sig (Elt F) := StableHlo.after hostOps1 (W4 m c)
/-- What region 1 leaves in `main_v45`. -/
def o6 (c : Dev nD) : Buf (Elt F) ((c : Thread nD τ).loc main_v45) := (dat1 (fun c b => W5 m c b) c).arrAt 2 cfg1.N
/-- After region 1. -/
def W6 (c : Dev nD) : Valuation τ sig (Elt F) := Function.update (W5 m c) main_v45 (o6 m c)
/-- What region 2 leaves in `main_v46`. -/
def o7 (c : Dev nD) : Buf (Elt F) ((c : Thread nD τ).loc main_v46) := (dat2 (fun c b => W6 m c b) c).arrAt 2 cfg2.N
/-- After region 2. -/
def W7 (c : Dev nD) : Valuation τ sig (Elt F) := Function.update (W6 m c) main_v46 (o7 m c)
/-- After the second aggregation's host stretch. -/
def W8 (c : Dev nD) : Valuation τ sig (Elt F) := StableHlo.after hostOps3 (W7 m c)
/-- What region 3 leaves in `main_v61`. -/
def o9 (c : Dev nD) : Buf (Elt F) ((c : Thread nD τ).loc main_v61) := (dat3 (fun c b => W8 m c b) c).arrAt 2 cfg3.N
/-- After region 3. -/
def W9 (c : Dev nD) : Valuation τ sig (Elt F) := Function.update (W8 m c) main_v61 (o9 m c)
/-- What region 4 leaves in `main_v62`: the program's result. -/
def o10 (c : Dev nD) : Buf (Elt F) ((c : Thread nD τ).loc main_v62) := (dat4 (fun c b => W9 m c b) c).arrAt 1 cfg4.N
/-- After region 4: the end of the program. -/
def W10 (c : Dev nD) : Valuation τ sig (Elt F) := Function.update (W9 m c) main_v62 (o10 m c)

/-! ## What the regions leave, by array -/

/-- The five arrays the regions write, each at what its region leaves; any other reference at its launch contents
    (never read there). -/
def outs : Outs (F := F) := fun _ r c =>
  if h : r = main_v30 then h ▸ o4 m c
  else if h : r = main_v45 then h ▸ o6 m c
  else if h : r = main_v46 then h ▸ o7 m c
  else if h : r = main_v61 then h ▸ o9 m c
  else if h : r = main_v62 then h ▸ o10 m c
  else m ((c : Thread nD τ).loc r)

theorem outs_v30 (J : ℕ) (c : Dev nD) : outs m J main_v30 c = o4 m c := by
  unfold outs; exact dif_pos rfl
theorem outs_v45 (J : ℕ) (c : Dev nD) : outs m J main_v45 c = o6 m c := by
  unfold outs; exact (dif_neg (by decide)).trans (dif_pos rfl)
theorem outs_v46 (J : ℕ) (c : Dev nD) : outs m J main_v46 c = o7 m c := by
  unfold outs; exact (dif_neg (by decide)).trans ((dif_neg (by decide)).trans (dif_pos rfl))
theorem outs_v61 (J : ℕ) (c : Dev nD) : outs m J main_v61 c = o9 m c := by
  unfold outs; exact (dif_neg (by decide)).trans ((dif_neg (by decide)).trans ((dif_neg (by decide)).trans (dif_pos rfl)))
theorem outs_v62 (J : ℕ) (c : Dev nD) : outs m J main_v62 c = o10 m c := by
  unfold outs; exact (dif_neg (by decide)).trans ((dif_neg (by decide)).trans ((dif_neg (by decide)).trans ((dif_neg (by decide)).trans (dif_pos rfl))))

/-! ## The conditional frame's boundaries are these -/

theorem V4_eq (c : Dev nD) : V4 m (outs m) c = W4 m c := by
  show Function.update (V3 m c) main_v30 (outs m 4 main_v30 c) = _
  rw [outs_v30]; rfl
theorem V5_eq (c : Dev nD) : V5 m (outs m) c = W5 m c := by
  show StableHlo.after hostOps1 (V4 m (outs m) c) = _
  rw [V4_eq]; rfl
theorem V6_eq (c : Dev nD) : V6 m (outs m) c = W6 m c := by
  show Function.update (V5 m (outs m) c) main_v45 (outs m 6 main_v45 c) = _
  rw [V5_eq, outs_v45]; rfl
theorem V7_eq (c : Dev nD) : V7 m (outs m) c = W7 m c := by
  show Function.update (V6 m (outs m) c) main_v46 (outs m 7 main_v46 c) = _
  rw [V6_eq, outs_v46]; rfl
theorem V8_eq (c : Dev nD) : V8 m (outs m) c = W8 m c := by
  show StableHlo.after hostOps3 (V7 m (outs m) c) = _
  rw [V7_eq]; rfl
theorem V9_eq (c : Dev nD) : V9 m (outs m) c = W9 m c := by
  show Function.update (V8 m (outs m) c) main_v61 (outs m 9 main_v61 c) = _
  rw [V8_eq, outs_v61]; rfl
theorem V10_eq (c : Dev nD) : V10 m (outs m) c = W10 m c := by
  show Function.update (V9 m (outs m) c) main_v62 (outs m 10 main_v62 c) = _
  rw [V9_eq, outs_v62]; rfl

/-! ## Reading the boundaries: what each step leaves unchanged, and what each region writes -/

theorem W4_of (c : Dev nD) (r : Ref sig .tc) (h : r ∉ ([main_v30] : List (Ref sig .tc))) : W4 m c r = V3 m c r := by
  rw [← V4_eq]; exact V4_of m (outs m) c r h
theorem W5_of (c : Dev nD) (r : Ref sig .tc) (h : r ∉ hostOps1_W) : W5 m c r = W4 m c r := by
  rw [← V5_eq, ← V4_eq]; exact V5_of m (outs m) c r h
theorem W6_of (c : Dev nD) (r : Ref sig .tc) (h : r ∉ ([main_v45] : List (Ref sig .tc))) : W6 m c r = W5 m c r := by
  rw [← V6_eq, ← V5_eq]; exact V6_of m (outs m) c r h
theorem W7_of (c : Dev nD) (r : Ref sig .tc) (h : r ∉ ([main_v46] : List (Ref sig .tc))) : W7 m c r = W6 m c r := by
  rw [← V7_eq, ← V6_eq]; exact V7_of m (outs m) c r h
theorem W8_of (c : Dev nD) (r : Ref sig .tc) (h : r ∉ hostOps3_W) : W8 m c r = W7 m c r := by
  rw [← V8_eq, ← V7_eq]; exact V8_of m (outs m) c r h
theorem W9_of (c : Dev nD) (r : Ref sig .tc) (h : r ∉ ([main_v61] : List (Ref sig .tc))) : W9 m c r = W8 m c r := by
  rw [← V9_eq, ← V8_eq]; exact V9_of m (outs m) c r h
theorem W10_of (c : Dev nD) (r : Ref sig .tc) (h : r ∉ ([main_v62] : List (Ref sig .tc))) : W10 m c r = W9 m c r := by
  rw [← V10_eq, ← V9_eq]; exact V10_of m (outs m) c r h

theorem W4_self (c : Dev nD) : W4 m c main_v30 = o4 m c := by
  unfold W4; exact Function.update_self _ _ _
theorem W6_self (c : Dev nD) : W6 m c main_v45 = o6 m c := by
  unfold W6; exact Function.update_self _ _ _
theorem W7_self (c : Dev nD) : W7 m c main_v46 = o7 m c := by
  unfold W7; exact Function.update_self _ _ _
theorem W9_self (c : Dev nD) : W9 m c main_v61 = o9 m c := by
  unfold W9; exact Function.update_self _ _ _
theorem W10_self (c : Dev nD) : W10 m c main_v62 = o10 m c := by
  unfold W10; exact Function.update_self _ _ _

/-- The arguments reach the end as launched. -/
theorem W10_arg (c : Dev nD) : W10 m c main_arg0 = m ((c : Thread nD τ).loc main_arg0) ∧ W10 m c main_arg1 = m ((c : Thread nD τ).loc main_arg1)
    ∧ W10 m c main_arg2 = m ((c : Thread nD τ).loc main_arg2) ∧ W10 m c main_arg3 = m ((c : Thread nD τ).loc main_arg3)
    ∧ W10 m c main_arg4 = m ((c : Thread nD τ).loc main_arg4) ∧ W10 m c main_arg5 = m ((c : Thread nD τ).loc main_arg5) := by
  rw [← V10_eq]
  exact ⟨V10_main_arg0 m (outs m) c, V10_main_arg1 m (outs m) c, V10_main_arg2 m (outs m) c, V10_main_arg3 m (outs m) c,
    V10_main_arg4 m (outs m) c, V10_main_arg5 m (outs m) c⟩

/-! ## The proof data family -/

/-- Every region's proof data, each at its entry contents. -/
def pdats : (p : Fin 5) → (c : Dev nD) → Dat τ (Elt F) Unit ℕ (UR sig nD τ) ℕ (cfgs p) c
  | ⟨0, _⟩ => fun c => dat0 (fun c b => V3 m c b) c
  | ⟨1, _⟩ => fun c => dat1 (fun c b => W5 m c b) c
  | ⟨2, _⟩ => fun c => dat2 (fun c b => W6 m c b) c
  | ⟨3, _⟩ => fun c => dat3 (fun c b => W8 m c b) c
  | ⟨4, _⟩ => fun c => dat4 (fun c b => W9 m c b) c

end Cert.Kernel.Hand

end
-- ==== Proof.K.Thread.lean ====
/-
  The thread state between two items of the program: beside the core's unscoped buffers at the boundary's
  contents ride the generator register, at some state, and the core's dues, at nothing — no core owes another
  anything in this program, so no level is assigned.
-/
import proofs.«139656_j25864293057120_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev Lv0 : GSem nD τ sig → Finset Unit := fun _ => ∅
abbrev lv0 : GSem nD τ sig → Unit → ℕ := fun _ _ => 0
/-- What rides beside the buffers through every segment: the generator register at some state and the core's dues, at nothing. -/
abbrev Rst (c : Dev nD) : sProp 𝕄 := iprop((∃ r, prngReg c r) ∗ ∃ W, owes (c : Thread nD τ) (0 : CellTallies nD τ sig Unit) W)

end Cert.Kernel.Hand

end
-- ==== Proof.K.Seg0.lean ====
/-
  Region 0 as a segment of the program.

  The region is entered with every unscoped buffer of the core at the contents after the first three host
  stretches, and left with them at the same contents except `main_v30`, which holds what the region's write-backs
  leave. Its three arrays are taken out of the unscoped buffers at entry and put back at exit; the generator
  register goes into the region's invariant and comes back; nothing is owed; the kernel has no semaphore of its own.
-/
import proofs.«139656_j25864293057120_1_alg».proof.Proof.K.Bound
import proofs.«139656_j25864293057120_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents before and after region 0, read at the TensorCore's references. -/
abbrev Bin0 (c : Dev nD) (b : Ref sig .tc) : Buf (Elt F) ((c : Thread nD τ).loc b) := V3 m c b
abbrev Bout0 (c : Dev nD) (b : Ref sig .tc) : Buf (Elt F) ((c : Thread nD τ).loc b) := W4 m c b

/-- At region 0's exit each of its arrays holds what the region leaves: the inputs as entered, the output its write-backs. -/
theorem hF0 (c : Dev nD) (w : Fin cfg0.W) : (dat0 (Bin0 m) c).arrAt w cfg0.N = Bout0 m c (Pipeline.arrRef spec0 w) := by
  match w with
  | ⟨0, _⟩ =>
    exact ((dat0 (Bin0 m) c).arrAt_in 0 rfl _).trans ((A_eq0 (Bin0 m) c 0).trans (W4_of m c main_arg0 (by decide)).symm)
  | ⟨1, _⟩ =>
    exact ((dat0 (Bin0 m) c).arrAt_in 1 rfl _).trans ((A_eq0 (Bin0 m) c 1).trans (W4_of m c main_arg2 (by decide)).symm)
  | ⟨2, _⟩ =>
    exact (W4_self m c).symm
/-- Every other buffer holds what it held at entry. -/
theorem hrest0 (c : Dev nD) : ∀ b, b ∉ Finset.univ.image (Pipeline.arrRef spec0) → Bout0 m c b = Bin0 m c b := fun b hb =>
  W4_of m c b (fun h => hb (Finset.mem_image.mpr ⟨2, Finset.mem_univ _, (List.mem_singleton.mp h).symm⟩))

set_option backward.isDefEq.respectTransparency.types false in
/-- REGION 0 over the thread state. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (Bin0 m) c).loose
  hwaits := Pipeline.hwaits_of_owed_zero _ _ _ _ Lv0 lv0 0 fun _ _ => rfl
  pre c := iprop(StableHlo.held (c : Thread nD τ) (Pipeline.ucRefs τ sig) (V3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (Bin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bin0 m c) (Bout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of the program.

  The region is entered with every unscoped buffer of the core at the contents after the first aggregation's host
  stretch, and left with them at the same contents except `main_v45`, which holds what the region's write-backs
  leave. Its three arrays are taken out of the unscoped buffers at entry and put back at exit; the generator
  register goes into the region's invariant and comes back; nothing is owed; the kernel has no semaphore of its own.
-/
import proofs.«139656_j25864293057120_1_alg».proof.Proof.K.Bound
import proofs.«139656_j25864293057120_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents before and after region 1, read at the TensorCore's references. -/
abbrev Bin1 (c : Dev nD) (b : Ref sig .tc) : Buf (Elt F) ((c : Thread nD τ).loc b) := W5 m c b
abbrev Bout1 (c : Dev nD) (b : Ref sig .tc) : Buf (Elt F) ((c : Thread nD τ).loc b) := W6 m c b

/-- At region 1's exit each of its arrays holds what the region leaves: the inputs as entered, the output its write-backs. -/
theorem hF1 (c : Dev nD) (w : Fin cfg1.W) : (dat1 (Bin1 m) c).arrAt w cfg1.N = Bout1 m c (Pipeline.arrRef spec1 w) := by
  match w with
  | ⟨0, _⟩ =>
    exact ((dat1 (Bin1 m) c).arrAt_in 0 rfl _).trans ((A_eq1 (Bin1 m) c 0).trans (W6_of m c main_v43 (by decide)).symm)
  | ⟨1, _⟩ =>
    exact ((dat1 (Bin1 m) c).arrAt_in 1 rfl _).trans ((A_eq1 (Bin1 m) c 1).trans (W6_of m c main_v44 (by decide)).symm)
  | ⟨2, _⟩ =>
    exact (W6_self m c).symm
/-- Every other buffer holds what it held at entry. -/
theorem hrest1 (c : Dev nD) : ∀ b, b ∉ Finset.univ.image (Pipeline.arrRef spec1) → Bout1 m c b = Bin1 m c b := fun b hb =>
  W6_of m c b (fun h => hb (Finset.mem_image.mpr ⟨2, Finset.mem_univ _, (List.mem_singleton.mp h).symm⟩))

set_option backward.isDefEq.respectTransparency.types false in
/-- REGION 1 over the thread state. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (Bin1 m) c).loose
  hwaits := Pipeline.hwaits_of_owed_zero _ _ _ _ Lv0 lv0 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (Bin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bin1 m c) (Bout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of the program.

  The region is entered with every unscoped buffer of the core at the contents region 1 left, and left with them
  at the same contents except `main_v46`, which holds what the region's write-backs leave. Its three arrays are
  taken out of the unscoped buffers at entry and put back at exit; the generator register goes into the region's
  invariant and comes back; nothing is owed; the kernel has no semaphore of its own.
-/
import proofs.«139656_j25864293057120_1_alg».proof.Proof.K.Bound
import proofs.«139656_j25864293057120_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents before and after region 2, read at the TensorCore's references. -/
abbrev Bin2 (c : Dev nD) (b : Ref sig .tc) : Buf (Elt F) ((c : Thread nD τ).loc b) := W6 m c b
abbrev Bout2 (c : Dev nD) (b : Ref sig .tc) : Buf (Elt F) ((c : Thread nD τ).loc b) := W7 m c b

/-- At region 2's exit each of its arrays holds what the region leaves: the inputs as entered, the output its write-backs. -/
theorem hF2 (c : Dev nD) (w : Fin cfg2.W) : (dat2 (Bin2 m) c).arrAt w cfg2.N = Bout2 m c (Pipeline.arrRef spec2 w) := by
  match w with
  | ⟨0, _⟩ =>
    exact ((dat2 (Bin2 m) c).arrAt_in 0 rfl _).trans ((A_eq2 (Bin2 m) c 0).trans (W7_of m c main_v45 (by decide)).symm)
  | ⟨1, _⟩ =>
    exact ((dat2 (Bin2 m) c).arrAt_in 1 rfl _).trans ((A_eq2 (Bin2 m) c 1).trans (W7_of m c main_arg4 (by decide)).symm)
  | ⟨2, _⟩ =>
    exact (W7_self m c).symm
/-- Every other buffer holds what it held at entry. -/
theorem hrest2 (c : Dev nD) : ∀ b, b ∉ Finset.univ.image (Pipeline.arrRef spec2) → Bout2 m c b = Bin2 m c b := fun b hb =>
  W7_of m c b (fun h => hb (Finset.mem_image.mpr ⟨2, Finset.mem_univ _, (List.mem_singleton.mp h).symm⟩))

set_option backward.isDefEq.respectTransparency.types false in
/-- REGION 2 over the thread state. -/
def reg2 : Pipeline.RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (Bin2 m) c).loose
  hwaits := Pipeline.hwaits_of_owed_zero _ _ _ _ Lv0 lv0 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (Bin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bin2 m c) (Bout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as a segment of the program.

  The region is entered with every unscoped buffer of the core at the contents after the second aggregation's host
  stretch, and left with them at the same contents except `main_v61`, which holds what the region's write-backs
  leave. Its three arrays are taken out of the unscoped buffers at entry and put back at exit; the generator
  register goes into the region's invariant and comes back; nothing is owed; the kernel has no semaphore of its own.
-/
import proofs.«139656_j25864293057120_1_alg».proof.Proof.K.Bound
import proofs.«139656_j25864293057120_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents before and after region 3, read at the TensorCore's references. -/
abbrev Bin3 (c : Dev nD) (b : Ref sig .tc) : Buf (Elt F) ((c : Thread nD τ).loc b) := W8 m c b
abbrev Bout3 (c : Dev nD) (b : Ref sig .tc) : Buf (Elt F) ((c : Thread nD τ).loc b) := W9 m c b

/-- At region 3's exit each of its arrays holds what the region leaves: the inputs as entered, the output its write-backs. -/
theorem hF3 (c : Dev nD) (w : Fin cfg3.W) : (dat3 (Bin3 m) c).arrAt w cfg3.N = Bout3 m c (Pipeline.arrRef spec3 w) := by
  match w with
  | ⟨0, _⟩ =>
    exact ((dat3 (Bin3 m) c).arrAt_in 0 rfl _).trans ((A_eq3 (Bin3 m) c 0).trans (W9_of m c main_v59 (by decide)).symm)
  | ⟨1, _⟩ =>
    exact ((dat3 (Bin3 m) c).arrAt_in 1 rfl _).trans ((A_eq3 (Bin3 m) c 1).trans (W9_of m c main_v60 (by decide)).symm)
  | ⟨2, _⟩ =>
    exact (W9_self m c).symm
/-- Every other buffer holds what it held at entry. -/
theorem hrest3 (c : Dev nD) : ∀ b, b ∉ Finset.univ.image (Pipeline.arrRef spec3) → Bout3 m c b = Bin3 m c b := fun b hb =>
  W9_of m c b (fun h => hb (Finset.mem_image.mpr ⟨2, Finset.mem_univ _, (List.mem_singleton.mp h).symm⟩))

set_option backward.isDefEq.respectTransparency.types false in
/-- REGION 3 over the thread state. -/
def reg3 : Pipeline.RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (Bin3 m) c).loose
  hwaits := Pipeline.hwaits_of_owed_zero _ _ _ _ Lv0 lv0 3 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec3 c (Bin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bin3 m c) (Bout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as a segment of the program.

  The region is entered with every unscoped buffer of the core at the contents region 3 left, and left with them
  at the same contents except `main_v62`, the program's result, which holds what the region's one write-back leaves.
  Its two arrays are taken out of the unscoped buffers at entry and put back at exit. The kernel keeps a scratch
  row between grid points: the region's invariant starts as what the launch hands it (every scoped buffer no
  window stages, the generator register), carries the scratch row from point to point, and gives the same back
  at the end, the row's contents forgotten. Nothing is owed; the kernel has no semaphore of its own.
-/
import proofs.«139656_j25864293057120_1_alg».proof.Proof.K.Bound
import proofs.«139656_j25864293057120_1_alg».proof.Proof.K.Thread

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents before and after region 4, read at the TensorCore's references. -/
abbrev Bin4 (c : Dev nD) (b : Ref sig .tc) : Buf (Elt F) ((c : Thread nD τ).loc b) := W9 m c b
abbrev Bout4 (c : Dev nD) (b : Ref sig .tc) : Buf (Elt F) ((c : Thread nD τ).loc b) := W10 m c b

/-- At region 4's exit each of its arrays holds what the region leaves: the input as entered, the output its write-back. -/
theorem hF4 (c : Dev nD) (w : Fin cfg4.W) : (dat4 (Bin4 m) c).arrAt w cfg4.N = Bout4 m c (Pipeline.arrRef spec4 w) := by
  match w with
  | ⟨0, _⟩ =>
    exact ((dat4 (Bin4 m) c).arrAt_in 0 rfl _).trans ((A_eq4 (Bin4 m) c 0).trans (W10_of m c main_v61 (by decide)).symm)
  | ⟨1, _⟩ =>
    exact (W10_self m c).symm
/-- Every other buffer holds what it held at entry. -/
theorem hrest4 (c : Dev nD) : ∀ b, b ∉ Finset.univ.image (Pipeline.arrRef spec4) → Bout4 m c b = Bin4 m c b := fun b hb =>
  W10_of m c b (fun h => hb (Finset.mem_image.mpr ⟨1, Finset.mem_univ _, (List.mem_singleton.mp h).symm⟩))

set_option backward.isDefEq.respectTransparency.types false in
/-- REGION 4 over the thread state. -/
def reg4 : Pipeline.RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (Bin4 m) c).loose
  hwaits := Pipeline.hwaits_of_owed_zero _ _ _ _ Lv0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (Bin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 4).pre c (fun _ => fullShare) (adm (F := F) 4).1
        ∗ Pipeline.scopedRest (Pipeline.pin (pcfgs (F := F)) adm 4).spec c) : sProp 𝕄) ⊢ Pipeline.ΦA spec4 c := by
      unfold Pipeline.ΦA
      iintro ⟨Hp, -, Hr⟩
      isplitl [Hr]; · iexact Hr
      iexact Hp
    exact h1.trans (hin4 (Bin4 m) c)
  hout c := by
    rw [Pipeline.ownSems0_none]
    have h2 : (Pipeline.ΦA spec4 c : sProp 𝕄) ⊢ iprop((∃ r, prngReg c r) ∗ BI.emp
        ∗ Pipeline.scopedRest (Pipeline.pin (pcfgs (F := F)) adm 4).spec c) := by
      unfold Pipeline.ΦA
      iintro ⟨Hr, Hp⟩
      isplitl [Hp]; · iexact Hp
      isplitr; · iempintro
      iexact Hr
    exact (hout4 (Bin4 m) c).trans h2
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bin4 m c) (Bout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The whole program's run, from the five regions' records.

  Each region is a segment entered from the thread state the item before it left; the host stretches between
  them are the program's own operations. The launch deals every core its generator register and nothing owed,
  which is the rest that rides beside the buffers; the last segment ends owing nothing. From that: every
  execution of the program terminates, faults nowhere, and ends with every unscoped buffer at the last boundary's
  contents — in particular each argument as launched: the program's frame.
-/
import proofs.«139656_j25864293057120_1_alg».proof.Proof.K.Seg0
import proofs.«139656_j25864293057120_1_alg».proof.Proof.K.Seg1
import proofs.«139656_j25864293057120_1_alg».proof.Proof.K.Seg2
import proofs.«139656_j25864293057120_1_alg».proof.Proof.K.Seg3
import proofs.«139656_j25864293057120_1_alg».proof.Proof.K.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals a core besides its buffers makes the rest that rides along: the generator register at its
    launch state, the core owing nothing. -/
theorem launch_rest (c : Dev nD) :
    (iprop(unscopedSems0 c ∗ owes (c : Thread nD τ) ((0 : Dev nD → CellTallies nD τ sig Unit) c) ∅ ∗ Pipeline.launchCred (0 : Dev nD → CellTallies nD τ sig Unit) c
        ∗ prngReg c (ρ c) ∗ emp) : sProp 𝕄) ⊢ Rst c := by
  iintro ⟨-, HO, -, Hp, -⟩
  isplitl [Hp]; · iexists _; iexact Hp
  iexists ∅; iexact HO

set_option backward.isDefEq.respectTransparency.types false in
/-- THE FRAME of the program: every execution terminates, nothing faults, the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none Lv0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      iintro ⟨H, -⟩
      imodintro
      have hmono : (_ : sProp 𝕄) ⊢ (bigSep Finset.univ (fun c : Dev nD => (Rst c : sProp 𝕄))) :=
        bigSep_mono fun c _ => launch_rest ρ c
      ihave H' := hmono $$ H
      iexact H')
    (hE5 := fun c => by iintro ⟨-, H⟩; iexact H)
    (R0 := reg0 m) (hpre0 := fun c => .rfl)
    (hpost0 := fun c => by rw [V4_eq m c]; exact .rfl)
    (R1 := reg1 m) (hpre1 := fun c => by rw [V5_eq m c]; exact .rfl)
    (hpost1 := fun c => by rw [V6_eq m c]; exact .rfl)
    (R2 := reg2 m) (hpre2 := fun c => by rw [V6_eq m c]; exact .rfl)
    (hpost2 := fun c => by rw [V7_eq m c]; exact .rfl)
    (R3 := reg3 m) (hpre3 := fun c => by rw [V8_eq m c]; exact .rfl)
    (hpost3 := fun c => by rw [V9_eq m c]; exact .rfl)
    (R4 := reg4 m) (hpre4 := fun c => by rw [V9_eq m c]; exact .rfl)
    (hpost4 := fun c => by rw [V10_eq m c]; exact .rfl)

end Cert.Kernel.Hand

end
-- ==== Proof.KI.Reg0.lean ====
/-
  Region 0 of the program: the first dense product, `x · W1`, one block of 2000 rows per grid point.

  At a parameter `V` — what the core's buffers hold when the region is entered — this module says what
  each window's block is at a point, what the body leaves in the output window's staging buffer (its one
  store, of the product of the point's row block with the whole weight matrix), and proves the body's
  triple, the region's proof data and the body obligation at every point. The row block moves with the
  point; the weight window is fetched once and read at every point; nothing is kept between points.
-/
import proofs.«139656_j25864293057120_1_alg».proof.Proof.Gen.KernelIdeal.Launch
import proofs.«139656_j25864293057120_1_alg».proof.Proof.Gen.KernelIdeal.Skeleton
import proofs.«139656_j25864293057120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds the point's row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x3 := Rect.unit (s := S2000x3) ![0, 0] S2000x3.size inb_S2000x3_S2000x3_0_0
abbrev r0_1 : Rect S3x16 := Rect.unit (s := S3x16) ![0, 0] S3x16.size inb_S3x16_S3x16_0_0
abbrev r0_2 : Rect S2000x16 := Rect.unit (s := S2000x16) ![0, 0] S2000x16.size inb_S2000x16_S2000x16_0_0

/-! ## What the body leaves in the output window's buffer -/

/-- The output buffer after the body: its one store, of the product of the row block and the weights. -/
def out0_2 (x0 : Vec F S2000x3 .f32) (x1 : Vec F S3x16 .f32) : Vec F S2000x16 .f32 :=
  View.canon [⟨r0_2, k0_pay1 (View.ld x0 r0_0) (View.ld x1 r0_1)⟩]

/-- The one store covers the buffer. -/
theorem cover0_2 (p0 : Vec F S2000x16 .f32) (y : S2000x16.Idx) :
    ∃ pc ∈ ([⟨r0_2, p0⟩] : List (View.Piece (Elt F) S2000x16 .f32)), y ∈ pc.1.set :=
  View.cover_of_tiled [⟨r0_2, p0⟩] S2000x16.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S2000x3 .f32) (harg1 : arg1.IsWhole)
    (arg2 : Memref sig .tc .vmem S3x16 .f32) (harg2 : arg2.IsWhole) (arg3 : Memref sig .tc .vmem S2000x16 .f32) (harg3 : arg3.IsWhole)
    (x0 : Vec F S2000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of region 0 on core `c`: the arrays as the region finds them; after the body at point `t` each
    input's buffer at its block and the output's at `out0_2` of the blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program: the first layer's bias and rectifier, `max(agg + b1, 0)`, one block of 2000 rows
  per grid point.

  At a parameter `V` — what the core's buffers hold when the region is entered — this module says what
  each window's block is at a point, what the body leaves in the output window's staging buffer (its one
  store, of the point's row block plus the bias row broadcast down the rows, cut below at zero), and proves the
  body's triple, the region's proof data and the body obligation at every point. The row block moves with the
  point; the bias window is fetched once and read at every point; nothing is kept between points.
-/
import proofs.«139656_j25864293057120_1_alg».proof.Proof.Gen.KernelIdeal.Launch
import proofs.«139656_j25864293057120_1_alg».proof.Proof.Gen.KernelIdeal.Skeleton
import proofs.«139656_j25864293057120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds the point's row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the whole bias row at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x16 := Rect.unit (s := S2000x16) ![0, 0] S2000x16.size inb_S2000x16_S2000x16_0_0
abbrev r1_1 : Rect S1x16 := Rect.unit (s := S1x16) ![0, 0] S1x16.size inb_S1x16_S1x16_0_0
abbrev r1_2 : Rect S2000x16 := Rect.unit (s := S2000x16) ![0, 0] S2000x16.size inb_S2000x16_S2000x16_0_0

/-! ## What the body leaves in the output window's buffer -/

/-- The output buffer after the body: its one store, of the row block plus the bias row, cut below at zero. -/
def out1_2 (x0 : Vec F S2000x16 .f32) (x1 : Vec F S1x16 .f32) : Vec F S2000x16 .f32 :=
  View.canon [⟨r1_2, k1_pay1 (View.ld x0 r1_0) (View.ld x1 r1_1)⟩]

/-- The one store covers the buffer. -/
theorem cover1_2 (p0 : Vec F S2000x16 .f32) (y : S2000x16.Idx) :
    ∃ pc ∈ ([⟨r1_2, p0⟩] : List (View.Piece (Elt F) S2000x16 .f32)), y ∈ pc.1.set :=
  View.cover_of_tiled [⟨r1_2, p0⟩] S2000x16.size (by rfl) y

/-! ## The body's triple -/

set_option maxHeartbeats 1000000 in
/-- On whole staging memrefs, the inputs' at contents `x0`, `x1` and the output's at anything, the body runs to the
    continuation holding the inputs' as they were and the output's at `out1_2 x0 x1`. -/
theorem sound_kernel1 (c : Dev nD) (E : Set ℕ) (i : grid1.Coords) (arg1 : Memref sig .tc .vmem S2000x16 .f32) (harg1 : arg1.IsWhole)
    (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of region 1 on core `c`: the arrays as the region finds them; after the body at point `t` each
    input's buffer at its block and the output's at `out1_2` of the blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program: the second dense product, `h1 · W2`, one block of 2000 rows per grid point.

  At a parameter `V` — what the core's buffers hold when the region is entered — this module says what
  each window's block is at a point, what the body leaves in the output window's staging buffer (its one
  store, of the product of the point's row block with the whole weight matrix), and proves the body's
  triple, the region's proof data and the body obligation at every point. The row block moves with the
  point; the weight window is fetched once and read at every point; nothing is kept between points.
-/
import proofs.«139656_j25864293057120_1_alg».proof.Proof.Gen.KernelIdeal.Launch
import proofs.«139656_j25864293057120_1_alg».proof.Proof.Gen.KernelIdeal.Skeleton
import proofs.«139656_j25864293057120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's staging buffer holds the point's row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x16 := Rect.unit (s := S2000x16) ![0, 0] S2000x16.size inb_S2000x16_S2000x16_0_0
abbrev r2_1 : Rect S16x32 := Rect.unit (s := S16x32) ![0, 0] S16x32.size inb_S16x32_S16x32_0_0
abbrev r2_2 : Rect S2000x32 := Rect.unit (s := S2000x32) ![0, 0] S2000x32.size inb_S2000x32_S2000x32_0_0

/-! ## What the body leaves in the output window's buffer -/

/-- The output buffer after the body: its one store, of the product of the row block and the weights. -/
def out2_2 (x0 : Vec F S2000x16 .f32) (x1 : Vec F S16x32 .f32) : Vec F S2000x32 .f32 :=
  View.canon [⟨r2_2, k2_pay1 (View.ld x0 r2_0) (View.ld x1 r2_1)⟩]

/-- The one store covers the buffer. -/
theorem cover2_2 (p0 : Vec F S2000x32 .f32) (y : S2000x32.Idx) :
    ∃ pc ∈ ([⟨r2_2, p0⟩] : List (View.Piece (Elt F) S2000x32 .f32)), y ∈ pc.1.set :=
  View.cover_of_tiled [⟨r2_2, p0⟩] S2000x32.size (by rfl) y

/-! ## The body's triple -/

set_option maxHeartbeats 1000000 in
/-- On whole staging memrefs, the inputs' at contents `x0`, `x1` and the output's at anything, the body runs to the
    continuation holding the inputs' as they were and the output's at `out2_2 x0 x1`. -/
theorem sound_kernel2 (c : Dev nD) (E : Set ℕ) (i : grid2.Coords) (arg1 : Memref sig .tc .vmem S2000x16 .f32) (harg1 : arg1.IsWhole)
    (arg2 : Memref sig .tc .vmem S16x32 .f32) (harg2 : arg2.IsWhole) (arg3 : Memref sig .tc .vmem S2000x32 .f32) (harg3 : arg3.IsWhole)
    (x0 : Vec F S2000x16 .f32) (x1 : Vec F S16x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of region 2 on core `c`: the arrays as the region finds them; after the body at point `t` each
    input's buffer at its block and the output's at `out2_2` of the blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program: the second layer's bias, `agg + b2`, one block of 2000 rows per grid point.

  At a parameter `V` — what the core's buffers hold when the region is entered — this module says what
  each window's block is at a point, what the body leaves in the output window's staging buffer (its one
  store, of the point's row block plus the bias row broadcast down the rows), and proves the body's
  triple, the region's proof data and the body obligation at every point. The row block moves with the
  point; the bias window is fetched once and read at every point; nothing is kept between points.
-/
import proofs.«139656_j25864293057120_1_alg».proof.Proof.Gen.KernelIdeal.Launch
import proofs.«139656_j25864293057120_1_alg».proof.Proof.Gen.KernelIdeal.Skeleton
import proofs.«139656_j25864293057120_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds the point's row block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the whole bias row at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x32 := Rect.unit (s := S2000x32) ![0, 0] S2000x32.size inb_S2000x32_S2000x32_0_0
abbrev r3_1 : Rect S1x32 := Rect.unit (s := S1x32) ![0, 0] S1x32.size inb_S1x32_S1x32_0_0
abbrev r3_2 : Rect S2000x32 := Rect.unit (s := S2000x32) ![0, 0] S2000x32.size inb_S2000x32_S2000x32_0_0

/-! ## What the body leaves in the output window's buffer -/

/-- The output buffer after the body: its one store, of the row block plus the bias row. -/
def out3_2 (x0 : Vec F S2000x32 .f32) (x1 : Vec F S1x32 .f32) : Vec F S2000x32 .f32 :=
  View.canon [⟨r3_2, k3_pay1 (View.ld x0 r3_0) (View.ld x1 r3_1)⟩]

/-- The one store covers the buffer. -/
theorem cover3_2 (p0 : Vec F S2000x32 .f32) (y : S2000x32.Idx) :
    ∃ pc ∈ ([⟨r3_2, p0⟩] : List (View.Piece (Elt F) S2000x32 .f32)), y ∈ pc.1.set :=
  View.cover_of_tiled [⟨r3_2, p0⟩] S2000x32.size (by rfl) y

/-! ## The body's triple -/

set_option maxHeartbeats 1000000 in
/-- On whole staging memrefs, the inputs' at contents `x0`, `x1` and the output's at anything, the body runs to the
    continuation holding the inputs' as they were and the output's at `out3_2 x0 x1`. -/
theorem sound_kernel3 (c : Dev nD) (E : Set ℕ) (i : grid3.Coords) (arg1 : Memref sig .tc .vmem S2000x32 .f32) (harg1 : arg1.IsWhole)
    (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The region's proof data -/

/-- The proof data of region 3 on core `c`: the arrays as the region finds them; after the body at point `t` each
    input's buffer at its block and the output's at `out3_2` of the blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program: the mean over the 100000 rows, taken in 50 blocks of 2000 rows.

  The kernel keeps a running column sum in a scratch row: the first point clears it, every point adds its
  block's column sums to it, and the last point stores the scratch times 1/100000 into the one output block.
  At a parameter `V` — what the core's buffers hold when the region is entered — `acc4 V c n` is the scratch
  row after point `n`: the block sums of points 0 … n added up from zero in that order. The region's invariant
  carries the scratch at `acc4` from one point to the next; the output window is idle at every point but
  the last, where it receives `acc4 V c 49` scaled.
-/
import proofs.«139656_j25864293057120_1_alg».proof.Proof.Gen.KernelIdeal.Launch
import proofs.«139656_j25864293057120_1_alg».proof.Proof.Gen.KernelIdeal.Skeleton
import proofs.«139656_j25864293057120_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the running sum -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch row after point `n`: the first point adds its block's column sums to the cleared row, each
    later point adds its block's column sums to what the point before left. -/
def acc4 (c : Dev nD) : (n : ℕ) → n < cfg4.N → Vec F S1x32 .f32
  | 0, h => k4_pay2 (k4_pay1 (F := F)) (iblk4 V c 0 ⟨0, h⟩)
  | n + 1, h => k4_pay2 (acc4 c n (Nat.lt_of_succ_lt h)) (iblk4 V c 0 ⟨n + 1, h⟩)

/-- The scratch operand: a whole scoped buffer of the kernel's own, passed beside the windows. -/
abbrev scM4 : Memref sig .tc .vmem S1x32 .f32 := Memref.whole cc4_scratch0

/-- The region's invariant before position `n`: at the first point what the launch hands the region (every scoped
    buffer no window stages at some contents, the generator register at some state); afterwards the scratch row at
    what the point before left, beside what gives the rest back once the scratch row is returned. -/
def PhiS4 (c : Dev nD) : (n : ℕ) → n ≤ cfg4.N → sProp 𝕄
  | 0, _ => Pipeline.ΦA spec4 c
  | n + 1, hn => iprop(owns (c : Thread nD τ) scM4 fullShare (acc4 V c n hn)
      ∗ ((∃ d, owns (c : Thread nD τ) scM4 fullShare d) -∗ Pipeline.ΦA spec4 c))

/-! ## The region's proof data -/

/-- The proof data of region 4 on core `c`: the arrays as the region finds them; after the body at point `t` the
    input's buffer at its block and the output's at the scaled running sum (written back at the last point only: the
    window is idle at the others); the invariant carries the scratch row; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

/-! ## The body's two conditions over the grid, and where the output window is idle -/

/-- The body's first condition: the point's coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The body's second condition: the point's coordinate is the last. -/
abbrev cond4_1 (i : grid4.Coords) : Prop := k4_cond2 i = 1#1
/-- It holds at the last point only. -/
theorem hcond4_1 : ∀ t : Fin cfg4.N, cond4_1 (grid4.coords t) ↔ t.val = 49 :=
  (by decide +kernel : ∀ t : Fin grid4.N, cond4_1 (grid4.coords t) ↔ t.val = 49)

/-- The input window is never idle. -/
theorem liveAt4_0 : ∀ t : Fin cfg4.N, cfg4.idle 0 (grid4.coords t) = false := by decide +kernel
/-- The output window is idle at every point but the last, -/
theorem idleAt4_1 : ∀ t : Fin cfg4.N, t.val ≠ 49 → cfg4.idle 1 (grid4.coords t) = true := by decide +kernel
/-- where it is not written back either; -/
theorem noFlush4_1 : ∀ t : Fin cfg4.N, t.val ≠ 49 → (cfg4.win 1).flush t = false := by decide +kernel
/-- at the last point it is live. -/
theorem liveAt4_1 : ∀ t : Fin cfg4.N, t.val = 49 → cfg4.idle 1 (grid4.coords t) = false := by decide +kernel

/-! ## The body's accesses: each buffer whole -/

abbrev r4s : Rect S1x32 := Rect.unit (s := S1x32) ![0, 0] S1x32.size inb_S1x32_S1x32_0_0
abbrev r4i : Rect S2000x32 := Rect.unit (s := S2000x32) ![0, 0] S2000x32.size inb_S2000x32_S2000x32_0_0

theorem hz4 : (![0, 0] : Fin 2 → Nat) = fun _ => 0 := funext fun a => by fin_cases a <;> rfl

/-- A row buffer whose last store was whole reads as that store's payload, whatever was stored before. -/
theorem read_last4 {sg : RefSig} {κ : Kind} {sp : Space} (v : View sg κ sp S1x32 .f32) (f : v.ty.Contents (Elt F)) (w : Vec F S1x32 .f32)
    (L : List (View.Piece (Elt F) S1x32 .f32)) :
    v.read (Elt F) (v.writes (Elt F) f (⟨r4s, w⟩ :: L)) = w := by
  rw [View.read_writes_eq_canon _ _ _ (fun y => ⟨_, List.mem_cons_self, View.mem_set_unit_zero hz4 inb_S1x32_S1x32_0_0 y⟩),
    View.canon_cons_unit_zero hz4]

/-! ## The body's triple, by the shape of point -/

set_option maxHeartbeats 1000000 in
/-- At the first point: on whole memrefs, the input's at `x0`, the output's at `x1` and the scratch row at anything, the
    body runs to the continuation holding the input's and the output's as they were and the scratch row at the cleared
    row plus the column sums of `x0`. -/
theorem sound_kernel4_first (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : cond4_0 i) (hc1 : ¬cond4_1 i)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k4_pay2 (k4_pay1 (F := F)) x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_last4]
  sl_unfold_run_names
  rw [View.readCov_unit_zero _ hz4]
  simp only [View.readAt_eq_ld, View.ld_unit_zero (S := S2000x32) hz4]

set_option maxHeartbeats 1000000 in
/-- At a point neither first nor last: the scratch row at `xs` ends at `xs` plus the column sums of `x0`; the input's and
    the output's memrefs are handed back as they were. -/
theorem sound_kernel4_mid (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : ¬cond4_0 i) (hc1 : ¬cond4_1 i)
    (x0 : Vec F S2000x32 .f32) (x1 : Vec F S1x32 .f32) (xs : Vec F S1x32 .f32) (K : PUnit → sProp 𝕄) :
    iprop(owns (c : Thread nD τ) arg1 fullShare x0 ∗ owns (c : Thread nD τ) arg2 fullShare x1 ∗ owns (c : Thread nD τ) arg3 fullShare xs
        ∗ (iprop(owns (c : Thread nD τ) arg1 fullShare x0 ∗ owns (c : Thread nD τ) arg2 fullShare x1 ∗ owns (c : Thread nD τ) arg3 fullShare (k4_pay2 xs x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  rw [read_last4]
  simp only [View.readAt_eq_ld, View.ld_unit_zero (S := S2000x32) hz4, View.ld_unit_zero (S := S1x32) hz4]

set_option maxHeartbeats 1000000 in
/-- At the last point: the scratch row at `xs` ends at `xs` plus the column sums of `x0`, and the output's memref,
    at anything, ends at that row scaled. -/
theorem sound_kernel4_last (c : Dev nD) (E : Set ℕ) (i : grid4.Coords) (arg1 : Memref sig .tc .vmem S2000x32 .f32) (harg1 : arg1.IsWhole)
    (arg2 : Memref sig .tc .vmem S1x32 .f32) (harg2 : arg2.IsWhole) (arg3 : Memref sig .tc .vmem S1x32 .f32) (harg3 : arg3.IsWhole)
    (hc0 : ¬cond4_0 i) (hc1 : cond4_1 i)
    (x0 : Vec F S2000x32 .f32) (xs : Vec F S1x32 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k4_pay3 (k4_pay2 xs x0)) ∗ owns (c : Thread nD τ) arg3 fullShare (k4_pay2 xs x0)) -∗ K ⟨⟩))
      ⊢ wp frame (wpE (defs₀ (F := F)) Variants.none c none) E (cc4__mean_pool_kernel i arg1 harg1 arg2 harg2 arg3 harg3) K := by
  simp only [cc4__mean_pool_kernel_eq_skeleton]; unfold cc4__mean_pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [read_last4]
    try sl_unfold_run_names
    rw [View.readCov_unit_zero _ hz4]
    simp only [View.readAt_eq_ld, View.ld_unit_zero (S := S2000x32) hz4, View.ld_unit_zero (S := S1x32) hz4]
  iexists _; isplitr
  swap; · iexact H2
  ipureintro
  sl_unfold_run_names
  rw [read_last4]
  simp only [View.readAt_eq_ld, View.ld_unit_zero (S := S2000x32) hz4, View.ld_unit_zero (S := S1x32) hz4]

/-! ## The invariant: the scratch row lent out of what the launch hands the region -/

/-- What the launch hands the region holds the scratch row at some contents, and takes it back at any contents. -/
theorem PhiA4_split (c : Dev nD) :
    (Pipeline.ΦA spec4 c : sProp 𝕄)
      ⊢ iprop((∃ d, owns (c : Thread nD τ) scM4 fullShare d) ∗ ((∃ d, owns (c : Thread nD τ) scM4 fullShare d) -∗ Pipeline.ΦA spec4 c)) := by
  unfold Pipeline.ΦA; rw [scopedRest4_eq]; simp only [scM4, owns_whole]
  iintro ⟨⟨H1, H2, H3, H4, H5, H6, H7, H8, H9, H10, H11, H12, H13, H14, H15, H16, H17, H18, H19, H20, HQ⟩, Hr⟩
  isplitl [HQ]
  · iexact HQ
  iintro HQ
  isplitr [Hr]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact HQ
  iexact Hr

/-! ## What the proof data say, point by point -/

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c t.val t.isLt) := by dsimp only [dat4]

theorem acc4_zero (c : Dev nD) (h : 0 < cfg4.N) : acc4 V c 0 h = k4_pay2 (k4_pay1 (F := F)) (iblk4 V c 0 ⟨0, h⟩) := rfl
theorem acc4_succ (c : Dev nD) (n : ℕ) (h : n + 1 < cfg4.N) :
    acc4 V c (n + 1) h = k4_pay2 (acc4 V c n (Nat.lt_of_succ_lt h)) (iblk4 V c 0 ⟨n + 1, h⟩) := rfl

/-- The invariant before the first point is what the launch hands the region; -/
theorem Phi4_first (c : Dev nD) (h : 0 < cfg4.N) : (dat4 V c).Φ (⟨0, h⟩ : Fin cfg4.N).castSucc = Pipeline.ΦA spec4 c := rfl
/-- before a later point it holds the scratch row at what the point before left; -/
theorem Phi4_later (c : Dev nD) (n : ℕ) (h : n + 1 < cfg4.N) :
    (dat4 V c).Φ (⟨n + 1, h⟩ : Fin cfg4.N).castSucc
      = iprop(owns (c : Thread nD τ) scM4 fullShare (acc4 V c n (Nat.lt_of_succ_lt h))
          ∗ ((∃ d, owns (c : Thread nD τ) scM4 fullShare d) -∗ Pipeline.ΦA spec4 c)) := rfl
/-- after any point, at what that point left. -/
theorem Phi4_after (c : Dev nD) (t : Fin cfg4.N) :
    (dat4 V c).Φ t.succ
      = iprop(owns (c : Thread nD τ) scM4 fullShare (acc4 V c t.val t.isLt)
          ∗ ((∃ d, owns (c : Thread nD τ) scM4 fullShare d) -∗ Pipeline.ΦA spec4 c)) := rfl

/-- The input window's staging buffer holds the point's row block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 1000000 in
/-- The body at any point: the input's memref holds its block; the invariant lends the scratch row (at anything
    before the first point, at the running sum afterwards) and takes it back at the running sum through this point;
    the output's memref is handed back untouched wherever the window is idle, and at the last point is left at the
    running sum scaled; the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
    unfold Dat.leavesExact; rw [liveAt4_0 t], after4_0]
  rw [Phi4_after]
  obtain ⟨n, hn⟩ := t
  have hN : n < 50 := lt_of_lt_of_eq hn (show cfg4.N = 50 from N_4)
  cases n with
  | zero =>
    have h49 : (⟨0, hn⟩ : Fin cfg4.N).val ≠ 49 := by show (0 : ℕ) ≠ 49; decide
    rw [Dat.leavesExact_idle (dat4 V c) 1 _ (idleAt4_1 _ h49) (noFlush4_1 _ h49)]
    rw [Phi4_first]
    dsimp only
    rw [acc4_zero]
    iintro ⟨HΦ, Ho, ⟨%d0, H0⟩, ⟨%d1, H1⟩⟩
    ihave Hs := (PhiA4_split c) $$ HΦ
    icases Hs with ⟨HS, Hw⟩
    iapply (sound_kernel4_first c Set.univ _ _ _ _ _ _ _ ((hcond4_0 ⟨0, hn⟩).mpr rfl) (fun h => h49 ((hcond4_1 _).mp h))
      (iblk4 V c 0 ⟨0, hn⟩) _ _)
    isplitl [H0]; · iexact H0
    isplitl [H1]; · iexact H1
    isplitl [HS]; · iexact HS
    iintro ⟨H0, H1, HS⟩
    isplitl [HS Hw]
    · isplitl [HS]; · iexact HS
      iexact Hw
    isplitl [Ho]; · iexact Ho
    isplitl [H0]; · iexact H0
    iexists _; iexact H1
  | succ n =>
    have h0 : ¬cond4_0 (grid4.coords ⟨n + 1, hn⟩) := fun h => absurd ((hcond4_0 ⟨n + 1, hn⟩).mp h) (Nat.succ_ne_zero n)
    rw [Phi4_later]
    dsimp only
    rw [acc4_succ]
    by_cases h49 : n + 1 = 49
    · rw [show (dat4 V c).leavesExact 1 ⟨n + 1, hn⟩ = owns (c : Thread nD τ) (st4_1 ⟨n + 1, hn⟩) fullShare ((dat4 V c).after 1 ⟨n + 1, hn⟩) from by
        unfold Dat.leavesExact; rw [liveAt4_1 ⟨n + 1, hn⟩ h49], after4_1]
      dsimp only
      rw [acc4_succ]
      iintro ⟨⟨HS, Hw⟩, Ho, ⟨%d0, H0⟩, ⟨%d1, H1⟩⟩
      iapply (sound_kernel4_last c Set.univ _ _ _ _ _ _ _ h0 ((hcond4_1 ⟨n + 1, hn⟩).mpr h49)
        (iblk4 V c 0 ⟨n + 1, hn⟩) (acc4 V c n (Nat.lt_of_succ_lt hn)) _)
      isplitl [H0]; · iexact H0
      isplitl [H1]; · iexists _; iexact H1
      isplitl [HS]; · iexact HS
      iintro ⟨H0, H1, HS⟩
      isplitl [HS Hw]
      · isplitl [HS]; · iexact HS
        iexact Hw
      isplitl [Ho]; · iexact Ho
      isplitl [H0]; · iexact H0
      iexact H1
    · rw [Dat.leavesExact_idle (dat4 V c) 1 _ (idleAt4_1 ⟨n + 1, hn⟩ h49) (noFlush4_1 ⟨n + 1, hn⟩ h49)]
      iintro ⟨⟨HS, Hw⟩, Ho, ⟨%d0, H0⟩, ⟨%d1, H1⟩⟩
      iapply (sound_kernel4_mid c Set.univ _ _ _ _ _ _ _ h0 (fun h => h49 ((hcond4_1 ⟨n + 1, hn⟩).mp h))
        (iblk4 V c 0 ⟨n + 1, hn⟩) _ (acc4 V c n (Nat.lt_of_succ_lt hn)) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      iexists _; iexact H1

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Pipeline.ΦA spec4 c from rfl]

/-- After the last point the invariant gives back what the launch handed it: the scratch row's contents are forgotten. -/
theorem hout4 (c : Dev nD) : (dat4 V c).Φ (Fin.last cfg4.N) ⊢ Pipeline.ΦA spec4 c := by
  rw [show (dat4 V c).Φ (Fin.last cfg4.N)
      = iprop(owns (c : Thread nD τ) scM4 fullShare (acc4 V c 49 (by decide))
          ∗ ((∃ d, owns (c : Thread nD τ) scM4 fullShare d) -∗ Pipeline.ΦA spec4 c)) from rfl]
  iintro ⟨HS, Hw⟩
  iapply Hw
  iexists _; iexact HS

/-! ## The result array after the run -/

/-- The last point. -/
abbrev t4_49 : Fin cfg4.N := ⟨49, by decide⟩

/-- The one write-back, at the last point, writes the running sum scaled: block (0, 0) of the one-row array read
    through zero offsets is the array. -/
theorem flushed4_eq (c : Dev nD) (t : Fin cfg4.N) (hf : (cfg4.win 1).flush t = true) :
    (dat4 V c).flushed 1 t
      = ((cfg4.win 1).blk t).view.read (Elt F) (k4_pay3 (acc4 V c 49 (by decide)) : Vec F S1x32 .f32) := by
  have hN : cfg4.N = 50 := N_4
  have h49 : t.val = 49 := by have := (flush4_1 t).mp hf; have := t.isLt; omega
  obtain rfl : t = t4_49 := Fin.ext h49
  show (cfg4.win 1).cut (grid4.coords t4_49) ((dat4 V c).after 1 t4_49) = _
  rw [after4_1]
  have hz' : (fun a => win4_1.index t4_49 a * main_v62.ty.shape.size a) = fun _ => 0 := funext fun a => by fin_cases a <;> decide +kernel
  exact (Memref.read_access_unit_zero (Elt F) main_v62 hz' (fun a => by rw [congrFun hz' a]; simp) _).symm

/-- The region's result array after the run: the one output block, written back at the last point, holds the running
    sum over all 50 blocks, scaled. -/
theorem arrAt4_out (c : Dev nD) :
    (dat4 V c).arrAt 1 cfg4.N = (k4_pay3 (acc4 V c 49 (by decide)) : Vec F S1x32 .f32) :=
  (dat4 V c).arrAt_eq_of_cover 1 _ (flushed4_eq V c) fun i =>
    ⟨t4_49, (flush4_1 t4_49).mpr rfl, by
      show i ∈ ((View.whole main_v62).slice (win4_1.rect t4_49)).set
      rw [View.set_slice_whole, Rect.mem_set_unit]
      intro a
      have h0 : (i 0 : Nat) < 1 := (i 0).isLt
      have h1 : (i 1 : Nat) < 32 := (i 1).isLt
      match a with
      | ⟨0, _⟩ =>
        show win4_1.index t4_49 0 * win4_1.size 0 ≤ (i 0 : Nat) ∧ (i 0 : Nat) < win4_1.index t4_49 0 * win4_1.size 0 + win4_1.xsize (grid4.coords t4_49) 0
        rw [show win4_1.index t4_49 0 * win4_1.size 0 = 0 from by decide +kernel, show win4_1.xsize (grid4.coords t4_49) 0 = 1 from by decide +kernel]; omega
      | ⟨1, _⟩ =>
        show win4_1.index t4_49 1 * win4_1.size 1 ≤ (i 1 : Nat) ∧ (i 1 : Nat) < win4_1.index t4_49 1 * win4_1.size 1 + win4_1.xsize (grid4.coords t4_49) 1
        rw [show win4_1.index t4_49 1 * win4_1.size 1 = 0 from by decide +kernel, show win4_1.xsize (grid4.coords t4_49) 1 = 32 from by decide +kernel]; omega⟩

end Cert.KernelIdeal.Hand

end
-- ==== Proof.KI.Bound.lean ====
/-
  The contents of the core's buffers at each boundary of the program, from the launch memory `m`.

  The program is: three stretches of host operations (the edge indices and the edge weights), region 0 (`x · W1`),
  a host stretch (gather, weight, scatter-add along the edges), regions 1 and 2 (bias and rectifier; `h1 · W2`), a
  host stretch (the same aggregation on 32 columns), regions 3 and 4 (bias; the mean over the rows). A host stretch
  changes the buffers as its operations say; a region changes only its output array, to what its write-backs
  leave (`oK`: the region's proof data read at the end of its grid, at the contents the region was entered from).
  `outs` names those five arrays for the program's conditional frame, and `pdats` is the family of the five
  regions' proof data, each at its entry contents.
-/
import proofs.«139656_j25864293057120_1_alg».proof.Proof.KI.Reg0
import proofs.«139656_j25864293057120_1_alg».proof.Proof.KI.Reg1
import proofs.«139656_j25864293057120_1_alg».proof.Proof.KI.Reg2
import proofs.«139656_j25864293057120_1_alg».proof.Proof.KI.Reg3
import proofs.«139656_j25864293057120_1_alg».proof.Proof.KI.Reg4
import proofs.«139656_j25864293057120_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The boundaries -/

/-- What region 0 leaves in `main_v30`, entered from the contents after the first three host stretches. -/
def o4 (c : Dev nD) : Buf (Elt F) ((c : Thread nD τ).loc main_v30) := (dat0 (fun c b => V3 m c b) c).arrAt 2 cfg0.N
/-- After region 0. -/
def W4 (c : Dev nD) : Valuation τ sig (Elt F) := Function.update (V3 m c) main_v30 (o4 m c)
/-- After the first aggregation's host stretch. -/
def W5 (c : Dev nD) : Valuation τ sig (Elt F) := StableHlo.after hostOps1 (W4 m c)
/-- What region 1 leaves in `main_v45`. -/
def o6 (c : Dev nD) : Buf (Elt F) ((c : Thread nD τ).loc main_v45) := (dat1 (fun c b => W5 m c b) c).arrAt 2 cfg1.N
/-- After region 1. -/
def W6 (c : Dev nD) : Valuation τ sig (Elt F) := Function.update (W5 m c) main_v45 (o6 m c)
/-- What region 2 leaves in `main_v46`. -/
def o7 (c : Dev nD) : Buf (Elt F) ((c : Thread nD τ).loc main_v46) := (dat2 (fun c b => W6 m c b) c).arrAt 2 cfg2.N
/-- After region 2. -/
def W7 (c : Dev nD) : Valuation τ sig (Elt F) := Function.update (W6 m c) main_v46 (o7 m c)
/-- After the second aggregation's host stretch. -/
def W8 (c : Dev nD) : Valuation τ sig (Elt F) := StableHlo.after hostOps3 (W7 m c)
/-- What region 3 leaves in `main_v61`. -/
def o9 (c : Dev nD) : Buf (Elt F) ((c : Thread nD τ).loc main_v61) := (dat3 (fun c b => W8 m c b) c).arrAt 2 cfg3.N
/-- After region 3. -/
def W9 (c : Dev nD) : Valuation τ sig (Elt F) := Function.update (W8 m c) main_v61 (o9 m c)
/-- What region 4 leaves in `main_v62`: the program's result. -/
def o10 (c : Dev nD) : Buf (Elt F) ((c : Thread nD τ).loc main_v62) := (dat4 (fun c b => W9 m c b) c).arrAt 1 cfg4.N
/-- After region 4: the end of the program. -/
def W10 (c : Dev nD) : Valuation τ sig (Elt F) := Function.update (W9 m c) main_v62 (o10 m c)

/-! ## What the regions leave, by array -/

/-- The five arrays the regions write, each at what its region leaves; any other reference at its launch contents
    (never read there). -/
def outs : Outs (F := F) := fun _ r c =>
  if h : r = main_v30 then h ▸ o4 m c
  else if h : r = main_v45 then h ▸ o6 m c
  else if h : r = main_v46 then h ▸ o7 m c
  else if h : r = main_v61 then h ▸ o9 m c
  else if h : r = main_v62 then h ▸ o10 m c
  else m ((c : Thread nD τ).loc r)

theorem outs_v30 (J : ℕ) (c : Dev nD) : outs m J main_v30 c = o4 m c := by
  unfold outs; exact dif_pos rfl
theorem outs_v45 (J : ℕ) (c : Dev nD) : outs m J main_v45 c = o6 m c := by
  unfold outs; exact (dif_neg (by decide)).trans (dif_pos rfl)
theorem outs_v46 (J : ℕ) (c : Dev nD) : outs m J main_v46 c = o7 m c := by
  unfold outs; exact (dif_neg (by decide)).trans ((dif_neg (by decide)).trans (dif_pos rfl))
theorem outs_v61 (J : ℕ) (c : Dev nD) : outs m J main_v61 c = o9 m c := by
  unfold outs; exact (dif_neg (by decide)).trans ((dif_neg (by decide)).trans ((dif_neg (by decide)).trans (dif_pos rfl)))
theorem outs_v62 (J : ℕ) (c : Dev nD) : outs m J main_v62 c = o10 m c := by
  unfold outs; exact (dif_neg (by decide)).trans ((dif_neg (by decide)).trans ((dif_neg (by decide)).trans ((dif_neg (by decide)).trans (dif_pos rfl))))

/-! ## The conditional frame's boundaries are these -/

theorem V4_eq (c : Dev nD) : V4 m (outs m) c = W4 m c := by
  show Function.update (V3 m c) main_v30 (outs m 4 main_v30 c) = _
  rw [outs_v30]; rfl
theorem V5_eq (c : Dev nD) : V5 m (outs m) c = W5 m c := by
  show StableHlo.after hostOps1 (V4 m (outs m) c) = _
  rw [V4_eq]; rfl
theorem V6_eq (c : Dev nD) : V6 m (outs m) c = W6 m c := by
  show Function.update (V5 m (outs m) c) main_v45 (outs m 6 main_v45 c) = _
  rw [V5_eq, outs_v45]; rfl
theorem V7_eq (c : Dev nD) : V7 m (outs m) c = W7 m c := by
  show Function.update (V6 m (outs m) c) main_v46 (outs m 7 main_v46 c) = _
  rw [V6_eq, outs_v46]; rfl
theorem V8_eq (c : Dev nD) : V8 m (outs m) c = W8 m c := by
  show StableHlo.after hostOps3 (V7 m (outs m) c) = _
  rw [V7_eq]; rfl
theorem V9_eq (c : Dev nD) : V9 m (outs m) c = W9 m c := by
  show Function.update (V8 m (outs m) c) main_v61 (outs m 9 main_v61 c) = _
  rw [V8_eq, outs_v61]; rfl
theorem V10_eq (c : Dev nD) : V10 m (outs m) c = W10 m c := by
  show Function.update (V9 m (outs m) c) main_v62 (outs m 10 main_v62 c) = _
  rw [V9_eq, outs_v62]; rfl

/-! ## Reading the boundaries: what each step leaves unchanged, and what each region writes -/

theorem W4_of (c : Dev nD) (r : Ref sig .tc) (h : r ∉ ([main_v30] : List (Ref sig .tc))) : W4 m c r = V3 m c r := by
  rw [← V4_eq]; exact V4_of m (outs m) c r h
theorem W5_of (c : Dev nD) (r : Ref sig .tc) (h : r ∉ hostOps1_W) : W5 m c r = W4 m c r := by
  rw [← V5_eq, ← V4_eq]; exact V5_of m (outs m) c r h
theorem W6_of (c : Dev nD) (r : Ref sig .tc) (h : r ∉ ([main_v45] : List (Ref sig .tc))) : W6 m c r = W5 m c r := by
  rw [← V6_eq, ← V5_eq]; exact V6_of m (outs m) c r h
theorem W7_of (c : Dev nD) (r : Ref sig .tc) (h : r ∉ ([main_v46] : List (Ref sig .tc))) : W7 m c r = W6 m c r := by
  rw [← V7_eq, ← V6_eq]; exact V7_of m (outs m) c r h
theorem W8_of (c : Dev nD) (r : Ref sig .tc) (h : r ∉ hostOps3_W) : W8 m c r = W7 m c r := by
  rw [← V8_eq, ← V7_eq]; exact V8_of m (outs m) c r h
theorem W9_of (c : Dev nD) (r : Ref sig .tc) (h : r ∉ ([main_v61] : List (Ref sig .tc))) : W9 m c r = W8 m c r := by
  rw [← V9_eq, ← V8_eq]; exact V9_of m (outs m) c r h
theorem W10_of (c : Dev nD) (r : Ref sig .tc) (h : r ∉ ([main_v62] : List (Ref sig .tc))) : W10 m c r = W9 m c r := by
  rw [← V10_eq, ← V9_eq]; exact V10_of m (outs m) c r h

theorem W4_self (c : Dev nD) : W4 m c main_v30 = o4 m c := by
  unfold W4; exact Function.update_self _ _ _
theorem W6_self (c : Dev nD) : W6 m c main_v45 = o6 m c := by
  unfold W6; exact Function.update_self _ _ _
theorem W7_self (c : Dev nD) : W7 m c main_v46 = o7 m c := by
  unfold W7; exact Function.update_self _ _ _
theorem W9_self (c : Dev nD) : W9 m c main_v61 = o9 m c := by
  unfold W9; exact Function.update_self _ _ _
theorem W10_self (c : Dev nD) : W10 m c main_v62 = o10 m c := by
  unfold W10; exact Function.update_self _ _ _

/-- The arguments reach the end as launched. -/
theorem W10_arg (c : Dev nD) : W10 m c main_arg0 = m ((c : Thread nD τ).loc main_arg0) ∧ W10 m c main_arg1 = m ((c : Thread nD τ).loc main_arg1)
    ∧ W10 m c main_arg2 = m ((c : Thread nD τ).loc main_arg2) ∧ W10 m c main_arg3 = m ((c : Thread nD τ).loc main_arg3)
    ∧ W10 m c main_arg4 = m ((c : Thread nD τ).loc main_arg4) ∧ W10 m c main_arg5 = m ((c : Thread nD τ).loc main_arg5) := by
  rw [← V10_eq]
  exact ⟨V10_main_arg0 m (outs m) c, V10_main_arg1 m (outs m) c, V10_main_arg2 m (outs m) c, V10_main_arg3 m (outs m) c,
    V10_main_arg4 m (outs m) c, V10_main_arg5 m (outs m) c⟩

/-! ## The proof data family -/

/-- Every region's proof data, each at its entry contents. -/
def pdats : (p : Fin 5) → (c : Dev nD) → Dat τ (Elt F) Unit ℕ (UR sig nD τ) ℕ (cfgs p) c
  | ⟨0, _⟩ => fun c => dat0 (fun c b => V3 m c b) c
  | ⟨1, _⟩ => fun c => dat1 (fun c b => W5 m c b) c
  | ⟨2, _⟩ => fun c => dat2 (fun c b => W6 m c b) c
  | ⟨3, _⟩ => fun c => dat3 (fun c b => W8 m c b) c
  | ⟨4, _⟩ => fun c => dat4 (fun c b => W9 m c b) c

end Cert.KernelIdeal.Hand

end
-- ==== Proof.KI.Thread.lean ====
/-
  The thread state between two items of the program: beside the core's unscoped buffers at the boundary's
  contents ride the generator register, at some state, and the core's dues, at nothing — no core owes another
  anything in this program, so no level is assigned.
-/
import proofs.«139656_j25864293057120_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No core owes another anything: no level is assigned. -/
abbrev Lv0 : GSem nD τ sig → Finset Unit := fun _ => ∅
abbrev lv0 : GSem nD τ sig → Unit → ℕ := fun _ _ => 0
/-- What rides beside the buffers through every segment: the generator register at some state and the core's dues, at nothing. -/
abbrev Rst (c : Dev nD) : sProp 𝕄 := iprop((∃ r, prngReg c r) ∗ ∃ W, owes (c : Thread nD τ) (0 : CellTallies nD τ sig Unit) W)

end Cert.KernelIdeal.Hand

end
-- ==== Proof.KI.Seg0.lean ====
/-
  Region 0 as a segment of the program.

  The region is entered with every unscoped buffer of the core at the contents after the first three host
  stretches, and left with them at the same contents except `main_v30`, which holds what the region's write-backs
  leave. Its three arrays are taken out of the unscoped buffers at entry and put back at exit; the generator
  register goes into the region's invariant and comes back; nothing is owed; the kernel has no semaphore of its own.
-/
import proofs.«139656_j25864293057120_1_alg».proof.Proof.KI.Bound
import proofs.«139656_j25864293057120_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The contents before and after region 0, read at the TensorCore's references. -/
abbrev Bin0 (c : Dev nD) (b : Ref sig .tc) : Buf (Elt F) ((c : Thread nD τ).loc b) := V3 m c b
abbrev Bout0 (c : Dev nD) (b : Ref sig .tc) : Buf (Elt F) ((c : Thread nD τ).loc b) := W4 m c b

/-- At region 0's exit each of its arrays holds what the region leaves: the inputs as entered, the output its write-backs. -/
theorem hF0 (c : Dev nD) (w : Fin cfg0.W) : (dat0 (Bin0 m) c).arrAt w cfg0.N = Bout0 m c (Pipeline.arrRef spec0 w) := by
  match w with
  | ⟨0, _⟩ =>
    exact ((dat0 (Bin0 m) c).arrAt_in 0 rfl _).trans ((A_eq0 (Bin0 m) c 0).trans (W4_of m c main_arg0 (by decide)).symm)
  | ⟨1, _⟩ =>
    exact ((dat0 (Bin0 m) c).arrAt_in 1 rfl _).trans ((A_eq0 (Bin0 m) c 1).trans (W4_of m c main_arg2 (by decide)).symm)
  | ⟨2, _⟩ =>
    exact (W4_self m c).symm
/-- Every other buffer holds what it held at entry. -/
theorem hrest0 (c : Dev nD) : ∀ b, b ∉ Finset.univ.image (Pipeline.arrRef spec0) → Bout0 m c b = Bin0 m c b := fun b hb =>
  W4_of m c b (fun h => hb (Finset.mem_image.mpr ⟨2, Finset.mem_univ _, (List.mem_singleton.mp h).symm⟩))

set_option backward.isDefEq.respectTransparency.types false in
/-- REGION 0 over the thread state. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (Bin0 m) c).loose
  hwaits := Pipeline.hwaits_of_owed_zero _ _ _ _ Lv0 lv0 0 fun _ _ => rfl
  pre c := iprop(StableHlo.held (c : Thread nD τ) (Pipeline.ucRefs τ sig) (V3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (Bin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Bin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Bin0 m c) (Bout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of the program.

  The region is entered with every unscoped buffer of the core at the contents after the first aggregation's host
  stretch, and left with them at the same contents except `main_v45`, which holds what the region's write-backs
  leave. Its three arrays are taken out of the unscoped buffers at entry and put back at exit; the generator
  register goes into the region's invariant and comes back; nothing is owed; the kernel has no semaphore of its own.
-/
import proofs.«139656_j25864293057120_1_alg».proof.Proof.KI.Bound
import proofs.«139656_j25864293057120_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The contents before and after region 1, read at the TensorCore's references. -/
abbrev Bin1 (c : Dev nD) (b : Ref sig .tc) : Buf (Elt F) ((c : Thread nD τ).loc b) := W5 m c b
abbrev Bout1 (c : Dev nD) (b : Ref sig .tc) : Buf (Elt F) ((c : Thread nD τ).loc b) := W6 m c b

/-- At region 1's exit each of its arrays holds what the region leaves: the inputs as entered, the output its write-backs. -/
theorem hF1 (c : Dev nD) (w : Fin cfg1.W) : (dat1 (Bin1 m) c).arrAt w cfg1.N = Bout1 m c (Pipeline.arrRef spec1 w) := by
  match w with
  | ⟨0, _⟩ =>
    exact ((dat1 (Bin1 m) c).arrAt_in 0 rfl _).trans ((A_eq1 (Bin1 m) c 0).trans (W6_of m c main_v43 (by decide)).symm)
  | ⟨1, _⟩ =>
    exact ((dat1 (Bin1 m) c).arrAt_in 1 rfl _).trans ((A_eq1 (Bin1 m) c 1).trans (W6_of m c main_v44 (by decide)).symm)
  | ⟨2, _⟩ =>
    exact (W6_self m c).symm
/-- Every other buffer holds what it held at entry. -/
theorem hrest1 (c : Dev nD) : ∀ b, b ∉ Finset.univ.image (Pipeline.arrRef spec1) → Bout1 m c b = Bin1 m c b := fun b hb =>
  W6_of m c b (fun h => hb (Finset.mem_image.mpr ⟨2, Finset.mem_univ _, (List.mem_singleton.mp h).symm⟩))

set_option backward.isDefEq.respectTransparency.types false in
/-- REGION 1 over the thread state. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (Bin1 m) c).loose
  hwaits := Pipeline.hwaits_of_owed_zero _ _ _ _ Lv0 lv0 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (Bin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Bin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Bin1 m c) (Bout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of the program.

  The region is entered with every unscoped buffer of the core at the contents region 1 left, and left with them
  at the same contents except `main_v46`, which holds what the region's write-backs leave. Its three arrays are
  taken out of the unscoped buffers at entry and put back at exit; the generator register goes into the region's
  invariant and comes back; nothing is owed; the kernel has no semaphore of its own.
-/
import proofs.«139656_j25864293057120_1_alg».proof.Proof.KI.Bound
import proofs.«139656_j25864293057120_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The contents before and after region 2, read at the TensorCore's references. -/
abbrev Bin2 (c : Dev nD) (b : Ref sig .tc) : Buf (Elt F) ((c : Thread nD τ).loc b) := W6 m c b
abbrev Bout2 (c : Dev nD) (b : Ref sig .tc) : Buf (Elt F) ((c : Thread nD τ).loc b) := W7 m c b

/-- At region 2's exit each of its arrays holds what the region leaves: the inputs as entered, the output its write-backs. -/
theorem hF2 (c : Dev nD) (w : Fin cfg2.W) : (dat2 (Bin2 m) c).arrAt w cfg2.N = Bout2 m c (Pipeline.arrRef spec2 w) := by
  match w with
  | ⟨0, _⟩ =>
    exact ((dat2 (Bin2 m) c).arrAt_in 0 rfl _).trans ((A_eq2 (Bin2 m) c 0).trans (W7_of m c main_v45 (by decide)).symm)
  | ⟨1, _⟩ =>
    exact ((dat2 (Bin2 m) c).arrAt_in 1 rfl _).trans ((A_eq2 (Bin2 m) c 1).trans (W7_of m c main_arg4 (by decide)).symm)
  | ⟨2, _⟩ =>
    exact (W7_self m c).symm
/-- Every other buffer holds what it held at entry. -/
theorem hrest2 (c : Dev nD) : ∀ b, b ∉ Finset.univ.image (Pipeline.arrRef spec2) → Bout2 m c b = Bin2 m c b := fun b hb =>
  W7_of m c b (fun h => hb (Finset.mem_image.mpr ⟨2, Finset.mem_univ _, (List.mem_singleton.mp h).symm⟩))

set_option backward.isDefEq.respectTransparency.types false in
/-- REGION 2 over the thread state. -/
def reg2 : Pipeline.RegionSeg (pcfgs (F := F)) adm (pdats m) () defs₀ Variants.none Lv0 lv0 2 where
  win := launch2.win.to₀
  block_pos := launch2.block_pos
  stage_whole := launch2.stage_whole
  K := PEmpty
  osem k := k.elim
  ho := Pipeline.OwnSemFacts.none _
  hbody c := (body_obligation2 (Bin2 m) c).loose
  hwaits := Pipeline.hwaits_of_owed_zero _ _ _ _ Lv0 lv0 2 fun _ _ => rfl
  pre c := iprop(StableHlo.held (c : Thread nD τ) (Pipeline.ucRefs τ sig) (W6 m c) ∗ Rst c)
  post c := iprop(StableHlo.held (c : Thread nD τ) (Pipeline.ucRefs τ sig) (W7 m c) ∗ Rst c)
  X c := iprop(∃ r, prngReg c r)
  Y c := iprop(∃ r, prngReg c r)
  Z c := Pipeline.unscopedRest (Ix := Unit) (Name := ℕ) (U := UR sig nD τ) (Lvl := ℕ) spec2 c (Bin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Bin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Bin2 m c) (Bout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of the program.

  The region is entered with every unscoped buffer of the core at the contents after the second aggregation's host
  stretch, and left with them at the same contents except `main_v61`, which holds what the region's write-backs
  leave. Its three arrays are taken out of the unscoped buffers at entry and put back at exit; the generator
  register goes into the region's invariant and comes back; nothing is owed; the kernel has no semaphore of its own.
-/
import proofs.«139656_j25864293057120_1_alg».proof.Proof.KI.Bound
import proofs.«139656_j25864293057120_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The contents before and after region 3, read at the TensorCore's references. -/
abbrev Bin3 (c : Dev nD) (b : Ref sig .tc) : Buf (Elt F) ((c : Thread nD τ).loc b) := W8 m c b
abbrev Bout3 (c : Dev nD) (b : Ref sig .tc) : Buf (Elt F) ((c : Thread nD τ).loc b) := W9 m c b

/-- At region 3's exit each of its arrays holds what the region leaves: the inputs as entered, the output its write-backs. -/
theorem hF3 (c : Dev nD) (w : Fin cfg3.W) : (dat3 (Bin3 m) c).arrAt w cfg3.N = Bout3 m c (Pipeline.arrRef spec3 w) := by
  match w with
  | ⟨0, _⟩ =>
    exact ((dat3 (Bin3 m) c).arrAt_in 0 rfl _).trans ((A_eq3 (Bin3 m) c 0).trans (W9_of m c main_v59 (by decide)).symm)
  | ⟨1, _⟩ =>
    exact ((dat3 (Bin3 m) c).arrAt_in 1 rfl _).trans ((A_eq3 (Bin3 m) c 1).trans (W9_of m c main_v60 (by decide)).symm)
  | ⟨2, _⟩ =>
    exact (W9_self m c).symm
/-- Every other buffer holds what it held at entry. -/
theorem hrest3 (c : Dev nD) : ∀ b, b ∉ Finset.univ.image (Pipeline.arrRef spec3) → Bout3 m c b = Bin3 m c b := fun b hb =>
  W9_of m c b (fun h => hb (Finset.mem_image.mpr ⟨2, Finset.mem_univ _, (List.mem_singleton.mp h).symm⟩))

set_option backward.isDefEq.respectTransparency.types false in
/-- REGION 3 over the thread state. -/
def reg3 : Pipeline.RegionSeg (pcfgs (F := F)) adm (pdats m) () defs₀ Variants.none Lv0 lv0 3 where
  win := launch3.win.to₀
  block_pos := launch3.block_pos
  stage_whole := launch3.stage_whole
  K := PEmpty
  osem k := k.elim
  ho := Pipeline.OwnSemFacts.none _
  hbody c := (body_obligation3 (Bin3 m) c).loose
  hwaits := Pipeline.hwaits_of_owed_zero _ _ _ _ Lv0 lv0 3 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec3 c (Bin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Bin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Bin3 m c) (Bout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of the program.

  The region is entered with every unscoped buffer of the core at the contents region 3 left, and left with them
  at the same contents except `main_v62`, the program's result, which holds what the region's one write-back leaves.
  Its two arrays are taken out of the unscoped buffers at entry and put back at exit. The kernel keeps a scratch
  row between grid points: the region's invariant starts as what the launch hands it (every scoped buffer no
  window stages, the generator register), carries the scratch row from point to point, and gives the same back
  at the end, the row's contents forgotten. Nothing is owed; the kernel has no semaphore of its own.
-/
import proofs.«139656_j25864293057120_1_alg».proof.Proof.KI.Bound
import proofs.«139656_j25864293057120_1_alg».proof.Proof.KI.Thread

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The contents before and after region 4, read at the TensorCore's references. -/
abbrev Bin4 (c : Dev nD) (b : Ref sig .tc) : Buf (Elt F) ((c : Thread nD τ).loc b) := W9 m c b
abbrev Bout4 (c : Dev nD) (b : Ref sig .tc) : Buf (Elt F) ((c : Thread nD τ).loc b) := W10 m c b

/-- At region 4's exit each of its arrays holds what the region leaves: the input as entered, the output its write-back. -/
theorem hF4 (c : Dev nD) (w : Fin cfg4.W) : (dat4 (Bin4 m) c).arrAt w cfg4.N = Bout4 m c (Pipeline.arrRef spec4 w) := by
  match w with
  | ⟨0, _⟩ =>
    exact ((dat4 (Bin4 m) c).arrAt_in 0 rfl _).trans ((A_eq4 (Bin4 m) c 0).trans (W10_of m c main_v61 (by decide)).symm)
  | ⟨1, _⟩ =>
    exact (W10_self m c).symm
/-- Every other buffer holds what it held at entry. -/
theorem hrest4 (c : Dev nD) : ∀ b, b ∉ Finset.univ.image (Pipeline.arrRef spec4) → Bout4 m c b = Bin4 m c b := fun b hb =>
  W10_of m c b (fun h => hb (Finset.mem_image.mpr ⟨1, Finset.mem_univ _, (List.mem_singleton.mp h).symm⟩))

set_option backward.isDefEq.respectTransparency.types false in
/-- REGION 4 over the thread state. -/
def reg4 : Pipeline.RegionSeg (pcfgs (F := F)) adm (pdats m) () defs₀ Variants.none Lv0 lv0 4 where
  win := launch4.win.to₀
  block_pos := launch4.block_pos
  stage_whole := launch4.stage_whole
  K := PEmpty
  osem k := k.elim
  ho := Pipeline.OwnSemFacts.none _
  hbody c := (body_obligation4 (Bin4 m) c).loose
  hwaits := Pipeline.hwaits_of_owed_zero _ _ _ _ Lv0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (Bin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Bin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 4).pre c (fun _ => fullShare) (adm (F := F) 4).1
        ∗ Pipeline.scopedRest (Pipeline.pin (pcfgs (F := F)) adm 4).spec c) : sProp 𝕄) ⊢ Pipeline.ΦA spec4 c := by
      unfold Pipeline.ΦA
      iintro ⟨Hp, -, Hr⟩
      isplitl [Hr]; · iexact Hr
      iexact Hp
    exact h1.trans (hin4 (Bin4 m) c)
  hout c := by
    rw [Pipeline.ownSems0_none]
    have h2 : (Pipeline.ΦA spec4 c : sProp 𝕄) ⊢ iprop((∃ r, prngReg c r) ∗ BI.emp
        ∗ Pipeline.scopedRest (Pipeline.pin (pcfgs (F := F)) adm 4).spec c) := by
      unfold Pipeline.ΦA
      iintro ⟨Hr, Hp⟩
      isplitl [Hp]; · iexact Hp
      isplitr; · iempintro
      iexact Hr
    exact (hout4 (Bin4 m) c).trans h2
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Bin4 m c) (Bout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program's run, from the five regions' records.

  Each region is a segment entered from the thread state the item before it left; the host stretches between
  them are the program's own operations. The launch deals every core its generator register and nothing owed,
  which is the rest that rides beside the buffers; the last segment ends owing nothing. From that: every
  execution of the program terminates, faults nowhere, and ends with every unscoped buffer at the last boundary's
  contents — in particular each argument as launched: the program's frame.
-/
import proofs.«139656_j25864293057120_1_alg».proof.Proof.KI.Seg0
import proofs.«139656_j25864293057120_1_alg».proof.Proof.KI.Seg1
import proofs.«139656_j25864293057120_1_alg».proof.Proof.KI.Seg2
import proofs.«139656_j25864293057120_1_alg».proof.Proof.KI.Seg3
import proofs.«139656_j25864293057120_1_alg».proof.Proof.KI.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch deals a core besides its buffers makes the rest that rides along: the generator register at its
    launch state, the core owing nothing. -/
theorem launch_rest (c : Dev nD) :
    (iprop(unscopedSems0 c ∗ owes (c : Thread nD τ) ((0 : Dev nD → CellTallies nD τ sig Unit) c) ∅ ∗ Pipeline.launchCred (0 : Dev nD → CellTallies nD τ sig Unit) c
        ∗ prngReg c (ρ c) ∗ emp) : sProp 𝕄) ⊢ Rst c := by
  iintro ⟨-, HO, -, Hp, -⟩
  isplitl [Hp]; · iexists _; iexact Hp
  iexists ∅; iexact HO

set_option backward.isDefEq.respectTransparency.types false in
/-- THE FRAME of the program: every execution terminates, nothing faults, the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none Lv0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      iintro ⟨H, -⟩
      imodintro
      have hmono : (_ : sProp 𝕄) ⊢ (bigSep Finset.univ (fun c : Dev nD => (Rst c : sProp 𝕄))) :=
        bigSep_mono fun c _ => launch_rest ρ c
      ihave H' := hmono $$ H
      iexact H')
    (hE5 := fun c => by iintro ⟨-, H⟩; iexact H)
    (R0 := reg0 m) (hpre0 := fun c => .rfl)
    (hpost0 := fun c => by rw [V4_eq m c]; exact .rfl)
    (R1 := reg1 m) (hpre1 := fun c => by rw [V5_eq m c]; exact .rfl)
    (hpost1 := fun c => by rw [V6_eq m c]; exact .rfl)
    (R2 := reg2 m) (hpre2 := fun c => by rw [V6_eq m c]; exact .rfl)
    (hpost2 := fun c => by rw [V7_eq m c]; exact .rfl)
    (R3 := reg3 m) (hpre3 := fun c => by rw [V8_eq m c]; exact .rfl)
    (hpost3 := fun c => by rw [V9_eq m c]; exact .rfl)
    (R4 := reg4 m) (hpre4 := fun c => by rw [V9_eq m c]; exact .rfl)
    (hpost4 := fun c => by rw [V10_eq m c]; exact .rfl)

end Cert.KernelIdeal.Hand

end
-- ==== Proof.KI.RunValue.lean ====
/-
  The idealized kernel program's run with its result named.

  The same launch as the frame's, with the last thread state read back at every unscoped buffer: the result
  array ends at what region 4 left there, the six arguments as launched.
-/
import proofs.«139656_j25864293057120_1_alg».proof.Proof.KI.Run
import proofs.«139656_j25864293057120_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every unscoped buffer read back at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V10 m (outs m) c b) :=
  Cert.KernelIdeal.GenP.run_cond m emb₁ () Variants.none Lv0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      iintro ⟨H, -⟩
      imodintro
      have hmono : (_ : sProp 𝕄) ⊢ (bigSep Finset.univ (fun c : Dev nD => (Rst c : sProp 𝕄))) :=
        bigSep_mono fun c _ => launch_rest ρ c
      ihave H' := hmono $$ H
      iexact H')
    (hE5 := fun c => by iintro ⟨-, H⟩; iexact H)
    (R0 := reg0 m) (hpre0 := fun c => .rfl)
    (hpost0 := fun c => by rw [V4_eq m c]; exact .rfl)
    (R1 := reg1 m) (hpre1 := fun c => by rw [V5_eq m c]; exact .rfl)
    (hpost1 := fun c => by rw [V6_eq m c]; exact .rfl)
    (R2 := reg2 m) (hpre2 := fun c => by rw [V6_eq m c]; exact .rfl)
    (hpost2 := fun c => by rw [V7_eq m c]; exact .rfl)
    (R3 := reg3 m) (hpre3 := fun c => by rw [V8_eq m c]; exact .rfl)
    (hpost3 := fun c => by rw [V9_eq m c]; exact .rfl)
    (R4 := reg4 m) (hpre4 := fun c => by rw [V9_eq m c]; exact .rfl)
    (hpost4 := fun c => by rw [V10_eq m c]; exact .rfl)

/-- The run with the result named: the result array ends at what region 4 left, the six arguments as launched. -/
theorem run_value : θ_run defs (onTc (τ := τ) (main (F := F))) ⟨m, fun _ => 0, ρ⟩ (fun r => ∀ c : Dev nD,
      r.2.mem ((c.tc : Thread nD τ).loc main_v62) = W10 m c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have hb : ∀ b : Ref sig .tc, ¬ (Proc.devRef .tc b : DevRef τ sig).isScoped →
        r.2.mem ((c.tc : Thread nD τ).loc b) = W10 m c b := fun b hs =>
      (h c (Proc.devRef .tc b) (Finset.mem_filter.mpr ⟨StableHlo.devRef_mem_tcRefs b, hs⟩)).trans (congrFun (V10_eq m c) _)
    obtain ⟨h0, h1, h2, h3, h4, h5⟩ := W10_arg m c
    exact ⟨hb main_v62 (by decide), (hb main_arg0 (by decide)).trans h0, (hb main_arg1 (by decide)).trans h1, (hb main_arg2 (by decide)).trans h2,
      (hb main_arg3 (by decide)).trans h3, (hb main_arg4 (by decide)).trans h4, (hb main_arg5 (by decide)).trans h5⟩)
    (run_all m ρ)

end Cert.KernelIdeal.Hand

end
-- ==== Proof.Val.RefRun.lean ====
/-
  The reference program's run: every execution of the jnp reference ends with its one result at the
  composed term of the argument arrays, the arguments unchanged. The frame of the reference is that run
  with the result dropped.
-/
import proofs.«139656_j25864293057120_1_alg».proof.Defs
import proofs.«139656_j25864293057120_1_alg».proof.Proof.Val.RunP
import proofs.«139656_j25864293057120_1_alg».proof.Proof.Gen.Pre_finite_inputs

noncomputable section

namespace Cert.Hand.RefRun

open Idealize.ShloMosaic Idealize.ShloMosaic.TcCoe Idealize.SL.Sem

/-- The reference terminates, faults nowhere and leaves its arguments unchanged: its run, the result's
    value forgotten. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Hand.RefRun

end
-- ==== Proof.Val.Spec.lean ====
/-
  The two-layer graph convolution with mean pooling, as one function of the six argument arrays, written
  over the reference program's own host operations.

  Every edge (s, d) of the graph — the 2400000 given edges followed by one self loop per node — carries the weight
  `dinv[s] · dinv[d]`, where `dinv = deg^(-1/2)` (zero where the degree is not positive) and `deg[d]` counts the
  edges into `d`; negative indices are wrapped once by the node count. A layer multiplies the node features by
  its weight matrix, gathers the products along the edges' sources, scales each by the edge's weight, adds them
  up at the edges' destinations, and adds the bias row; the first layer is cut below at zero. The result is the
  mean of the second layer's rows. `res_eq` says the reference program's result is this function of its arguments.
-/
import proofs.«139656_j25864293057120_1_alg».proof.ReferenceIdeal
import proofs.«139656_j25864293057120_1_alg».proof.Proof.Val.RunP

noncomputable section

namespace Cert.Hand.Spec

open Cert.ReferenceIdeal Cert.ReferenceIdeal.Gen Idealize.ShloMosaic Idealize.ShloMosaic.TcCoe Idealize.SL.Sem Idealize.ShloMosaic.StableHlo

variable {F : FTy → Type} [FloatOps F]

/-- The edges' sources: the first row of the edge array, then the nodes themselves (the self loops). -/
def srcIdx (e : (⟨S2x2400000, .i32⟩ : BufTy).Contents (Elt F)) : (⟨S2500000, .i32⟩ : BufTy).Contents (Elt F) :=
  concatenate S2500000 0 [⟨S2400000, (shapeCast _ (extractStridedSlice S1x2400000 ![0, 0] e slices_S2x2400000_S1x2400000_0_0) shapeCasts_S1x2400000_S2400000)⟩, ⟨S100000, (iotaInDim S100000 32 0)⟩] concatenates_S2400000_S100000_S2500000_d0

/-- The edges' destinations: the second row of the edge array, then the nodes themselves. -/
def dstIdx (e : (⟨S2x2400000, .i32⟩ : BufTy).Contents (Elt F)) : (⟨S2500000, .i32⟩ : BufTy).Contents (Elt F) :=
  concatenate S2500000 0 [⟨S2400000, (shapeCast _ (extractStridedSlice S1x2400000 ![1, 0] e slices_S2x2400000_S1x2400000_1_0) shapeCasts_S1x2400000_S2400000)⟩, ⟨S100000, (iotaInDim S100000 32 0)⟩] concatenates_S2400000_S100000_S2500000_d0

/-- A negative index counts from the end: the node count is added to it once. -/
def wrapIdx (x : (⟨S2500000, .i32⟩ : BufTy).Contents (Elt F)) : (⟨S2500000, .i32⟩ : BufTy).Contents (Elt F) :=
  select (cmpi .slt x (broadcastInDim S2500000 ![] bcast_S_S2500000 (constantI S_ 32 0#32))) (addi x (broadcastInDim S2500000 ![] bcast_S_S2500000 (constantI S_ 32 100000#32))) x

/-- The degree of each node: one for every edge that ends there. -/
def degree (e : (⟨S2x2400000, .i32⟩ : BufTy).Contents (Elt F)) : (⟨S100000, .f32⟩ : BufTy).Contents (Elt F) :=
  Host.scatterAdd scatter_S100000_S2500000x1_S2500000_n_0_0_1 (broadcastInDim S100000 ![] bcast_S_S100000 (constant S_ .f32 0x00000000#32)) (broadcastInDim S2500000x1 ![0] bcast_S2500000_S2500000x1_0 (dstIdx e)) (broadcastInDim S2500000 ![] bcast_S_S2500000 (constant S_ .f32 0x3F800000#32))

/-- The inverse square root of the degree, zero where the degree is not positive. -/
def dinv (e : (⟨S2x2400000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- The weight of each edge: the product of the inverse root degrees at its two ends. -/
def edgeNorm (e : (⟨S2x2400000, .i32⟩ : BufTy).Contents (Elt F)) : (⟨S2500000, .f32⟩ : BufTy).Contents (Elt F) :=
  mulf (Host.gather gather_S100000_S2500000x1_S2500000_n_0_n_n_0_1_1 (dinv e) (broadcastInDim S2500000x1 ![0] bcast_S2500000_S2500000x1_0 (wrapIdx (srcIdx e)))) (Host.gather gather_S100000_S2500000x1_S2500000_n_0_n_n_0_1_1 (dinv e) (broadcastInDim S2500000x1 ![0] bcast_S2500000_S2500000x1_0 (wrapIdx (dstIdx e))))

/-- Sixteen-column node features sent along the edges: gathered at the sources, weighted, added up at the destinations. -/
def agg16 (h : (⟨S100000x16, .f32⟩ : BufTy).Contents (Elt F)) (e : (⟨S2x2400000, .i32⟩ : BufTy).Contents (Elt F)) : (⟨S100000x16, .f32⟩ : BufTy).Contents (Elt F) :=
  Host.scatterAdd scatter_S100000x16_S2500000x1_S2500000x16_1_0_0_1 (broadcastInDim S100000x16 ![] bcast_S_S100000x16 (constant S_ .f32 0x00000000#32)) (broadcastInDim S2500000x1 ![0] bcast_S2500000_S2500000x1_0 (dstIdx e)) (mulf (Host.gather gather_S100000x16_S2500000x1_S2500000x16_1_0_n_n_0_1_116 h (broadcastInDim S2500000x1 ![0] bcast_S2500000_S2500000x1_0 (wrapIdx (srcIdx e)))) (broadcastInDim S2500000x16 ![0, 1] bcast_S2500000x1_S2500000x16_0_1 (broadcastInDim S2500000x1 ![0] bcast_S2500000_S2500000x1_0 (edgeNorm e))))

/-- The same for thirty-two columns. -/
def agg32 (h : (⟨S100000x32, .f32⟩ : BufTy).Contents (Elt F)) (e : (⟨S2x2400000, .i32⟩ : BufTy).Contents (Elt F)) : (⟨S100000x32, .f32⟩ : BufTy).Contents (Elt F) :=
  Host.scatterAdd scatter_S100000x32_S2500000x1_S2500000x32_1_0_0_1 (broadcastInDim S100000x32 ![] bcast_S_S100000x32 (constant S_ .f32 0x00000000#32)) (broadcastInDim S2500000x1 ![0] bcast_S2500000_S2500000x1_0 (dstIdx e)) (mulf (Host.gather gather_S100000x32_S2500000x1_S2500000x32_1_0_n_n_0_1_132 h (broadcastInDim S2500000x1 ![0] bcast_S2500000_S2500000x1_0 (wrapIdx (srcIdx e)))) (broadcastInDim S2500000x32 ![0, 1] bcast_S2500000x1_S2500000x32_0_1 (broadcastInDim S2500000x1 ![0] bcast_S2500000_S2500000x1_0 (edgeNorm e))))

/-- A bias row added to every row, the sum cut below at zero. -/
def rectBias16 (a : (⟨S100000x16, .f32⟩ : BufTy).Contents (Elt F)) (b : (⟨S1x16, .f32⟩ : BufTy).Contents (Elt F)) : (⟨S100000x16, .f32⟩ : BufTy).Contents (Elt F) :=
  maximumf (addf a (broadcastInDim S100000x16 ![0, 1] bcast_S1x16_S100000x16_0_1 b)) (broadcastInDim S100000x16 ![] bcast_S_S100000x16 (constant S_ .f32 0x00000000#32))

/-- A bias row added to every row. -/
def bias32 (a : (⟨S100000x32, .f32⟩ : BufTy).Contents (Elt F)) (b : (⟨S1x32, .f32⟩ : BufTy).Contents (Elt F)) : (⟨S100000x32, .f32⟩ : BufTy).Contents (Elt F) :=
  addf a (broadcastInDim S100000x32 ![0, 1] bcast_S1x32_S100000x32_0_1 b)

/-- The mean of the rows: each column summed over all rows, divided by the number of rows. -/
def meanRows (y : (⟨S100000x32, .f32⟩ : BufTy).Contents (Elt F)) : (⟨S1x32, .f32⟩ : BufTy).Contents (Elt F) :=
  Host.divf (broadcastInDim S1x32 ![1] bcast_S32_S1x32_1 (Host.reduceAdd y (constant S_ .f32 0x00000000#32) reducesTo_S100000x32_S32_d0 h_S_)) (broadcastInDim S1x32 ![] bcast_S_S1x32 (constant S_ .f32 0x47C35000#32))

/-- The whole network. -/
def gcn (x : (⟨S100000x3, .f32⟩ : BufTy).Contents (Elt F)) (e : (⟨S2x2400000, .i32⟩ : BufTy).Contents (Elt F))
    (w1 : (⟨S3x16, .f32⟩ : BufTy).Contents (Elt F)) (b1 : (⟨S16, .f32⟩ : BufTy).Contents (Elt F))
    (w2 : (⟨S16x32, .f32⟩ : BufTy).Contents (Elt F)) (b2 : (⟨S32, .f32⟩ : BufTy).Contents (Elt F)) : (⟨S1x32, .f32⟩ : BufTy).Contents (Elt F) :=
  meanRows (bias32 (agg32 (Host.dotGeneral dot_S100000x16_S16x32_S100000x32_1_0_0_1_n_n none
      (rectBias16 (agg16 (Host.dotGeneral dot_S100000x3_S3x16_S100000x16_1_0_0_1_n_n none x w1) e) (broadcastInDim S1x16 ![1] bcast_S16_S1x16_1 b1)) w2) e)
    (broadcastInDim S1x32 ![1] bcast_S32_S1x32_1 b2))

set_option maxRecDepth 16384 in
/-- The reference program's result is the network applied to its six arguments. -/
theorem res_eq (m : (ℓ : Loc nD τ sig) → Buf (Elt F) ℓ) (c : Dev nD) :
    Cert.ReferenceIdeal.ValueP.res_main_v98 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v98 gcn meanRows bias32 rectBias16 agg32 agg16 edgeNorm dinv degree wrapIdx srcIdx dstIdx
  rfl

end Cert.Hand.Spec

end
-- ==== Proof.Val.MM.lean ====
/-
  The two dense products as whole arrays, over the extended reals.

  Region 0 writes, block of 2000 rows by block, the product of each row block of `x` with the whole of `W1`;
  the 50 blocks tile the 100000 rows, so the array the region leaves is the one matrix product
  `∑ k, x[i,k] · W1[k,j]` — what the reference's `dot_general` computes. The kernel rounds its operands to
  bf16 first, which is the identity on the extended reals, and accumulates into zero. Region 2 is the same with
  `h1` (100000 × 16) and `W2` (16 × 32).
-/
import proofs.«139656_j25864293057120_1_alg».proof.Proof.KI.Reg0
import proofs.«139656_j25864293057120_1_alg».proof.Proof.KI.Reg2
import proofs.«139656_j25864293057120_1_alg».proof.ReferenceIdeal
import proofs.«139656_j25864293057120_1_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Hand.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-buffer rectangle. -/
theorem zero_offsets_mm : (![0, 0] : Fin 2 → Nat) = fun _ => 0 := funext fun a => by fin_cases a <;> rfl

/-! ## The first product: 100000 × 3 by 3 × 16 -/

/-- The matrix product, entry by entry: row `p` of `X` against column `q` of `W`. -/
def mm0 (X : S100000x3.Idx → EReal) (W : S3x16.Idx → EReal) (p : Fin 100000) (q : Fin 16) : EReal :=
  ∑ k : Fin 3, X (ix2 p k) * W (ix2 k q)

/-- The product as one array. -/
abbrev G0 (X : S100000x3.Idx → EReal) (W : S3x16.Idx → EReal) : S100000x16.Idx → EReal :=
  fun i => mm0 X W ⟨(i 0).val, (i 0).isLt⟩ ⟨(i 1).val, (i 1).isLt⟩

/-! ### The block product's operand indices, axis by axis -/

theorem lhs_k0_0 (i : S2000x16.Idx) (q : dot_S2000x3_S3x16_S2000x16_1_0_0_1_n_n.contr.Idx) :
    (dot_S2000x3_S3x16_S2000x16_1_0_0_1_n_n.lhsIdx i q 0).val = (i 0).val := by
  unfold DotDims.lhsIdx
  rw [dif_neg (show ¬(0 : Fin S2000x3.rank) ∈ dot_S2000x3_S3x16_S2000x16_1_0_0_1_n_n.lhsBatch by decide), dif_pos (show (0 : Fin S2000x3.rank) ∈ dot_S2000x3_S3x16_S2000x16_1_0_0_1_n_n.lhsNonContracting by decide)]
  rfl
theorem lhs_k0_1 (i : S2000x16.Idx) (q : dot_S2000x3_S3x16_S2000x16_1_0_0_1_n_n.contr.Idx) :
    (dot_S2000x3_S3x16_S2000x16_1_0_0_1_n_n.lhsIdx i q 1).val = (q ⟨0, by decide⟩).val :=
  dot_S2000x3_S3x16_S2000x16_1_0_0_1_n_n.lhsIdx_val_of_single rfl i q
theorem rhs_k0_0 (i : S2000x16.Idx) (q : dot_S2000x3_S3x16_S2000x16_1_0_0_1_n_n.contr.Idx) :
    (dot_S2000x3_S3x16_S2000x16_1_0_0_1_n_n.rhsIdx i q 0).val = (q ⟨0, by decide⟩).val :=
  dot_S2000x3_S3x16_S2000x16_1_0_0_1_n_n.rhsIdx_val_of_single rfl i q
theorem rhs_k0_1 (i : S2000x16.Idx) (q : dot_S2000x3_S3x16_S2000x16_1_0_0_1_n_n.contr.Idx) :
    (dot_S2000x3_S3x16_S2000x16_1_0_0_1_n_n.rhsIdx i q 1).val = (i 1).val := by
  unfold DotDims.rhsIdx
  rw [dif_neg (show ¬(1 : Fin S3x16.rank) ∈ dot_S2000x3_S3x16_S2000x16_1_0_0_1_n_n.rhsBatch by decide), dif_pos (show (1 : Fin S3x16.rank) ∈ dot_S2000x3_S3x16_S2000x16_1_0_0_1_n_n.rhsNonContracting by decide)]
  rfl

/-- The body's arithmetic at an entry of the block: rounding the operands is the identity on the extended reals and
    the accumulator is zero, so the entry is the sum over the 3 contraction positions. -/
theorem pay0_apply (x0 : Vec Ideal S2000x3 .f32) (x1 : Vec Ideal S3x16 .f32) (j : S2000x16.Idx) :
    k0_pay1 x0 x1 j = ∑ k : Fin 3, x0 (ix2 ⟨(j 0).val, (j 0).isLt⟩ k) * x1 (ix2 k ⟨(j 1).val, (j 1).isLt⟩) := by
  unfold k0_pay1
  refine (Ideal.matmul_constant_zero_apply dot_S2000x3_S3x16_S2000x16_1_0_0_1_n_n none _ _ j).trans ?_
  rw [← Equiv.sum_comp (contrEquiv1 dot_S2000x3_S3x16_S2000x16_1_0_0_1_n_n 3 rfl rfl).symm]
  refine Finset.sum_congr rfl fun k _ => ?_
  have hk := contrEquiv1_symm_val dot_S2000x3_S3x16_S2000x16_1_0_0_1_n_n 3 rfl rfl k
  have el : dot_S2000x3_S3x16_S2000x16_1_0_0_1_n_n.lhsIdx j ((contrEquiv1 dot_S2000x3_S3x16_S2000x16_1_0_0_1_n_n 3 rfl rfl).symm k) = ix2 ⟨(j 0).val, (j 0).isLt⟩ k := funext fun a => Fin.ext (by
    match a with
    | ⟨0, _⟩ => exact lhs_k0_0 _ _
    | ⟨1, _⟩ => exact (lhs_k0_1 _ _).trans hk)
  have er : dot_S2000x3_S3x16_S2000x16_1_0_0_1_n_n.rhsIdx j ((contrEquiv1 dot_S2000x3_S3x16_S2000x16_1_0_0_1_n_n 3 rfl rfl).symm k) = ix2 k ⟨(j 1).val, (j 1).isLt⟩ := funext fun a => Fin.ext (by
    match a with
    | ⟨0, _⟩ => exact (rhs_k0_0 _ _).trans hk
    | ⟨1, _⟩ => exact rhs_k0_1 _ _)
  show x0 (dot_S2000x3_S3x16_S2000x16_1_0_0_1_n_n.lhsIdx j _) * x1 (dot_S2000x3_S3x16_S2000x16_1_0_0_1_n_n.rhsIdx j _) = _
  rw [el, er]
  rfl

/-! ### From the blocks to the array -/

/-- The printed index maps over the grid: the row-block window and the output window sit at block `t` of the rows and
    block 0 of the columns; the weight window sits at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block product is the entry of the whole product whose row of `X` and column of `W` the blocks hold. -/
theorem point0 (X : S100000x3.Idx → EReal) (W : S3x16.Idx → EReal) (x0 : Vec Ideal S2000x3 .f32) (x1 : Vec Ideal S3x16 .f32)
    (j : S2000x16.Idx) (i : S100000x16.Idx)
    (h0 : ∀ k : Fin 3, x0 (ix2 ⟨(j 0).val, (j 0).isLt⟩ k) = X (ix2 ⟨(i 0).val, (i 0).isLt⟩ k))
    (h1 : ∀ k : Fin 3, x1 (ix2 k ⟨(j 1).val, (j 1).isLt⟩) = W (ix2 k ⟨(i 1).val, (i 1).isLt⟩)) :
    k0_pay1 x0 x1 j = G0 X W i := by
  rw [pay0_apply]
  exact Finset.sum_congr rfl fun k _ => by rw [h0 k, h1 k]

/-- What point `t` writes back is block `t` of the product of the arrays the region finds. -/
theorem flushed0_eq (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero zero_offsets_mm]
  simp only [View.ld_unit_zero (S := S2000x3) zero_offsets_mm, View.ld_unit_zero (S := S3x16) zero_offsets_mm]
  obtain ⟨e0, e1, e2, e3, e4, e5⟩ := idx_facts0 t
  funext j
  refine point0 (V c main_arg0) (V c main_arg2) (iblk0 V c 0 t) (iblk0 V c 1 t) ((cfg0.win 2).xinj (grid0.coords t) j)
    (((cfg0.win 2).blk t).view.emb j) (fun k => ?_) (fun k => ?_)
  · show V c main_arg0 (((cfg0.win 0).blk t).view.emb _) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; rw [e0, e4]
    | ⟨1, _⟩ => show win0_0.index t (1 : Fin 2) * 3 + 1 * k.val = k.val; rw [e1]; omega
  · show V c main_arg2 (((cfg0.win 1).blk t).view.emb _) = V c main_arg2 _
    refine congrArg (V c main_arg2) (funext fun a => Fin.ext ?_)
    match a with
    | ⟨0, _⟩ => show win0_1.index t (0 : Fin 2) * 3 + 1 * k.val = k.val; rw [e2]; omega
    | ⟨1, _⟩ => show win0_1.index t (1 : Fin 2) * 16 + 1 * (j 1).val = win0_2.index t (1 : Fin 2) * 16 + 1 * (j 1).val; rw [e3, e5]

/-- An entry of the output array is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- The 50 blocks of 2000 rows tile the 100000 rows: row `r` is in the block of point `r / 2000`, which writes back. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have hlt : (i 0).val / 2000 < cfg0.N := lt_of_lt_of_eq (by omega) hN.symm
  obtain ⟨e0, e1, e2, e3, e4, e5⟩ := idx_facts0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 16 ≤ (i 1).val ∧ (i 1).val < win0_2.index ⟨(i 0).val / 2000, hlt⟩ (1 : Fin 2) * 16 + 16
    rw [e5]; omega

/-- So region 0 leaves the whole product in its output array. -/
theorem final0 (c : Dev nD) : (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

/-! ### The reference's product is the same sum -/

theorem lhs_r0_0 (i : Cert.ReferenceIdeal.S100000x16.Idx) (q : Cert.ReferenceIdeal.dot_S100000x3_S3x16_S100000x16_1_0_0_1_n_n.contr.Idx) :
    (Cert.ReferenceIdeal.dot_S100000x3_S3x16_S100000x16_1_0_0_1_n_n.lhsIdx i q 0).val = (i 0).val := by
  unfold DotDims.lhsIdx
  rw [dif_neg (show ¬(0 : Fin Cert.ReferenceIdeal.S100000x3.rank) ∈ Cert.ReferenceIdeal.dot_S100000x3_S3x16_S100000x16_1_0_0_1_n_n.lhsBatch by decide), dif_pos (show (0 : Fin Cert.ReferenceIdeal.S100000x3.rank) ∈ Cert.ReferenceIdeal.dot_S100000x3_S3x16_S100000x16_1_0_0_1_n_n.lhsNonContracting by decide)]
  rfl
theorem lhs_r0_1 (i : Cert.ReferenceIdeal.S100000x16.Idx) (q : Cert.ReferenceIdeal.dot_S100000x3_S3x16_S100000x16_1_0_0_1_n_n.contr.Idx) :
    (Cert.ReferenceIdeal.dot_S100000x3_S3x16_S100000x16_1_0_0_1_n_n.lhsIdx i q 1).val = (q ⟨0, by decide⟩).val :=
  Cert.ReferenceIdeal.dot_S100000x3_S3x16_S100000x16_1_0_0_1_n_n.lhsIdx_val_of_single rfl i q
theorem rhs_r0_0 (i : Cert.ReferenceIdeal.S100000x16.Idx) (q : Cert.ReferenceIdeal.dot_S100000x3_S3x16_S100000x16_1_0_0_1_n_n.contr.Idx) :
    (Cert.ReferenceIdeal.dot_S100000x3_S3x16_S100000x16_1_0_0_1_n_n.rhsIdx i q 0).val = (q ⟨0, by decide⟩).val :=
  Cert.ReferenceIdeal.dot_S100000x3_S3x16_S100000x16_1_0_0_1_n_n.rhsIdx_val_of_single rfl i q
theorem rhs_r0_1 (i : Cert.ReferenceIdeal.S100000x16.Idx) (q : Cert.ReferenceIdeal.dot_S100000x3_S3x16_S100000x16_1_0_0_1_n_n.contr.Idx) :
    (Cert.ReferenceIdeal.dot_S100000x3_S3x16_S100000x16_1_0_0_1_n_n.rhsIdx i q 1).val = (i 1).val := by
  unfold DotDims.rhsIdx
  rw [dif_neg (show ¬(1 : Fin Cert.ReferenceIdeal.S3x16.rank) ∈ Cert.ReferenceIdeal.dot_S100000x3_S3x16_S100000x16_1_0_0_1_n_n.rhsBatch by decide), dif_pos (show (1 : Fin Cert.ReferenceIdeal.S3x16.rank) ∈ Cert.ReferenceIdeal.dot_S100000x3_S3x16_S100000x16_1_0_0_1_n_n.rhsNonContracting by decide)]
  rfl

/-- The host's product of two arrays, entry by entry, is the same sum over the contraction positions. -/
theorem ref0_eq (X : S100000x3.Idx → EReal) (W : S3x16.Idx → EReal) :
    Host.dotGeneral (F := Ideal) (φ₁ := .f32) (φ₂ := .f32) Cert.ReferenceIdeal.dot_S100000x3_S3x16_S100000x16_1_0_0_1_n_n none X W = G0 X W := by
  funext i
  simp only [Host.dotGeneral]
  rw [Ideal.dotGeneral_apply, ← Equiv.sum_comp (contrEquiv1 Cert.ReferenceIdeal.dot_S100000x3_S3x16_S100000x16_1_0_0_1_n_n 3 rfl rfl).symm]
  refine Finset.sum_congr rfl fun k _ => ?_
  have hk := contrEquiv1_symm_val Cert.ReferenceIdeal.dot_S100000x3_S3x16_S100000x16_1_0_0_1_n_n 3 rfl rfl k
  have el : Cert.ReferenceIdeal.dot_S100000x3_S3x16_S100000x16_1_0_0_1_n_n.lhsIdx i ((contrEquiv1 Cert.ReferenceIdeal.dot_S100000x3_S3x16_S100000x16_1_0_0_1_n_n 3 rfl rfl).symm k) = ix2 ⟨(i 0).val, (i 0).isLt⟩ k := funext fun a => Fin.ext (by
    match a with
    | ⟨0, _⟩ => exact lhs_r0_0 _ _
    | ⟨1, _⟩ => exact (lhs_r0_1 _ _).trans hk)
  have er : Cert.ReferenceIdeal.dot_S100000x3_S3x16_S100000x16_1_0_0_1_n_n.rhsIdx i ((contrEquiv1 Cert.ReferenceIdeal.dot_S100000x3_S3x16_S100000x16_1_0_0_1_n_n 3 rfl rfl).symm k) = ix2 k ⟨(i 1).val, (i 1).isLt⟩ := funext fun a => Fin.ext (by
    match a with
    | ⟨0, _⟩ => exact (rhs_r0_0 _ _).trans hk
    | ⟨1, _⟩ => exact rhs_r0_1 _ _)
  rw [el, er]
  rfl

/-- Region 0 leaves in `main_v30` the matrix product of the arrays it finds in `main_arg0` and `main_arg2`. -/
theorem reg0_val (c : Dev nD) :
    ((dat0 (F := Ideal) V c).arrAt 2 cfg0.N : Vec Ideal Cert.ReferenceIdeal.S100000x16 .f32)
      = Host.dotGeneral (F := Ideal) (φ₁ := .f32) (φ₂ := .f32) Cert.ReferenceIdeal.dot_S100000x3_S3x16_S100000x16_1_0_0_1_n_n none (V c main_arg0) (V c main_arg2) :=
  (final0 V c).trans (ref0_eq (V c main_arg0) (V c main_arg2)).symm

/-! ## The second product: 100000 × 16 by 16 × 32 -/

/-- The matrix product, entry by entry: row `p` of `X` against column `q` of `W`. -/
def mm2 (X : S100000x16.Idx → EReal) (W : S16x32.Idx → EReal) (p : Fin 100000) (q : Fin 32) : EReal :=
  ∑ k : Fin 16, X (ix2 p k) * W (ix2 k q)

/-- The product as one array. -/
abbrev G2 (X : S100000x16.Idx → EReal) (W : S16x32.Idx → EReal) : S100000x32.Idx → EReal :=
  fun i => mm2 X W ⟨(i 0).val, (i 0).isLt⟩ ⟨(i 1).val, (i 1).isLt⟩

/-! ### The block product's operand indices, axis by axis -/

theorem lhs_k2_0 (i : S2000x32.Idx) (q : dot_S2000x16_S16x32_S2000x32_1_0_0_1_n_n.contr.Idx) :
    (dot_S2000x16_S16x32_S2000x32_1_0_0_1_n_n.lhsIdx i q 0).val = (i 0).val := by
  unfold DotDims.lhsIdx
  rw [dif_neg (show ¬(0 : Fin S2000x16.rank) ∈ dot_S2000x16_S16x32_S2000x32_1_0_0_1_n_n.lhsBatch by decide), dif_pos (show (0 : Fin S2000x16.rank) ∈ dot_S2000x16_S16x32_S2000x32_1_0_0_1_n_n.lhsNonContracting by decide)]
  rfl
theorem lhs_k2_1 (i : S2000x32.Idx) (q : dot_S2000x16_S16x32_S2000x32_1_0_0_1_n_n.contr.Idx) :
    (dot_S2000x16_S16x32_S2000x32_1_0_0_1_n_n.lhsIdx i q 1).val = (q ⟨0, by decide⟩).val :=
  dot_S2000x16_S16x32_S2000x32_1_0_0_1_n_n.lhsIdx_val_of_single rfl i q
theorem rhs_k2_0 (i : S2000x32.Idx) (q : dot_S2000x16_S16x32_S2000x32_1_0_0_1_n_n.contr.Idx) :
    (dot_S2000x16_S16x32_S2000x32_1_0_0_1_n_n.rhsIdx i q 0).val = (q ⟨0, by decide⟩).val :=
  dot_S2000x16_S16x32_S2000x32_1_0_0_1_n_n.rhsIdx_val_of_single rfl i q
theorem rhs_k2_1 (i : S2000x32.Idx) (q : dot_S2000x16_S16x32_S2000x32_1_0_0_1_n_n.contr.Idx) :
    (dot_S2000x16_S16x32_S2000x32_1_0_0_1_n_n.rhsIdx i q 1).val = (i 1).val := by
  unfold DotDims.rhsIdx
  rw [dif_neg (show ¬(1 : Fin S16x32.rank) ∈ dot_S2000x16_S16x32_S2000x32_1_0_0_1_n_n.rhsBatch by decide), dif_pos (show (1 : Fin S16x32.rank) ∈ dot_S2000x16_S16x32_S2000x32_1_0_0_1_n_n.rhsNonContracting by decide)]
  rfl

/-- The body's arithmetic at an entry of the block: rounding the operands is the identity on the extended reals and
    the accumulator is zero, so the entry is the sum over the 16 contraction positions. -/
theorem pay2_apply (x0 : Vec Ideal S2000x16 .f32) (x1 : Vec Ideal S16x32 .f32) (j : S2000x32.Idx) :
    k2_pay1 x0 x1 j = ∑ k : Fin 16, x0 (ix2 ⟨(j 0).val, (j 0).isLt⟩ k) * x1 (ix2 k ⟨(j 1).val, (j 1).isLt⟩) := by
  unfold k2_pay1
  rw [shapeCast_self x0 shapeCasts_S2000x16_S2000x16]
  refine (Ideal.matmul_constant_zero_apply dot_S2000x16_S16x32_S2000x32_1_0_0_1_n_n none _ _ j).trans ?_
  rw [← Equiv.sum_comp (contrEquiv1 dot_S2000x16_S16x32_S2000x32_1_0_0_1_n_n 16 rfl rfl).symm]
  refine Finset.sum_congr rfl fun k _ => ?_
  have hk := contrEquiv1_symm_val dot_S2000x16_S16x32_S2000x32_1_0_0_1_n_n 16 rfl rfl k
  have el : dot_S2000x16_S16x32_S2000x32_1_0_0_1_n_n.lhsIdx j ((contrEquiv1 dot_S2000x16_S16x32_S2000x32_1_0_0_1_n_n 16 rfl rfl).symm k) = ix2 ⟨(j 0).val, (j 0).isLt⟩ k := funext fun a => Fin.ext (by
    match a with
    | ⟨0, _⟩ => exact lhs_k2_0 _ _
    | ⟨1, _⟩ => exact (lhs_k2_1 _ _).trans hk)
  have er : dot_S2000x16_S16x32_S2000x32_1_0_0_1_n_n.rhsIdx j ((contrEquiv1 dot_S2000x16_S16x32_S2000x32_1_0_0_1_n_n 16 rfl rfl).symm k) = ix2 k ⟨(j 1).val, (j 1).isLt⟩ := funext fun a => Fin.ext (by
    match a with
    | ⟨0, _⟩ => exact (rhs_k2_0 _ _).trans hk
    | ⟨1, _⟩ => exact rhs_k2_1 _ _)
  show x0 (dot_S2000x16_S16x32_S2000x32_1_0_0_1_n_n.lhsIdx j _) * x1 (dot_S2000x16_S16x32_S2000x32_1_0_0_1_n_n.rhsIdx j _) = _
  rw [el, er]
  rfl

/-! ### From the blocks to the array -/

/-- The printed index maps over the grid: the row-block window and the output window sit at block `t` of the rows and
    block 0 of the columns; the weight window sits at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a block product is the entry of the whole product whose row of `X` and column of `W` the blocks hold. -/
theorem point2 (X : S100000x16.Idx → EReal) (W : S16x32.Idx → EReal) (x0 : Vec Ideal S2000x16 .f32) (x1 : Vec Ideal S16x32 .f32)
    (j : S2000x32.Idx) (i : S100000x32.Idx)
    (h0 : ∀ k : Fin 16, x0 (ix2 ⟨(j 0).val, (j 0).isLt⟩ k) = X (ix2 ⟨(i 0).val, (i 0).isLt⟩ k))
    (h1 : ∀ k : Fin 16, x1 (ix2 k ⟨(j 1).val, (j 1).isLt⟩) = W (ix2 k ⟨(i 1).val, (i 1).isLt⟩)) :
    k2_pay1 x0 x1 j = G2 X W i := by
  rw [pay2_apply]
  exact Finset.sum_congr rfl fun k _ => by rw [h0 k, h1 k]

/-- What point `t` writes back is block `t` of the product of the arrays the region finds. -/
theorem flushed2_eq (c : Dev nD) (t : Fin cfg2.N) :
    (dat2 (F := Ideal) V c).flushed 2 t = ((cfg2.win 2).blk t).view.read (Elt Ideal) (G2 (V c main_v45) (V c main_arg4)) := by
  show (cfg2.win 2).cut (grid2.coords t) ((dat2 (F := Ideal) V c).after 2 t) = _
  rw [after2_2]
  unfold out2_2
  rw [View.canon_unit_zero zero_offsets_mm]
  simp only [View.ld_unit_zero (S := S2000x16) zero_offsets_mm, View.ld_unit_zero (S := S16x32) zero_offsets_mm]
  obtain ⟨e0, e1, e2, e3, e4, e5⟩ := idx_facts2 t
  funext j
  refine point2 (V c main_v45) (V c main_arg4) (iblk2 V c 0 t) (iblk2 V c 1 t) ((cfg2.win 2).xinj (grid2.coords t) j)
    (((cfg2.win 2).blk t).view.emb j) (fun k => ?_) (fun k => ?_)
  · show V c main_v45 (((cfg2.win 0).blk t).view.emb _) = V c main_v45 _
    refine congrArg (V c main_v45) (funext fun a => Fin.ext ?_)
    match a with
    | ⟨0, _⟩ => show win2_0.index t (0 : Fin 2) * 2000 + 1 * (j 0).val = win2_2.index t (0 : Fin 2) * 2000 + 1 * (j 0).val; rw [e0, e4]
    | ⟨1, _⟩ => show win2_0.index t (1 : Fin 2) * 16 + 1 * k.val = k.val; rw [e1]; omega
  · show V c main_arg4 (((cfg2.win 1).blk t).view.emb _) = V c main_arg4 _
    refine congrArg (V c main_arg4) (funext fun a => Fin.ext ?_)
    match a with
    | ⟨0, _⟩ => show win2_1.index t (0 : Fin 2) * 16 + 1 * k.val = k.val; rw [e2]; omega
    | ⟨1, _⟩ => show win2_1.index t (1 : Fin 2) * 32 + 1 * (j 1).val = win2_2.index t (1 : Fin 2) * 32 + 1 * (j 1).val; rw [e3, e5]

/-- An entry of the output array is in point `t`'s block iff each coordinate is in the block's range on its axis. -/
theorem mem_blk2 (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v46).slice (win2_2.rect t)).set ↔ _
  rw [View.set_slice_whole, Rect.mem_set_unit]
  exact Iff.rfl

/-- The 50 blocks of 2000 rows tile the 100000 rows: row `r` is in the block of point `r / 2000`, which writes back. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 50 := N_2
  have hlt : (i 0).val / 2000 < cfg2.N := lt_of_lt_of_eq (by omega) hN.symm
  obtain ⟨e0, e1, e2, e3, e4, e5⟩ := idx_facts2 ⟨(i 0).val / 2000, hlt⟩
  refine ⟨⟨(i 0).val / 2000, hlt⟩, flush2_2 _, ?_⟩
  rw [mem_blk2]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 32 ≤ (i 1).val ∧ (i 1).val < win2_2.index ⟨(i 0).val / 2000, hlt⟩ (1 : Fin 2) * 32 + 32
    rw [e5]; omega

/-- So region 2 leaves the whole product in its output array. -/
theorem final2 (c : Dev nD) : (dat2 (F := Ideal) V c).arrAt 2 cfg2.N = G2 (V c main_v45) (V c main_arg4) :=
  (dat2 (F := Ideal) V c).arrAt_eq_of_cover 2 (G2 (V c main_v45) (V c main_arg4)) (fun t _ => flushed2_eq V c t) cover2

/-! ### The reference's product is the same sum -/

theorem lhs_r2_0 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x32_S100000x32_1_0_0_1_n_n.lhsBatch by decide), dif_pos (show (0 : Fin Cert.ReferenceIdeal.S100000x16.rank) ∈ Cert.ReferenceIdeal.dot_S100000x16_S16x32_S100000x32_1_0_0_1_n_n.lhsNonContracting by decide)]
  rfl
theorem lhs_r2_1 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.lhsIdx i q 1).val = (q ⟨0, by decide⟩).val :=
  Cert.ReferenceIdeal.dot_S100000x16_S16x32_S100000x32_1_0_0_1_n_n.lhsIdx_val_of_single rfl i q
theorem rhs_r2_0 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.rhsIdx i q 0).val = (q ⟨0, by decide⟩).val :=
  Cert.ReferenceIdeal.dot_S100000x16_S16x32_S100000x32_1_0_0_1_n_n.rhsIdx_val_of_single rfl i q
theorem rhs_r2_1 (i : Cert.ReferenceIdeal.S100000x32.Idx) (q : Cert.ReferenceIdeal.dot_S100000x16_S16x32_S100000x32_1_0_0_1_n_n.contr.Idx) :
    (Cert.ReferenceIdeal.dot_S100000x16_S16x32_S100000x32_1_0_0_1_n_n.rhsIdx i q 1).val = (i 1).val := by
  unfold DotDims.rhsIdx
  rw [dif_neg (show ¬(1 : Fin Cert.ReferenceIdeal.S16x32.rank) ∈ Cert.ReferenceIdeal.dot_S100000x16_S16x32_S100000x32_1_0_0_1_n_n.rhsBatch by decide), dif_pos (show (1 : Fin Cert.ReferenceIdeal.S16x32.rank) ∈ Cert.ReferenceIdeal.dot_S100000x16_S16x32_S100000x32_1_0_0_1_n_n.rhsNonContracting by decide)]
  rfl

/-- The host's product of two arrays, entry by entry, is the same sum over the contraction positions. -/
theorem ref2_eq (X : S100000x16.Idx → EReal) (W : S16x32.Idx → EReal) :
    Host.dotGeneral (F := Ideal) (φ₁ := .f32) (φ₂ := .f32) Cert.ReferenceIdeal.dot_S100000x16_S16x32_S100000x32_1_0_0_1_n_n none X W = G2 X W := by
  funext i
  simp only [Host.dotGeneral]
  rw [Ideal.dotGeneral_apply, ← Equiv.sum_comp (contrEquiv1 Cert.ReferenceIdeal.dot_S100000x16_S16x32_S100000x32_1_0_0_1_n_n 16 rfl rfl).symm]
  refine Finset.sum_congr rfl fun k _ => ?_
  have hk := contrEquiv1_symm_val Cert.ReferenceIdeal.dot_S100000x16_S16x32_S100000x32_1_0_0_1_n_n 16 rfl rfl k
  have el : Cert.ReferenceIdeal.dot_S100000x16_S16x32_S100000x32_1_0_0_1_n_n.lhsIdx i ((contrEquiv1 Cert.ReferenceIdeal.dot_S100000x16_S16x32_S100000x32_1_0_0_1_n_n 16 rfl rfl).symm k) = ix2 ⟨(i 0).val, (i 0).isLt⟩ k := funext fun a => Fin.ext (by
    match a with
    | ⟨0, _⟩ => exact lhs_r2_0 _ _
    | ⟨1, _⟩ => exact (lhs_r2_1 _ _).trans hk)
  have er : Cert.ReferenceIdeal.dot_S100000x16_S16x32_S100000x32_1_0_0_1_n_n.rhsIdx i ((contrEquiv1 Cert.ReferenceIdeal.dot_S100000x16_S16x32_S100000x32_1_0_0_1_n_n 16 rfl rfl).symm k) = ix2 k ⟨(i 1).val, (i 1).isLt⟩ := funext fun a => Fin.ext (by
    match a with
    | ⟨0, _⟩ => exact (rhs_r2_0 _ _).trans hk
    | ⟨1, _⟩ => exact rhs_r2_1 _ _)
  rw [el, er]
  rfl

/-- Region 2 leaves in `main_v46` the matrix product of the arrays it finds in `main_v45` and `main_arg4`. -/
theorem reg2_val (c : Dev nD) :
    ((dat2 (F := Ideal) V c).arrAt 2 cfg2.N : Vec Ideal Cert.ReferenceIdeal.S100000x32 .f32)
      = Host.dotGeneral (F := Ideal) (φ₁ := .f32) (φ₂ := .f32) Cert.ReferenceIdeal.dot_S100000x16_S16x32_S100000x32_1_0_0_1_n_n none (V c main_v45) (V c main_arg4) :=
  (final2 V c).trans (ref2_eq (V c main_v45) (V c main_arg4)).symm

end Cert.Hand.Val

end
-- ==== Proof.Val.Bias.lean ====
/-
  The two bias passes as whole arrays, over the extended reals.

  Region 1 writes, block of 2000 rows by block, each row block of the aggregated features plus the bias row,
  cut below at zero; the 50 blocks tile the 100000 rows, so the array the region leaves is
  `max(agg[i,j] + b[0,j], 0)` at every index — the reference's broadcast, sum and maximum with zero. Region 3 is
  the same without the maximum, on 32 columns.

  For each region: the result is stated as one function `G` of the two arrays the region finds, index by index;
  the body's arithmetic at a block index is read through its pointwise and layout operations; what a grid point
  writes back is that point's block of `G` (each input block is read where the output's rectangle says: the row
  block at the same rows, the bias row whole); the blocks cover the array (row `r` lies in block `r / 2000`); so
  the array ends holding `G`, which is the reference's term read at an index.
-/
import proofs.«139656_j25864293057120_1_alg».proof.Proof.KI.Reg1
import proofs.«139656_j25864293057120_1_alg».proof.Proof.KI.Reg3
import proofs.«139656_j25864293057120_1_alg».proof.ReferenceIdeal
import proofs.«139656_j25864293057120_1_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Hand.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Region 1: the bias row added to every row, cut below at zero -/

/-- The zero offsets of a whole-buffer rectangle, as a constant function. -/
theorem off_zero2 : (![0, 0] : Fin 2 → Nat) = fun _ => 0 :=
  funext fun a => match a with | ⟨0, _⟩ => rfl | ⟨1, _⟩ => rfl

/-- The bias row's index under an index of the array: row 0, the same column. -/
abbrev biasIx16 (i : S100000x16.Idx) : S1x16.Idx := ix2 (0 : Fin 1) (⟨(i 1).val, (i 1).isLt⟩ : Fin 16)

/-- What region 1 leaves, index by index: `max(A[r, k] + B[0, k], 0)`. -/
abbrev G1 (A : S100000x16.Idx → Elt Ideal .f32) (B : S1x16.Idx → Elt Ideal .f32) : S100000x16.Idx → Elt Ideal .f32 :=
  fun i => max (A i + B (biasIx16 i)) (Ideal.ofBits .f32 0x00000000#32)

/-- The body's arithmetic at an index of the block: the row block's entry plus the bias row's entry of that column,
    cut below at zero. -/
theorem pay1_at (x0 : Vec Ideal S2000x16 .f32) (x1 : Vec Ideal S1x16 .f32) (p : Fin 2000) (q : Fin 16) :
    k1_pay1 x0 x1 (ix2 p q) = max (x0 (ix2 p q) + x1 (ix2 (0 : Fin 1) q)) (Ideal.ofBits .f32 0x00000000#32) := by
  have e : broadcastTo S2000x16 (shapeCast S1x16 x1 shapeCasts_S1x16_S1x16) broadcasts_S1x16_S2000x16 (ix2 p q) = x1 (ix2 (0 : Fin 1) q) := by
    refine (broadcastTo_apply _ broadcasts_S1x16_S2000x16 (ix2 p q) (ix2 (0 : Fin 1) q) (fun a => match a with
      | ⟨0, _⟩ => by show 0 = if (1 : Nat) = 1 then 0 else _; rw [if_pos rfl]
      | ⟨1, _⟩ => by show q.val = if (16 : Nat) = 1 then 0 else q.val; rw [if_neg (by decide)])).trans ?_
    exact congrFun (shapeCast_self x1 shapeCasts_S1x16_S1x16) _
  have e0 : shapeCast S2000x16 x0 shapeCasts_S2000x16_S2000x16 (ix2 p q) = x0 (ix2 p q) :=
    congrFun (shapeCast_self x0 shapeCasts_S2000x16_S2000x16) _
  unfold k1_pay1
  show max (shapeCast S2000x16 x0 shapeCasts_S2000x16_S2000x16 (ix2 p q)
      + broadcastTo S2000x16 (shapeCast S1x16 x1 shapeCasts_S1x16_S1x16) broadcasts_S1x16_S2000x16 (ix2 p q)) (Ideal.ofBits .f32 0x00000000#32) = _
  rw [e, e0]

/-- The body's arithmetic at a block index `j` lying under the array index `i`: when the row block's entry at `j` is
    `A i` and the bias block's entry of `j`'s column is `B`'s entry under `i`, the payload at `j` is `G1 A B i`. -/
theorem pay1_under (A : S100000x16.Idx → Elt Ideal .f32) (B : S1x16.Idx → Elt Ideal .f32)
    (x0 : Vec Ideal S2000x16 .f32) (x1 : Vec Ideal S1x16 .f32) (j : S2000x16.Idx) (i : S100000x16.Idx)
    (h0 : x0 j = A i) (h1 : x1 (ix2 (0 : Fin 1) (⟨(j 1).val, (j 1).isLt⟩ : Fin 16)) = B (biasIx16 i)) :
    k1_pay1 x0 x1 j = G1 A B i := by
  obtain ⟨p, q, rfl⟩ : ∃ (p : Fin 2000) (q : Fin 16), j = ix2 p q := ⟨j 0, j 1, eq_ix2 j⟩
  rw [pay1_at, h0]
  show max (A i + x1 (ix2 (0 : Fin 1) q)) _ = max (A i + B (biasIx16 i)) _
  rw [← h1]

/-- The printed index maps over the grid: the row-block window and the output window are at block `t` of the rows
    and block 0 of the columns; the bias window is at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G1` of the two arrays as the region finds them. -/
theorem flushed1_eq (c : Dev nD) (t : Fin cfg1.N) :
    (dat1 (F := Ideal) V c).flushed 2 t = ((cfg1.win 2).blk t).view.read (Elt Ideal) (G1 (V c main_v43) (V c main_v44)) := by
  show (cfg1.win 2).cut (grid1.coords t) ((dat1 V c).after 2 t) = _
  rw [after1_2]
  unfold out1_2
  rw [View.canon_unit_zero off_zero2]
  simp only [View.ld_unit_zero (S := S2000x16) off_zero2, View.ld_unit_zero (S := S1x16) off_zero2]
  obtain ⟨e0, e1, e2, e3, e4, e5⟩ := idx_facts1 t
  funext j
  show k1_pay1 (iblk1 V c 0 t) (iblk1 V c 1 t) j = G1 (V c main_v43) (V c main_v44) (((cfg1.win 2).blk t).view.emb j)
  refine pay1_under (V c main_v43) (V c main_v44) (iblk1 V c 0 t) (iblk1 V c 1 t) j (((cfg1.win 2).blk t).view.emb j) ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 2000 + 1 * (j 0).val = win1_2.index t (0 : Fin 2) * 2000 + 1 * (j 0).val; rw [e0, e4]
    | ⟨1, _⟩ => show win1_0.index t (1 : Fin 2) * 16 + 1 * (j 1).val = win1_2.index t (1 : Fin 2) * 16 + 1 * (j 1).val; rw [e1, e5]
  · show V c main_v44 (((cfg1.win 1).blk t).view.emb (ix2 (0 : Fin 1) (⟨(j 1).val, (j 1).isLt⟩ : Fin 16)))
      = V c main_v44 (biasIx16 (((cfg1.win 2).blk t).view.emb j))
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 16 + 1 * (j 1).val = win1_2.index t (1 : Fin 2) * 16 + 1 * (j 1).val; rw [e3, e5]

/-- An index of the array is in point `t`'s block iff each coordinate is in the block's range on its axis. -/
theorem mem_blk1 (t : Fin cfg1.N) (i : S100000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v45).slice (win1_2.rect t)).set ↔ _
  rw [View.set_slice_whole, Rect.mem_set_unit]
  exact Iff.rfl

/-- The 50 row blocks tile the 100000 rows: row `r` is in the block of point `r / 2000`. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 50 := N_1
  obtain ⟨t, ht⟩ : ∃ t : Fin cfg1.N, t.val = (i 0).val / 2000 :=
    ⟨⟨(i 0).val / 2000, by show (i 0).val / 2000 < grid1.N; rw [hN]; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 16 ≤ (i 1).val ∧ (i 1).val < win1_2.index t (1 : Fin 2) * 16 + 16
    rw [e5]; omega

/-- The array region 1 leaves is `G1` of the two arrays it finds. -/
theorem final1 (c : Dev nD) : (dat1 (F := Ideal) V c).arrAt 2 cfg1.N = G1 (V c main_v43) (V c main_v44) :=
  (dat1 V c).arrAt_eq_of_cover 2 (G1 (V c main_v43) (V c main_v44)) (fun t _ => flushed1_eq V c t) cover1

/-- The reference's broadcast, sum and maximum with zero, index by index, is `G1`. -/
theorem ref1_eq (A : Vec Ideal Cert.ReferenceIdeal.S100000x16 .f32) (B : Vec Ideal Cert.ReferenceIdeal.S1x16 .f32) :
    maximumf (F := Ideal) (φ := .f32) (addf (φ := .f32) A
        (broadcastInDim Cert.ReferenceIdeal.S100000x16 ![0, 1] Cert.ReferenceIdeal.Gen.bcast_S1x16_S100000x16_0_1 B))
        (broadcastInDim Cert.ReferenceIdeal.S100000x16 ![] Cert.ReferenceIdeal.Gen.bcast_S_S100000x16 (constant (F := Ideal) Cert.ReferenceIdeal.S_ .f32 0x00000000#32))
      = G1 A B := by
  funext i
  have eB : broadcastInDim Cert.ReferenceIdeal.S100000x16 ![0, 1] Cert.ReferenceIdeal.Gen.bcast_S1x16_S100000x16_0_1 B i = B (biasIx16 i) :=
    broadcastInDim_apply _ Cert.ReferenceIdeal.Gen.bcast_S1x16_S100000x16_0_1 B i (biasIx16 i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  have eZ : broadcastInDim Cert.ReferenceIdeal.S100000x16 ![] Cert.ReferenceIdeal.Gen.bcast_S_S100000x16 (constant (F := Ideal) Cert.ReferenceIdeal.S_ .f32 0x00000000#32) i
      = Ideal.ofBits .f32 0x00000000#32 :=
    broadcastInDim_apply _ Cert.ReferenceIdeal.Gen.bcast_S_S100000x16 (constant (F := Ideal) Cert.ReferenceIdeal.S_ .f32 0x00000000#32) i ix0 (fun a => a.elim0)
  show max (A i + broadcastInDim Cert.ReferenceIdeal.S100000x16 ![0, 1] Cert.ReferenceIdeal.Gen.bcast_S1x16_S100000x16_0_1 B i)
      (broadcastInDim Cert.ReferenceIdeal.S100000x16 ![] Cert.ReferenceIdeal.Gen.bcast_S_S100000x16 (constant (F := Ideal) Cert.ReferenceIdeal.S_ .f32 0x00000000#32) i) = _
  rw [eB, eZ]

/-- Region 1 leaves in `main_v45` the rectified sum of `main_v43` and the bias row `main_v44` broadcast down the rows. -/
theorem reg1_val (c : Dev nD) :
    ((dat1 (F := Ideal) V c).arrAt 2 cfg1.N : Vec Ideal Cert.ReferenceIdeal.S100000x16 .f32)
      = maximumf (F := Ideal) (φ := .f32) (addf (φ := .f32) (V c main_v43)
          (broadcastInDim Cert.ReferenceIdeal.S100000x16 ![0, 1] Cert.ReferenceIdeal.Gen.bcast_S1x16_S100000x16_0_1 (V c main_v44)))
          (broadcastInDim Cert.ReferenceIdeal.S100000x16 ![] Cert.ReferenceIdeal.Gen.bcast_S_S100000x16 (constant (F := Ideal) Cert.ReferenceIdeal.S_ .f32 0x00000000#32)) :=
  (final1 V c).trans (ref1_eq (V c main_v43) (V c main_v44)).symm

/-! ## Region 3: the bias row added to every row, on 32 columns -/

/-- The bias row's index under an index of the array: row 0, the same column. -/
abbrev biasIx32 (i : S100000x32.Idx) : S1x32.Idx := ix2 (0 : Fin 1) (⟨(i 1).val, (i 1).isLt⟩ : Fin 32)

/-- What region 3 leaves, index by index: `A[r, k] + B[0, k]`. -/
abbrev G3 (A : S100000x32.Idx → Elt Ideal .f32) (B : S1x32.Idx → Elt Ideal .f32) : S100000x32.Idx → Elt Ideal .f32 :=
  fun i => A i + B (biasIx32 i)

/-- The body's arithmetic at an index of the block: the row block's entry plus the bias row's entry of that column. -/
theorem pay3_at (x0 : Vec Ideal S2000x32 .f32) (x1 : Vec Ideal S1x32 .f32) (p : Fin 2000) (q : Fin 32) :
    k3_pay1 x0 x1 (ix2 p q) = x0 (ix2 p q) + x1 (ix2 (0 : Fin 1) q) := by
  have e : broadcastTo S2000x32 (shapeCast S1x32 x1 shapeCasts_S1x32_S1x32) broadcasts_S1x32_S2000x32 (ix2 p q) = x1 (ix2 (0 : Fin 1) q) := by
    refine (broadcastTo_apply _ broadcasts_S1x32_S2000x32 (ix2 p q) (ix2 (0 : Fin 1) q) (fun a => match a with
      | ⟨0, _⟩ => by show 0 = if (1 : Nat) = 1 then 0 else _; rw [if_pos rfl]
      | ⟨1, _⟩ => by show q.val = if (32 : Nat) = 1 then 0 else q.val; rw [if_neg (by decide)])).trans ?_
    exact congrFun (shapeCast_self x1 shapeCasts_S1x32_S1x32) _
  have e0 : shapeCast S2000x32 x0 shapeCasts_S2000x32_S2000x32 (ix2 p q) = x0 (ix2 p q) :=
    congrFun (shapeCast_self x0 shapeCasts_S2000x32_S2000x32) _
  unfold k3_pay1
  show shapeCast S2000x32 x0 shapeCasts_S2000x32_S2000x32 (ix2 p q)
      + broadcastTo S2000x32 (shapeCast S1x32 x1 shapeCasts_S1x32_S1x32) broadcasts_S1x32_S2000x32 (ix2 p q) = _
  rw [e, e0]

/-- The body's arithmetic at a block index `j` lying under the array index `i`: when the row block's entry at `j` is
    `A i` and the bias block's entry of `j`'s column is `B`'s entry under `i`, the payload at `j` is `G3 A B i`. -/
theorem pay3_under (A : S100000x32.Idx → Elt Ideal .f32) (B : S1x32.Idx → Elt Ideal .f32)
    (x0 : Vec Ideal S2000x32 .f32) (x1 : Vec Ideal S1x32 .f32) (j : S2000x32.Idx) (i : S100000x32.Idx)
    (h0 : x0 j = A i) (h1 : x1 (ix2 (0 : Fin 1) (⟨(j 1).val, (j 1).isLt⟩ : Fin 32)) = B (biasIx32 i)) :
    k3_pay1 x0 x1 j = G3 A B i := by
  obtain ⟨p, q, rfl⟩ : ∃ (p : Fin 2000) (q : Fin 32), j = ix2 p q := ⟨j 0, j 1, eq_ix2 j⟩
  rw [pay3_at, h0]
  show A i + x1 (ix2 (0 : Fin 1) q) = A i + B (biasIx32 i)
  rw [← h1]

/-- The printed index maps over the grid: the row-block window and the output window are at block `t` of the rows
    and block 0 of the columns; the bias window is at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `G3` of the two arrays as the region finds them. -/
theorem flushed3_eq (c : Dev nD) (t : Fin cfg3.N) :
    (dat3 (F := Ideal) V c).flushed 2 t = ((cfg3.win 2).blk t).view.read (Elt Ideal) (G3 (V c main_v59) (V c main_v60)) := by
  show (cfg3.win 2).cut (grid3.coords t) ((dat3 V c).after 2 t) = _
  rw [after3_2]
  unfold out3_2
  rw [View.canon_unit_zero off_zero2]
  simp only [View.ld_unit_zero (S := S2000x32) off_zero2, View.ld_unit_zero (S := S1x32) off_zero2]
  obtain ⟨e0, e1, e2, e3, e4, e5⟩ := idx_facts3 t
  funext j
  show k3_pay1 (iblk3 V c 0 t) (iblk3 V c 1 t) j = G3 (V c main_v59) (V c main_v60) (((cfg3.win 2).blk t).view.emb j)
  refine pay3_under (V c main_v59) (V c main_v60) (iblk3 V c 0 t) (iblk3 V c 1 t) j (((cfg3.win 2).blk t).view.emb j) ?_ ?_
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 2000 + 1 * (j 0).val = win3_2.index t (0 : Fin 2) * 2000 + 1 * (j 0).val; rw [e0, e4]
    | ⟨1, _⟩ => show win3_0.index t (1 : Fin 2) * 32 + 1 * (j 1).val = win3_2.index t (1 : Fin 2) * 32 + 1 * (j 1).val; rw [e1, e5]
  · show V c main_v60 (((cfg3.win 1).blk t).view.emb (ix2 (0 : Fin 1) (⟨(j 1).val, (j 1).isLt⟩ : Fin 32)))
      = V c main_v60 (biasIx32 (((cfg3.win 2).blk t).view.emb j))
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 32 + 1 * (j 1).val = win3_2.index t (1 : Fin 2) * 32 + 1 * (j 1).val; rw [e3, e5]

/-- An index of the array is in point `t`'s block iff each coordinate is in the block's range on its axis. -/
theorem mem_blk3 (t : Fin cfg3.N) (i : S100000x32.Idx) :
    i ∈ ((cfg3.win 2).blk t).view.set ↔ ∀ a : Fin 2, win3_2.index t a * S2000x32.size a ≤ (i a).val
      ∧ (i a).val < win3_2.index t a * S2000x32.size a + S2000x32.size a := by
  show i ∈ ((View.whole main_v61).slice (win3_2.rect t)).set ↔ _
  rw [View.set_slice_whole, Rect.mem_set_unit]
  exact Iff.rfl

/-- The 50 row blocks tile the 100000 rows: row `r` is in the block of point `r / 2000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 50 := N_3
  obtain ⟨t, ht⟩ : ∃ t : Fin cfg3.N, t.val = (i 0).val / 2000 :=
    ⟨⟨(i 0).val / 2000, by show (i 0).val / 2000 < grid3.N; rw [hN]; omega⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * 32 ≤ (i 1).val ∧ (i 1).val < win3_2.index t (1 : Fin 2) * 32 + 32
    rw [e5]; omega

/-- The array region 3 leaves is `G3` of the two arrays it finds. -/
theorem final3 (c : Dev nD) : (dat3 (F := Ideal) V c).arrAt 2 cfg3.N = G3 (V c main_v59) (V c main_v60) :=
  (dat3 V c).arrAt_eq_of_cover 2 (G3 (V c main_v59) (V c main_v60)) (fun t _ => flushed3_eq V c t) cover3

/-- The reference's broadcast and sum, index by index, is `G3`. -/
theorem ref3_eq (A : Vec Ideal Cert.ReferenceIdeal.S100000x32 .f32) (B : Vec Ideal Cert.ReferenceIdeal.S1x32 .f32) :
    addf (F := Ideal) (φ := .f32) A
        (broadcastInDim Cert.ReferenceIdeal.S100000x32 ![0, 1] Cert.ReferenceIdeal.Gen.bcast_S1x32_S100000x32_0_1 B)
      = G3 A B := by
  funext i
  have eB : broadcastInDim Cert.ReferenceIdeal.S100000x32 ![0, 1] Cert.ReferenceIdeal.Gen.bcast_S1x32_S100000x32_0_1 B i = B (biasIx32 i) :=
    broadcastInDim_apply _ Cert.ReferenceIdeal.Gen.bcast_S1x32_S100000x32_0_1 B i (biasIx32 i) (fun a => match a with
      | ⟨0, _⟩ => by show 0 = if (1 : Nat) = 1 then 0 else (i 0).val; rw [if_pos rfl]
      | ⟨1, _⟩ => by show (i 1).val = if (32 : Nat) = 1 then 0 else (i 1).val; rw [if_neg (by decide)])
  show A i + broadcastInDim Cert.ReferenceIdeal.S100000x32 ![0, 1] Cert.ReferenceIdeal.Gen.bcast_S1x32_S100000x32_0_1 B i = _
  rw [eB]

/-- Region 3 leaves in `main_v61` the sum of `main_v59` and the bias row `main_v60` broadcast down the rows. -/
theorem reg3_val (c : Dev nD) :
    ((dat3 (F := Ideal) V c).arrAt 2 cfg3.N : Vec Ideal Cert.ReferenceIdeal.S100000x32 .f32)
      = addf (F := Ideal) (φ := .f32) (V c main_v59)
          (broadcastInDim Cert.ReferenceIdeal.S100000x32 ![0, 1] Cert.ReferenceIdeal.Gen.bcast_S1x32_S100000x32_0_1 (V c main_v60)) :=
  (final3 V c).trans (ref3_eq (V c main_v59) (V c main_v60)).symm

end Cert.Hand.Val

end
-- ==== Proof.Val.Pool.lean ====
/-
  The mean over the rows as one array, over the extended reals.

  The kernel adds up, from zero and in order, the column sums of the 50 row blocks, and scales the total by the
  named constant 1/100000; the reference sums each column over all 100000 rows at once and divides by 100000.
  Addition of extended reals is commutative and associative, so the block sums added up are the whole column sum
  (rows regrouped as 50 × 2000), and dividing by 100000 is multiplying by 1/100000 on every extended real.
-/
import proofs.«139656_j25864293057120_1_alg».proof.Proof.KI.Reg4
import proofs.«139656_j25864293057120_1_alg».proof.ReferenceIdeal
import proofs.«139656_j25864293057120_1_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Hand.Val

open Cert.KernelIdeal Cert.KernelIdeal.Gen Cert.KernelIdeal.Hand
open Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

namespace Pool

/-! ## One point: the running row plus the block's column sums -/

/-- The sum over the rows of a 2000 × 32 block, at lane `j`: the sum over `r` of the block at `(r, j)`. -/
theorem colsum_apply (v4 : Vec Ideal S2000x32 .f32) (hφ : FKind.Formats .f32)
    (hacc : (0x00000000#32 : BitVec 32) = FKind.add.neutral .f32 hφ) (j : Fin 32) :
    multiReduction (F := Ideal) .add [0] S32 v4 0x00000000#32 reduces_S2000x32_S32 hφ hacc (ix1 j) = ∑ r : Fin 2000, v4 (ix2 r j) :=
  (Ideal.multiReduction_add_single v4 _ reduces_S2000x32_S32 hφ hacc (ix1 j)).trans
    (Finset.sum_congr rfl fun r _ => congrArg v4 (Shape.idx_ext₂ rfl rfl))

/-- A point's step at lane `j`: the row before, plus the block's column sum there (the casts between equal shapes
    are the identity; the cast of the 32 sums to one row of 32 reads lane `j`). -/
theorem pay2_apply (v3 : Vec Ideal S1x32 .f32) (v4 : Vec Ideal S2000x32 .f32) (j : Fin 32) :
    k4_pay2 (F := Ideal) v3 v4 (ix2 0 j) = v3 (ix2 0 j) + ∑ r : Fin 2000, v4 (ix2 r j) := by
  unfold k4_pay2
  simp only [shapeCast_self]
  rw [addf_apply, shapeCast_a_1a_apply]
  exact congrArg (v3 (ix2 0 j) + ·) (colsum_apply v4 _ _ j)

/-- The cleared row is zero everywhere. -/
theorem pay1_apply (i : S1x32.Idx) : k4_pay1 (F := Ideal) i = (0 : EReal) := by
  unfold k4_pay1
  simp only [shapeCast_self]
  exact Ideal.ofBits_zero_f32

/-! ## The scale: the named reciprocal against the division -/

/-- The pattern of `100000.0` denotes the real 100000. -/
theorem ofBits_100000 : Ideal.ofBits .f32 0x47C35000#32 = ((100000 : ℝ) : EReal) := by
  simp [Ideal.ofBits, Ideal.ieee, -EReal.coe_mul]; norm_num

/-- The kernel's named reciprocal denotes the rational 1/100000. -/
theorem inv_100000 : Named.named (F := Ideal) Cert.KernelIdeal.κ "inv_100000" (φ := .f32) 0x3727C5AC#32 = ((1 / 100000 : ℝ) : EReal) :=
  IdealRules.named_const.ideal_named_scalar _ _ _ _ rfl

/-- The kernel's last step multiplies each lane by 1/100000. -/
theorem pay3_apply (v : Vec Ideal S1x32 .f32) (i : S1x32.Idx) :
    k4_pay3 (F := Ideal) v i = v i * ((1 / 100000 : ℝ) : EReal) := by
  unfold k4_pay3
  show v i * Named.named (F := Ideal) Cert.KernelIdeal.κ "inv_100000" (φ := .f32) 0x3727C5AC#32 = _
  rw [inv_100000]

/-- The reference's quotient by the constant 100000 is, on every extended real, the product with 1/100000. -/
theorem div_apply (a : Vec Ideal Cert.ReferenceIdeal.S1x32 .f32) (i : Cert.ReferenceIdeal.S1x32.Idx) :
    Host.divf (F := Ideal) a (broadcastInDim Cert.ReferenceIdeal.S1x32 ![] Cert.ReferenceIdeal.Gen.bcast_S_S1x32
      (constant (F := Ideal) Cert.ReferenceIdeal.S_ .f32 0x47C35000#32)) i = a i * ((1 / 100000 : ℝ) : EReal) := by
  show Ideal.div (a i) (Ideal.ofBits .f32 0x47C35000#32) = _
  rw [ofBits_100000, Ideal.div_coe (by norm_num : (100000 : ℝ) ≠ 0)]

/-! ## The reference: one sum over all rows -/

/-- The reference's column sum at lane `j`: from the initial value zero, the sum over all 100000 rows. -/
theorem host_sum_apply (X : Vec Ideal Cert.ReferenceIdeal.S100000x32 .f32) (j : Fin 32) :
    Host.reduceAdd (F := Ideal) X (constant (F := Ideal) Cert.ReferenceIdeal.S_ .f32 0x00000000#32)
      Cert.ReferenceIdeal.Gen.reducesTo_S100000x32_S32_d0 Cert.ReferenceIdeal.Gen.h_S_ (ix1 j) = ∑ k : Fin 100000, X (ix2 k j) := by
  show Ideal.hostReduceAdd _ X (Ideal.ofBits .f32 0x00000000#32) (ix1 j) = _
  refine (Ideal.hostReduceAdd_single Cert.ReferenceIdeal.Gen.reducesTo_S100000x32_S32_d0 (by decide) X _ (ix1 j)).trans ?_
  rw [Ideal.ofBits_zero_f32, zero_add]
  exact Finset.sum_congr rfl fun r _ => congrArg X (Shape.idx_ext₂ rfl rfl)

/-- The 32 sums broadcast to one row of 32 read lane `j` at `(0, j)`. -/
theorem bcast_row_apply (x : Vec Ideal Cert.ReferenceIdeal.S32 .f32) (j : Fin 32) :
    broadcastInDim Cert.ReferenceIdeal.S1x32 ![1] Cert.ReferenceIdeal.Gen.bcast_S32_S1x32_1 x (ix2 0 j) = x (ix1 j) :=
  broadcastInDim_apply _ _ x _ (ix1 j) fun a => by
    match a with
    | ⟨0, _⟩ => rfl

/-! ## The blocks: rows 2000·t … 2000·t + 1999 of the array -/

/-- The input's block index at point `t` is `(t, 0)`. -/
theorem index4_0 : ∀ t : Fin cfg4.N, win4_0.index t 0 = t.val ∧ win4_0.index t 1 = 0 := by
  decide +kernel

/-- The block at point `t` read at `(r, j)` is the array at row `2000·t + r`, lane `j`: on each axis the block's
    index times its size plus the coordinate inside the block. -/
theorem iblk4_apply (c : Dev nD) (t : Fin cfg4.N) (r : Fin 2000) (j : Fin 32) (h : 2000 * t.val + r.val < 100000) :
    (iblk4 (F := Ideal) V c 0 t : Vec Ideal S2000x32 .f32) (ix2 r j)
      = (V c main_v61 : Vec Ideal S100000x32 .f32) (ix2 ⟨2000 * t.val + r.val, h⟩ j) := by
  unfold iblk4
  rw [View.read_apply]
  show (V c main_v61 : Vec Ideal S100000x32 .f32) _ = V c main_v61 _
  congr 1
  apply Shape.idx_ext₂
  · show win4_0.index t 0 * 2000 + 1 * r.val = 2000 * t.val + r.val
    rw [(index4_0 t).1]; omega
  · show win4_0.index t 1 * 32 + 1 * j.val = j.val
    rw [(index4_0 t).2]; omega

/-- Row `n` of the array at lane `j`, as a function of every natural `n` (zero past the last row, where it is
    never read): the sums below range over naturals, so that regrouping them is arithmetic on ranges. -/
def rowAt (X : Vec Ideal S100000x32 .f32) (n : ℕ) (j : Fin 32) : EReal :=
  if h : n < 100000 then X (ix2 ⟨n, h⟩ j) else 0

/-- The column sum of the block at point `t` is the sum of rows `2000·t + r`, `r < 2000`. -/
theorem blk_sum (c : Dev nD) (t : ℕ) (ht : t < cfg4.N) (j : Fin 32) (v4 : Vec Ideal S2000x32 .f32)
    (hv : v4 = iblk4 (F := Ideal) V c 0 ⟨t, ht⟩) :
    ∑ r : Fin 2000, v4 (ix2 r j) = ∑ r ∈ Finset.range 2000, rowAt (V c main_v61) (2000 * t + r) j := by
  subst hv
  rw [← Fin.sum_univ_eq_sum_range (fun r => rowAt (V c main_v61) (2000 * t + r) j) 2000]
  refine Finset.sum_congr rfl fun r _ => ?_
  have h50 : t < 50 := ht
  have h : 2000 * t + r.val < 100000 := by have := r.isLt; omega
  rw [iblk4_apply V c ⟨t, ht⟩ r j h, rowAt, dif_pos h]

/-! ## The running sum: after point `n`, the sum of the first 2000·(n + 1) rows -/

/-- By induction on the point: the first point leaves `0 +` the first 2000 rows' sum; each later point adds the next
    2000 rows, and a sum over `a + b` naturals splits into the first `a` and the `b` after them. No term need be
    finite: extended reals under addition are a commutative monoid. -/
theorem acc4_apply (c : Dev nD) : ∀ (n : ℕ) (h : n < cfg4.N) (j : Fin 32),
    (acc4 (F := Ideal) V c n h) (ix2 0 j) = ∑ m ∈ Finset.range (2000 * (n + 1)), rowAt (V c main_v61) m j
  | 0, h, j => by
    show k4_pay2 (k4_pay1 (F := Ideal)) (iblk4 V c 0 ⟨0, h⟩) (ix2 0 j) = _
    rw [pay2_apply, blk_sum V c 0 h j _ rfl, pay1_apply, zero_add]
    simp only [Nat.mul_zero, Nat.zero_add, Nat.mul_one]
  | n + 1, h, j => by
    show k4_pay2 (acc4 V c n _) (iblk4 V c 0 ⟨n + 1, h⟩) (ix2 0 j) = _
    rw [pay2_apply, blk_sum V c (n + 1) h j _ rfl, acc4_apply c n _ j,
      show 2000 * (n + 1 + 1) = 2000 * (n + 1) + 2000 by ring, Finset.sum_range_add]

/-- After the last point the range is all 100000 rows: the reference's sum over the row index. -/
theorem total_sum (X : Vec Ideal S100000x32 .f32) (j : Fin 32) :
    ∑ m ∈ Finset.range (2000 * (49 + 1)), rowAt X m j = ∑ k : Fin 100000, X (ix2 k j) := by
  rw [Finset.sum_fin_eq_sum_range]
  rfl

end Pool

/-! ## The claim -/

/-- The scaled running sum after the last point is the column mean of the array the region finds in `main_v61`. -/
theorem reg4_val (c : Dev nD) :
    (k4_pay3 (F := Ideal) (acc4 (F := Ideal) V c 49 (by decide)) : Vec Ideal Cert.ReferenceIdeal.S1x32 .f32)
      = Host.divf (F := Ideal)
          (broadcastInDim Cert.ReferenceIdeal.S1x32 ![1] Cert.ReferenceIdeal.Gen.bcast_S32_S1x32_1
            (Host.reduceAdd (F := Ideal) (V c main_v61) (constant (F := Ideal) Cert.ReferenceIdeal.S_ .f32 0x00000000#32)
              Cert.ReferenceIdeal.Gen.reducesTo_S100000x32_S32_d0 Cert.ReferenceIdeal.Gen.h_S_))
          (broadcastInDim Cert.ReferenceIdeal.S1x32 ![] Cert.ReferenceIdeal.Gen.bcast_S_S1x32 (constant (F := Ideal) Cert.ReferenceIdeal.S_ .f32 0x47C35000#32)) := by
  funext i
  obtain ⟨j, rfl⟩ : ∃ j : Fin 32, i = ix2 0 j :=
    ⟨i 1, (eq_ix2 i).trans (congrArg (fun u => ix2 u (i 1)) (Fin.ext (Nat.lt_one_iff.mp (i 0).isLt)))⟩
  refine (Pool.pay3_apply _ _).trans (Eq.trans ?_ (Pool.div_apply _ _).symm)
  rw [Pool.bcast_row_apply, Pool.host_sum_apply, Pool.acc4_apply, Pool.total_sum]

end Cert.Hand.Val

end
-- ==== Proof.Val.Chain.lean ====
/-
  The idealized kernel program's result, as the network applied to its launch arguments.

  Walking the program's boundaries back from the end: the result array is the row mean of what region 3 left,
  which is the second aggregation plus the bias, the aggregation being the host stretch's gather, weighting and
  scatter-add of what region 2 left (the product with `W2`) along the edges; and so on down to the launch
  arguments. The host stretches are the reference program's own operations on the same values, so with each
  region's array replaced by the whole-array function it computes, the composed term is the specification.
-/
import proofs.«139656_j25864293057120_1_alg».proof.Proof.KI.Bound
import proofs.«139656_j25864293057120_1_alg».proof.Proof.Val.Spec
import proofs.«139656_j25864293057120_1_alg».proof.Proof.Val.MM
import proofs.«139656_j25864293057120_1_alg».proof.Proof.Val.Bias
import proofs.«139656_j25864293057120_1_alg».proof.Proof.Val.Pool
import Idealize.ShloMosaic.Lib.StableHlo.Run

set_option maxRecDepth 16384

noncomputable section

namespace Cert.Hand.Val

open Cert.KernelIdeal Cert.KernelIdeal.Gen Cert.KernelIdeal.Hand
open Idealize.ShloMosaic Idealize.ShloMosaic.TcCoe Idealize.SL.Sem

section Stretch
variable {F : FTy → Type} [FloatOps F] [Named F]

/-! ## The host stretches, from any contents

Each stretch is the reference program's own operations, so what it leaves in a buffer is the specification's
function of what it found in the buffers it reads. -/

set_option maxHeartbeats 2000000 in
/-- The edges' sources after the first stretch. -/
theorem host0_v5 (V : Valuation τ sig (Elt F)) :
    StableHlo.after hostOps0 V (Proc.devRef .tc main_v5) = Cert.Hand.Spec.srcIdx (V (Proc.devRef .tc main_arg1)) := by
  open Idealize.ShloMosaic.StableHlo in after_results_simp
  unfold Cert.Hand.Spec.srcIdx
  rfl

set_option maxHeartbeats 2000000 in
/-- The edges' destinations after the first stretch. -/
theorem host0_v6 (V : Valuation τ sig (Elt F)) :
    StableHlo.after hostOps0 V (Proc.devRef .tc main_v6) = Cert.Hand.Spec.dstIdx (V (Proc.devRef .tc main_arg1)) := by
  open Idealize.ShloMosaic.StableHlo in after_results_simp
  unfold Cert.Hand.Spec.dstIdx
  rfl

set_option maxHeartbeats 2000000 in
/-- Where the degree is positive, after the first stretch. -/
theorem host0_v12 (V : Valuation τ sig (Elt F)) :
    StableHlo.after hostOps0 V (Proc.devRef .tc main_v12)
      = cmpf (F := F) .ogt (Cert.Hand.Spec.degree (V (Proc.devRef .tc main_arg1)))
          (broadcastInDim S100000 ![] bcast_S_S100000 (constant S_ .f32 0x00000000#32)) := by
  open Idealize.ShloMosaic.StableHlo in after_results_simp
  unfold Cert.Hand.Spec.degree Cert.Hand.Spec.dstIdx
  rfl

set_option maxHeartbeats 2000000 in
/-- The inverse root of the degree, after the first stretch. -/
theorem host0_v13 (V : Valuation τ sig (Elt F)) :
    StableHlo.after hostOps0 V (Proc.devRef .tc main_v13)
      = Host.rsqrt (Cert.Hand.Spec.degree (V (Proc.devRef .tc main_arg1))) := by
  open Idealize.ShloMosaic.StableHlo in after_results_simp
  unfold Cert.Hand.Spec.degree Cert.Hand.Spec.dstIdx
  rfl

set_option maxHeartbeats 2000000 in
/-- The zero the selection falls back to, after the first stretch. -/
theorem host0_cst2 (V : Valuation τ sig (Elt F)) :
    StableHlo.after hostOps0 V (Proc.devRef .tc main_cst_2) = constant (F := F) S_ .f32 0x00000000#32 := by
  open Idealize.ShloMosaic.StableHlo in after_results_simp

set_option maxHeartbeats 2000000 in
/-- The inverse root degree, zero where the degree is not positive: the called selection. -/
theorem host01_v14 (V : Valuation τ sig (Elt F)) (e : (⟨S2x2400000, .i32⟩ : BufTy).Contents (Elt F))
    (h12 : V (Proc.devRef .tc main_v12) = cmpf (F := F) .ogt (Cert.Hand.Spec.degree e)
          (broadcastInDim S100000 ![] bcast_S_S100000 (constant S_ .f32 0x00000000#32)))
    (h13 : V (Proc.devRef .tc main_v13) = Host.rsqrt (Cert.Hand.Spec.degree e))
    (hc : V (Proc.devRef .tc main_cst_2) = constant (F := F) S_ .f32 0x00000000#32) :
    StableHlo.after hostOps0_1 V (Proc.devRef .tc main_v14) = Cert.Hand.Spec.dinv e := by
  open Idealize.ShloMosaic.StableHlo in after_results_simp
  rw [h12, h13, hc]
  unfold Cert.Hand.Spec.dinv
  rfl

set_option maxHeartbeats 2000000 in
/-- The edge weights: the product of the inverse root degrees at the two (wrapped) ends. -/
theorem host02_v29 (V : Valuation τ sig (Elt F)) (e : (⟨S2x2400000, .i32⟩ : BufTy).Contents (Elt F))
    (h14 : V (Proc.devRef .tc main_v14) = Cert.Hand.Spec.dinv e)
    (h5 : V (Proc.devRef .tc main_v5) = Cert.Hand.Spec.srcIdx e) (h6 : V (Proc.devRef .tc main_v6) = Cert.Hand.Spec.dstIdx e) :
    StableHlo.after hostOps0_2 V (Proc.devRef .tc main_v29) = Cert.Hand.Spec.edgeNorm e := by
  open Idealize.ShloMosaic.StableHlo in after_results_simp
  rw [h14, h5, h6]
  unfold Cert.Hand.Spec.edgeNorm Cert.Hand.Spec.wrapIdx
  rfl

set_option maxHeartbeats 2000000 in
/-- The first aggregation's host stretch. -/
theorem host1_v43 (V : Valuation τ sig (Elt F)) (e : (⟨S2x2400000, .i32⟩ : BufTy).Contents (Elt F))
    (h5 : V (Proc.devRef .tc main_v5) = Cert.Hand.Spec.srcIdx e) (h6 : V (Proc.devRef .tc main_v6) = Cert.Hand.Spec.dstIdx e)
    (h29 : V (Proc.devRef .tc main_v29) = Cert.Hand.Spec.edgeNorm e) :
    StableHlo.after hostOps1 V (Proc.devRef .tc main_v43) = Cert.Hand.Spec.agg16 (V (Proc.devRef .tc main_v30)) e := by
  open Idealize.ShloMosaic.StableHlo in after_results_simp
  rw [h5, h6, h29]
  unfold Cert.Hand.Spec.agg16 Cert.Hand.Spec.wrapIdx
  rfl

set_option maxHeartbeats 2000000 in
/-- The first bias, as a row. -/
theorem host1_v44 (V : Valuation τ sig (Elt F)) :
    StableHlo.after hostOps1 V (Proc.devRef .tc main_v44)
      = shapeCast S1x16 (V (Proc.devRef .tc main_arg3)) shapeCasts_S16_S1x16 := by
  open Idealize.ShloMosaic.StableHlo in after_results_simp
  rfl

set_option maxHeartbeats 2000000 in
/-- The second aggregation's host stretch. -/
theorem host3_v59 (V : Valuation τ sig (Elt F)) (e : (⟨S2x2400000, .i32⟩ : BufTy).Contents (Elt F))
    (h5 : V (Proc.devRef .tc main_v5) = Cert.Hand.Spec.srcIdx e) (h6 : V (Proc.devRef .tc main_v6) = Cert.Hand.Spec.dstIdx e)
    (h29 : V (Proc.devRef .tc main_v29) = Cert.Hand.Spec.edgeNorm e) :
    StableHlo.after hostOps3 V (Proc.devRef .tc main_v59) = Cert.Hand.Spec.agg32 (V (Proc.devRef .tc main_v46)) e := by
  open Idealize.ShloMosaic.StableHlo in after_results_simp
  rw [h5, h6, h29]
  unfold Cert.Hand.Spec.agg32 Cert.Hand.Spec.wrapIdx
  rfl

set_option maxHeartbeats 2000000 in
/-- The second bias, as a row. -/
theorem host3_v60 (V : Valuation τ sig (Elt F)) :
    StableHlo.after hostOps3 V (Proc.devRef .tc main_v60)
      = shapeCast S1x32 (V (Proc.devRef .tc main_arg5)) shapeCasts_S32_S1x32 := by
  open Idealize.ShloMosaic.StableHlo in after_results_simp
  rfl

open Idealize.ShloMosaic.ValueIdx in
/-- A vector recast as a one-row matrix is the vector broadcast along the columns of a one-row matrix. -/
theorem row_cast_eq {α : Type} {a : ℕ} (ha : a ≠ 1) (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply x h u i]
  refine (broadcastInDim_apply ![1] hb x _ (ix1 i) ?_).symm
  intro d
  match d with
  | ⟨0, _⟩ =>
    rw [if_neg (by exact ha)]
    rfl

theorem row16 {α : Type} (x : S16.Idx → α) :
    shapeCast S1x16 x shapeCasts_S16_S1x16 = broadcastInDim Cert.ReferenceIdeal.S1x16 ![1] Cert.ReferenceIdeal.Gen.bcast_S16_S1x16_1 x :=
  row_cast_eq (by decide) x _ _
theorem row32 {α : Type} (x : S32.Idx → α) :
    shapeCast S1x32 x shapeCasts_S32_S1x32 = broadcastInDim Cert.ReferenceIdeal.S1x32 ![1] Cert.ReferenceIdeal.Gen.bcast_S32_S1x32_1 x :=
  row_cast_eq (by decide) x _ _

/-! ## The first three stretches, from the launch memory -/

variable (m : (ℓ : Loc nD τ sig) → Buf (Elt F) ℓ)

theorem V3_arg (c : Dev nD) (r : Ref sig .tc) (h0 : r ∉ hostOps0_W) (h1 : r ∉ hostOps0_1_W) (h2 : r ∉ hostOps0_2_W) :
    V3 m c r = m ((c.tc : Thread nD τ).loc r) :=
  (V3_of m c r h2).trans ((V2_of m c r h1).trans (V1_of m c r h0))

theorem V3_v5 (c : Dev nD) : V3 m c main_v5 = Cert.Hand.Spec.srcIdx (m ((c.tc : Thread nD τ).loc main_arg1)) :=
  (V3_of m c main_v5 (by decide)).trans ((V2_of m c main_v5 (by decide)).trans (host0_v5 (V0 m c)))

theorem V3_v6 (c : Dev nD) : V3 m c main_v6 = Cert.Hand.Spec.dstIdx (m ((c.tc : Thread nD τ).loc main_arg1)) :=
  (V3_of m c main_v6 (by decide)).trans ((V2_of m c main_v6 (by decide)).trans (host0_v6 (V0 m c)))

theorem V2_v14 (c : Dev nD) : V2 m c main_v14 = Cert.Hand.Spec.dinv (m ((c.tc : Thread nD τ).loc main_arg1)) :=
  host01_v14 (V1 m c) _ (host0_v12 (V0 m c)) (host0_v13 (V0 m c)) (host0_cst2 (V0 m c))

theorem V3_v29 (c : Dev nD) : V3 m c main_v29 = Cert.Hand.Spec.edgeNorm (m ((c.tc : Thread nD τ).loc main_arg1)) :=
  host02_v29 (V2 m c) _ (V2_v14 m c) ((V2_of m c main_v5 (by decide)).trans (host0_v5 (V0 m c)))
    ((V2_of m c main_v6 (by decide)).trans (host0_v6 (V0 m c)))

/-! ## The edge data and the arguments reach every later boundary unchanged -/

theorem W4_v5 (c : Dev nD) : W4 m c main_v5 = Cert.Hand.Spec.srcIdx (m ((c.tc : Thread nD τ).loc main_arg1)) :=
  (W4_of m c main_v5 (by decide)).trans (V3_v5 m c)
theorem W4_v6 (c : Dev nD) : W4 m c main_v6 = Cert.Hand.Spec.dstIdx (m ((c.tc : Thread nD τ).loc main_arg1)) :=
  (W4_of m c main_v6 (by decide)).trans (V3_v6 m c)
theorem W4_v29 (c : Dev nD) : W4 m c main_v29 = Cert.Hand.Spec.edgeNorm (m ((c.tc : Thread nD τ).loc main_arg1)) :=
  (W4_of m c main_v29 (by decide)).trans (V3_v29 m c)

/-- A reference that neither region 0, the first aggregation, region 1 nor region 2 writes is, before the second
    aggregation, as after the first three stretches. -/
theorem W7_keep (c : Dev nD) (r : Ref sig .tc) (h30 : r ∉ ([main_v30] : List (Ref sig .tc))) (h1 : r ∉ hostOps1_W)
    (h45 : r ∉ ([main_v45] : List (Ref sig .tc))) (h46 : r ∉ ([main_v46] : List (Ref sig .tc))) : W7 m c r = V3 m c r :=
  (W7_of m c r h46).trans ((W6_of m c r h45).trans ((W5_of m c r h1).trans (W4_of m c r h30)))

theorem W4_arg3 (c : Dev nD) : W4 m c main_arg3 = m ((c.tc : Thread nD τ).loc main_arg3) :=
  (W4_of m c main_arg3 (by decide)).trans (V3_arg m c main_arg3 (by decide) (by decide) (by decide))
theorem W6_arg4 (c : Dev nD) : W6 m c main_arg4 = m ((c.tc : Thread nD τ).loc main_arg4) :=
  (W6_of m c main_arg4 (by decide)).trans ((W5_of m c main_arg4 (by decide)).trans ((W4_of m c main_arg4 (by decide)).trans
    (V3_arg m c main_arg4 (by decide) (by decide) (by decide))))
theorem W7_arg5 (c : Dev nD) : W7 m c main_arg5 = m ((c.tc : Thread nD τ).loc main_arg5) :=
  (W7_keep m c main_arg5 (by decide) (by decide) (by decide) (by decide)).trans (V3_arg m c main_arg5 (by decide) (by decide) (by decide))

/-! ## The two aggregations and the two bias rows -/

theorem W5_v43 (c : Dev nD) :
    W5 m c main_v43 = Cert.Hand.Spec.agg16 (W4 m c main_v30) (m ((c.tc : Thread nD τ).loc main_arg1)) :=
  host1_v43 (W4 m c) _ (W4_v5 m c) (W4_v6 m c) (W4_v29 m c)

theorem W5_v44 (c : Dev nD) :
    W5 m c main_v44 = broadcastInDim Cert.ReferenceIdeal.S1x16 ![1] Cert.ReferenceIdeal.Gen.bcast_S16_S1x16_1 (m ((c.tc : Thread nD τ).loc main_arg3)) :=
  (host1_v44 (W4 m c)).trans ((row16 _).trans (congrArg _ (W4_arg3 m c)))

theorem W8_v59 (c : Dev nD) :
    W8 m c main_v59 = Cert.Hand.Spec.agg32 (W7 m c main_v46) (m ((c.tc : Thread nD τ).loc main_arg1)) :=
  host3_v59 (W7 m c) _
    ((W7_keep m c main_v5 (by decide) (by decide) (by decide) (by decide)).trans (V3_v5 m c))
    ((W7_keep m c main_v6 (by decide) (by decide) (by decide) (by decide)).trans (V3_v6 m c))
    ((W7_keep m c main_v29 (by decide) (by decide) (by decide) (by decide)).trans (V3_v29 m c))

theorem W8_v60 (c : Dev nD) :
    W8 m c main_v60 = broadcastInDim Cert.ReferenceIdeal.S1x32 ![1] Cert.ReferenceIdeal.Gen.bcast_S32_S1x32_1 (m ((c.tc : Thread nD τ).loc main_arg5)) :=
  (host3_v60 (W7 m c)).trans ((row32 _).trans (congrArg _ (W7_arg5 m c)))

end Stretch

/-! ## The regions' arrays as the specification's layers, over the extended reals -/

variable (m : (ℓ : Loc nD τ sig) → Buf (Elt Ideal) ℓ)

/-- Region 0 leaves the product of the node features with the first weight matrix. -/
theorem W4_v30 (c : Dev nD) :
    W4 (F := Ideal) m c main_v30
      = Host.dotGeneral (F := Ideal) (φ₁ := .f32) (φ₂ := .f32) Cert.ReferenceIdeal.dot_S100000x3_S3x16_S100000x16_1_0_0_1_n_n none
          (m ((c.tc : Thread nD τ).loc main_arg0)) (m ((c.tc : Thread nD τ).loc main_arg2)) :=
  (W4_self m c).trans ((reg0_val (fun c b => V3 m c b) c).trans
    (congrArg₂ (Host.dotGeneral (F := Ideal) (φ₁ := .f32) (φ₂ := .f32) Cert.ReferenceIdeal.dot_S100000x3_S3x16_S100000x16_1_0_0_1_n_n none)
      (V3_arg m c main_arg0 (by decide) (by decide) (by decide)) (V3_arg m c main_arg2 (by decide) (by decide) (by decide))))

/-- Region 1 leaves the first layer: the aggregation plus the bias, cut below at zero. -/
theorem W6_v45 (c : Dev nD) :
    W6 (F := Ideal) m c main_v45
      = Cert.Hand.Spec.rectBias16 (F := Ideal) (W5 m c main_v43) (W5 m c main_v44) :=
  (W6_self m c).trans (reg1_val (fun c b => W5 m c b) c)

/-- Region 2 leaves the product of the first layer with the second weight matrix. -/
theorem W7_v46 (c : Dev nD) :
    W7 (F := Ideal) m c main_v46
      = Host.dotGeneral (F := Ideal) (φ₁ := .f32) (φ₂ := .f32) Cert.ReferenceIdeal.dot_S100000x16_S16x32_S100000x32_1_0_0_1_n_n none
          (W6 m c main_v45) (m ((c.tc : Thread nD τ).loc main_arg4)) :=
  (W7_self m c).trans ((reg2_val (fun c b => W6 m c b) c).trans
    (congrArg (Host.dotGeneral (F := Ideal) (φ₁ := .f32) (φ₂ := .f32) Cert.ReferenceIdeal.dot_S100000x16_S16x32_S100000x32_1_0_0_1_n_n none (W6 m c main_v45))
      (W6_arg4 m c)))

/-- Region 3 leaves the second layer: the aggregation plus the bias. -/
theorem W9_v61 (c : Dev nD) :
    W9 (F := Ideal) m c main_v61 = Cert.Hand.Spec.bias32 (F := Ideal) (W8 m c main_v59) (W8 m c main_v60) :=
  (W9_self m c).trans (reg3_val (fun c b => W8 m c b) c)

/-- Region 4 leaves the mean of the second layer's rows. -/
theorem W10_v62 (c : Dev nD) :
    W10 (F := Ideal) m c main_v62 = Cert.Hand.Spec.meanRows (F := Ideal) (W9 m c main_v61) :=
  (W10_self m c).trans ((arrAt4_out (fun c b => W9 m c b) c).trans (reg4_val (fun c b => W9 m c b) c))

/-- At the end of the idealized kernel program the result array holds the network of the launch arguments. -/
theorem kernel_value (c : Dev nD) :
    W10 (F := Ideal) m c main_v62
      = Cert.Hand.Spec.gcn (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [W10_v62, W9_v61, W8_v59, W8_v60, W7_v46, W6_v45, W5_v43, W5_v44, W4_v30]
  rfl

end Cert.Hand.Val

end
-- ==== Proof.lean ====
/-
  The certificate: a two-layer graph convolution with mean pooling, five Pallas regions among host
  operations, against its jnp reference.

  Both programs compute, from node features `x`, an edge list and two weight matrices with their biases,
  `mean_rows (Â · relu(Â · (x W1) + b1) · W2 + b2)` where `Â` is the adjacency with self loops, normalised on both
  sides by the inverse root degrees. The edge-indexed part — gather along the sources, weight, scatter-add at the
  destinations — is the same host operations in both programs. The kernel does the two dense products, the two
  bias passes and the row mean in five gridded regions of 50 row blocks each; over the extended reals each region
  leaves in its array exactly the whole-array function the reference applies there: a product rounded to bf16 on
  the way in is the product (the rounding is the identity); 50 blocks of 2000 rows tile the 100000 rows; block
  sums added up in order are the whole column sum (addition of extended reals is commutative and associative, so
  no finiteness is used); and multiplying by the named constant 1/100000 is dividing by 100000.

  The frames: each region's body is run symbolically once at a generic grid point; region 4 carries its running
  sum in a scratch row from point to point. The regions are chained through the host stretches between them.
-/
import proofs.«139656_j25864293057120_1_alg».proof.Defs
import proofs.«139656_j25864293057120_1_alg».proof.Proof.Gen.Kernel
import proofs.«139656_j25864293057120_1_alg».proof.Proof.Gen.KernelIdeal
import proofs.«139656_j25864293057120_1_alg».proof.Proof.Gen.ReferenceIdeal
import proofs.«139656_j25864293057120_1_alg».proof.Proof.Gen.Pre_finite_inputs
import proofs.«139656_j25864293057120_1_alg».proof.Proof.K.Run
import proofs.«139656_j25864293057120_1_alg».proof.Proof.KI.Run
import proofs.«139656_j25864293057120_1_alg».proof.Proof.KI.RunValue
import proofs.«139656_j25864293057120_1_alg».proof.Proof.Val.RefRun
import proofs.«139656_j25864293057120_1_alg».proof.Proof.Val.Spec
import proofs.«139656_j25864293057120_1_alg».proof.Proof.Val.Chain
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The ledger's one entry: the certificate's table gives `"inv_100000"` the value 1/100000, and the printed constant
    is that value over the extended reals. -/
theorem preserves : Cert.preserves_Kernel_KernelIdeal :=
  IdealRules.named_const.statement Cert.KernelIdeal.κ "inv_100000" .f32 0x3727C5AC#32 ((1 / 100000 : ℝ) : EReal) rfl

/-- Over the extended reals the idealized kernel program and the reference, run on the same arguments, both end with
    the network of those arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Hand.Spec.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Hand.Val.kernel_value m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.Hand.Spec.res_eq m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Hand.RefRun.frame_ref, preserves, algebraic⟩

end Cert.Proof

end
